-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64 : Shape := ⟨1, ![64]⟩
abbrev S24x512x1024 : Shape := ⟨3, ![24, 512, 1024]⟩
abbrev S24x1024 : Shape := ⟨2, ![24, 1024]⟩
abbrev S24x1024x512 : Shape := ⟨3, ![24, 1024, 512]⟩
abbrev S24x512 : Shape := ⟨2, ![24, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S24x512x1024 : S_.BroadcastsInDim S24x512x1024 (![] : Fin 0 → Fin S24x512x1024.rank)
  reducesTo_S24x512x1024_S_d0_1_2 : S24x512x1024.ReducesTo [0, 1, 2] S_
  bcast_S_S24x1024 : S_.BroadcastsInDim S24x1024 (![] : Fin 0 → Fin S24x1024.rank)
  reducesTo_S24x1024_S_d0_1 : S24x1024.ReducesTo [0, 1] S_
  bcast_S_S24x1024x512 : S_.BroadcastsInDim S24x1024x512 (![] : Fin 0 → Fin S24x1024x512.rank)
  reducesTo_S24x1024x512_S_d0_1_2 : S24x1024x512.ReducesTo [0, 1, 2] S_
  bcast_S_S24x512 : S_.BroadcastsInDim S24x512 (![] : Fin 0 → Fin S24x512.rank)
  reducesTo_S24x512_S_d0_1 : S24x512.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg1 : IVec S64 32) (main_v33 : IVec S_ 1) : IVec S_ 1 :=
  let main_c_12 : IVec S_ 32 := constantI S_ 32 0#32
  let main_v34 : IVec S64 32 := broadcastInDim S64 ![] bcast_S_S64 main_c_12
  let main_v35 : IVec S64 1 := cmpi .sge main_arg1 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v33 main_v36
  main_v37

def fn_part1 {F : FTy → Type} [FloatOps F] (main_arg1 : IVec S64 32) (main_arg5 : FVec F S24x512 .f32) (main_arg6 : FVec F S24x512 .f32) (main_arg7 : FVec F S24x512 .f32) (main_v13 : IVec S_ 1) (main_v16 : IVec S24x1024x512 1) : IVec S_ 1 :=
  let main_c_5 : IVec S_ 1 := constantI S_ 1 1#1
  let main_v17 : IVec S_ 1 := (fun x v => Host.reduce IntOp.andi x v reducesTo_S24x1024x512_S_d0_1_2 h_S_) main_v16 main_c_5
  let main_v18 : IVec S_ 1 := andi main_v13 main_v17
  let main_v19 : FVec F S24x512 .f32 := Host.absf main_arg5
  let main_cst_6 : FVec F S_ .f32 := constant S_ .f32 0x7F800000#32
  let main_v20 : FVec F S24x512 .f32 := broadcastInDim S24x512 ![] bcast_S_S24x512 main_cst_6
  let main_v21 : IVec S24x512 1 := cmpf .olt main_v19 main_v20
  let main_c_7 : IVec S_ 1 := constantI S_ 1 1#1
  let main_v22 : IVec S_ 1 := (fun x v => Host.reduce IntOp.andi x v reducesTo_S24x512_S_d0_1 h_S_) main_v21 main_c_7
  let main_v23 : IVec S_ 1 := andi main_v18 main_v22
  let main_v24 : FVec F S24x512 .f32 := Host.absf main_arg6
  let main_cst_8 : FVec F S_ .f32 := constant S_ .f32 0x7F800000#32
  let main_v25 : FVec F S24x512 .f32 := broadcastInDim S24x512 ![] bcast_S_S24x512 main_cst_8
  let main_v26 : IVec S24x512 1 := cmpf .olt main_v24 main_v25
  let main_c_9 : IVec S_ 1 := constantI S_ 1 1#1
  let main_v27 : IVec S_ 1 := (fun x v => Host.reduce IntOp.andi x v reducesTo_S24x512_S_d0_1 h_S_) main_v26 main_c_9
  let main_v28 : IVec S_ 1 := andi main_v23 main_v27
  let main_v29 : FVec F S24x512 .f32 := Host.absf main_arg7
  let main_cst_10 : FVec F S_ .f32 := constant S_ .f32 0x7F800000#32
  let main_v30 : FVec F S24x512 .f32 := broadcastInDim S24x512 ![] bcast_S_S24x512 main_cst_10
  let main_v31 : IVec S24x512 1 := cmpf .olt main_v29 main_v30
  let main_c_11 : IVec S_ 1 := constantI S_ 1 1#1
  let main_v32 : IVec S_ 1 := (fun x v => Host.reduce IntOp.andi x v reducesTo_S24x512_S_d0_1 h_S_) main_v31 main_c_11
  let main_v33 : IVec S_ 1 := andi main_v28 main_v32
  fn_part2 (F := F) main_arg1 main_v33

def fn {F : FTy → Type} [FloatOps F] (main_arg0 : FVec F S64x512x512 .f32) (main_arg1 : IVec S64 32) (main_arg2 : FVec F S24x512x1024 .f32) (main_arg3 : FVec F S24x1024 .f32) (main_arg4 : FVec F S24x1024x512 .f32) (main_arg5 : FVec F S24x512 .f32) (main_arg6 : FVec F S24x512 .f32) (main_arg7 : FVec F S24x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S24x512x1024 .f32 := Host.absf main_arg2
  let main_cst_0 : FVec F S_ .f32 := constant S_ .f32 0x7F800000#32
  let main_v5 : FVec F S24x512x1024 .f32 := broadcastInDim S24x512x1024 ![] bcast_S_S24x512x1024 main_cst_0
  let main_v6 : IVec S24x512x1024 1 := cmpf .olt main_v4 main_v5
  let main_c_1 : IVec S_ 1 := constantI S_ 1 1#1
  let main_v7 : IVec S_ 1 := (fun x v => Host.reduce IntOp.andi x v reducesTo_S24x512x1024_S_d0_1_2 h_S_) main_v6 main_c_1
  let main_v8 : IVec S_ 1 := andi main_v3 main_v7
  let main_v9 : FVec F S24x1024 .f32 := Host.absf main_arg3
  let main_cst_2 : FVec F S_ .f32 := constant S_ .f32 0x7F800000#32
  let main_v10 : FVec F S24x1024 .f32 := broadcastInDim S24x1024 ![] bcast_S_S24x1024 main_cst_2
  let main_v11 : IVec S24x1024 1 := cmpf .olt main_v9 main_v10
  let main_c_3 : IVec S_ 1 := constantI S_ 1 1#1
  let main_v12 : IVec S_ 1 := (fun x v => Host.reduce IntOp.andi x v reducesTo_S24x1024_S_d0_1 h_S_) main_v11 main_c_3
  let main_v13 : IVec S_ 1 := andi main_v8 main_v12
  let main_v14 : FVec F S24x1024x512 .f32 := Host.absf main_arg4
  let main_cst_4 : FVec F S_ .f32 := constant S_ .f32 0x7F800000#32
  let main_v15 : FVec F S24x1024x512 .f32 := broadcastInDim S24x1024x512 ![] bcast_S_S24x1024x512 main_cst_4
  let main_v16 : IVec S24x1024x512 1 := cmpf .olt main_v14 main_v15
  fn_part1 (F := F) main_arg1 main_arg5 main_arg6 main_arg7 main_v13 main_v16
-- ==== Kernel.lean ====
abbrev S64x512x512 : Shape := ⟨3, ![64, 512, 512]⟩
abbrev S64 : Shape := ⟨1, ![64]⟩
abbrev S24x512x1024 : Shape := ⟨3, ![24, 512, 1024]⟩
abbrev S24x1024 : Shape := ⟨2, ![24, 1024]⟩
abbrev S24x1024x512 : Shape := ⟨3, ![24, 1024, 512]⟩
abbrev S24x512 : Shape := ⟨2, ![24, 512]⟩
abbrev S_ : Shape := ⟨0, ![]⟩
abbrev S64x1 : Shape := ⟨2, ![64, 1]⟩
abbrev S24x1x1024 : Shape := ⟨3, ![24, 1, 1024]⟩
abbrev S24x1x512 : Shape := ⟨3, ![24, 1, 512]⟩
abbrev S24x3x512 : Shape := ⟨3, ![24, 3, 512]⟩
abbrev S1x512x512 : Shape := ⟨3, ![1, 512, 512]⟩
abbrev S1 : Shape := ⟨1, ![1]⟩
abbrev S1x512x1024 : Shape := ⟨3, ![1, 512, 1024]⟩
abbrev S1x1x1024 : Shape := ⟨3, ![1, 1, 1024]⟩
abbrev S1x1024x512 : Shape := ⟨3, ![1, 1024, 512]⟩
abbrev S1x3x512 : Shape := ⟨3, ![1, 3, 512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S1x1x512 : Shape := ⟨3, ![1, 1, 512]⟩
abbrev S512 : Shape := ⟨1, ![512]⟩
abbrev S1x1024 : Shape := ⟨2, ![1, 1024]⟩
abbrev S1x512 : Shape := ⟨2, ![1, 512]⟩
abbrev S512x1 : Shape := ⟨2, ![512, 1]⟩

abbrev nBuf : Space → Nat
  | .hbm => 32
  | .vmem => 12
  | .smem => 2
  | _ => 0

abbrev bufTy : (tb : Table) → Fin (tcTables nBuf tb) → BufTy
  | .hbm, ⟨0, _⟩ => ⟨S64x512x512, .f32⟩
  | .hbm, ⟨1, _⟩ => ⟨S64, .i32⟩
  | .hbm, ⟨2, _⟩ => ⟨S24x512x1024, .f32⟩
  | .hbm, ⟨3, _⟩ => ⟨S24x1024, .f32⟩
  | .hbm, ⟨4, _⟩ => ⟨S24x1024x512, .f32⟩
  | .hbm, ⟨5, _⟩ => ⟨S24x512, .f32⟩
  | .hbm, ⟨6, _⟩ => ⟨S24x512, .f32⟩
  | .hbm, ⟨7, _⟩ => ⟨S24x512, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S24x1x1024, .f32⟩
  | .hbm, ⟨27, _⟩ => ⟨S24x1x512, .f32⟩
  | .hbm, ⟨28, _⟩ => ⟨S24x1x512, .f32⟩
  | .hbm, ⟨29, _⟩ => ⟨S24x1x512, .f32⟩
  | .hbm, ⟨30, _⟩ => ⟨S24x3x512, .f32⟩
  | .hbm, ⟨31, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x512, .f32⟩
  | .local _ .vmem, ⟨7, _⟩ => ⟨S1x1024x512, .f32⟩
  | .local _ .vmem, ⟨8, _⟩ => ⟨S1x3x512, .f32⟩
  | .local _ .vmem, ⟨9, _⟩ => ⟨S1x3x512, .f32⟩
  | .local _ .vmem, ⟨10, _⟩ => ⟨S1x512x512, .f32⟩
  | .local _ .vmem, ⟨11, _⟩ => ⟨S1x512x512, .f32⟩
  | .local _ .smem, ⟨0, _⟩ => ⟨S64, .i32⟩
  | .local _ .smem, ⟨1, _⟩ => ⟨S64, .i32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_call1_v0 : Ref sig .tc := ⟨.hbm, 16, rfl⟩
abbrev main_call1_v1_0 : Ref sig .tc := ⟨.hbm, 17, rfl⟩
abbrev main_c_1 : Ref sig .tc := ⟨.hbm, 18, rfl⟩
abbrev main_v2 : Ref sig .tc := ⟨.hbm, 19, rfl⟩
abbrev main_v3 : Ref sig .tc := ⟨.hbm, 20, rfl⟩
abbrev main_c_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  shapeCasts_S24x1024_S24x1x1024 : S24x1024.ShapeCasts S24x1x1024
  bcast_S24x512_S24x1x512_0_2 : S24x512.BroadcastsInDim S24x1x512 (![0, 2] : Fin 2 → Fin S24x1x512.rank)
  concatenates_S24x1x512_S24x1x512_S24x1x512_S24x3x512_d1 : Shape.Concatenates [S24x1x512, S24x1x512, S24x1x512] S24x3x512 1
  numel1_S1 : S1.numel = 1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x3x512_S1x1x512_0_0_0 : ∀ a, (![0, 0, 0] : Fin 3 → Nat) a + S1x1x512.size a ≤ S1x3x512.size a
  h_S1x1x512 : 0 < S1x1x512.numel
  shapeCasts_S1x1x512_S512 : S1x1x512.ShapeCasts S512
  inb_S1x3x512_S1x1x512_0_1_0 : ∀ a, (![0, 1, 0] : Fin 3 → Nat) a + S1x1x512.size a ≤ S1x3x512.size a
  inb_S1x3x512_S1x1x512_0_2_0 : ∀ a, (![0, 2, 0] : Fin 3 → Nat) a + S1x1x512.size a ≤ S1x3x512.size a
  shapeCasts_S1024_S1x1024 : S1024.ShapeCasts S1x1024
  broadcasts_S1x1024_S512x1024 : S1x1024.Broadcasts S512x1024
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  gather_S64_S64x1_S64_n_0_n_n_0_1_1_wf : GatherDims.WF S64 S64x1 S64 [] [0] [] [0] [] 1 ![1]
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_arg2) S1x512x1024.size reads0_1 false false 2 stage0_1 sem0_1 nbuf0_1 hstage0_1

abbrev spec0_2 : Pipeline.WinSpec sig grid0.rank :=
  Pipeline.WinSpec.ofSpec (Memref.whole main_v9) S1x1x1024.size reads0_2 false false 2 stage0_2 sem0_2 nbuf0_2 hstage0_2

abbrev spec0_3 : Pipeline.WinSpec sig grid0.rank :=
  Pipeline.WinSpec.ofSpec (Memref.whole main_arg4) S1x1024x512.size reads0_3 false false 2 stage0_3 sem0_3 nbuf0_3 hstage0_3

abbrev spec0_4 : Pipeline.WinSpec sig grid0.rank :=
  Pipeline.WinSpec.ofSpec (Memref.whole main_v13) S1x3x512.size reads0_4 false false 2 stage0_4 sem0_4 nbuf0_4 hstage0_4

abbrev spec0_5 : Pipeline.WinSpec sig grid0.rank :=
  Pipeline.WinSpec.ofSpec (Memref.whole main_v14) S1x512x512.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | ⟨_ + 6, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x512.size a ≤ S64x512x512.size a), EltTy.bits .f32 = 32 ∨ (Rect.block (s := S64x512x512) S1x512x512.size (cc0_transform_0 k0_off1_inb numel1_S1 pf i) h).WholeWords (EltTy.packing .f32)) ∧
  (∀ i : grid0.Coords, ∃ h : (∀ a, (cc0_transform_1 k0_off1_inb numel1_S1 pf i a + 1) * S1x512x1024.size a ≤ S24x512x1024.size a), EltTy.bits .f32 = 32 ∨ (Rect.block (s := S24x512x1024) S1x512x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S24x1x1024.size a), EltTy.bits .f32 = 32 ∨ (Rect.block (s := S24x1x1024) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x1024x512.size a ≤ S24x1024x512.size a), EltTy.bits .f32 = 32 ∨ (Rect.block (s := S24x1024x512) S1x1024x512.size (cc0_transform_3 k0_off1_inb numel1_S1 pf i) h).WholeWords (EltTy.packing .f32)) ∧
  (∀ i : grid0.Coords, ∃ h : (∀ a, (cc0_transform_4 k0_off1_inb numel1_S1 pf i a + 1) * S1x3x512.size a ≤ S24x3x512.size a), EltTy.bits .f32 = 32 ∨ (Rect.block (s := S24x3x512) S1x3x512.size (cc0_transform_4 k0_off1_inb numel1_S1 pf i) h).WholeWords (EltTy.packing .f32)) ∧
  (∀ i : grid0.Coords, ∃ h : (∀ a, (cc0_transform_5 k0_off1_inb numel1_S1 pf i a + 1) * S1x512x512.size a ≤ S64x512x512.size a), EltTy.bits .f32 = 32 ∨ (Rect.block (s := S64x512x512) S1x512x512.size (cc0_transform_5 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2 i).elim fun h _ => h a | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2 i).elim fun _ h => h | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S64x512x512 : Shape := ⟨3, ![64, 512, 512]⟩
abbrev S64 : Shape := ⟨1, ![64]⟩
abbrev S24x512x1024 : Shape := ⟨3, ![24, 512, 1024]⟩
abbrev S24x1024 : Shape := ⟨2, ![24, 1024]⟩
abbrev S24x1024x512 : Shape := ⟨3, ![24, 1024, 512]⟩
abbrev S24x512 : Shape := ⟨2, ![24, 512]⟩
abbrev S_ : Shape := ⟨0, ![]⟩
abbrev S64x1 : Shape := ⟨2, ![64, 1]⟩
abbrev S64x512x1024 : Shape := ⟨3, ![64, 512, 1024]⟩
abbrev S64x1024 : Shape := ⟨2, ![64, 1024]⟩
abbrev S64x1x1024 : Shape := ⟨3, ![64, 1, 1024]⟩
abbrev S64x1024x512 : Shape := ⟨3, ![64, 1024, 512]⟩
abbrev S64x512 : Shape := ⟨2, ![64, 512]⟩
abbrev S64x1x512 : Shape := ⟨3, ![64, 1, 512]⟩
abbrev S64x512x1 : Shape := ⟨3, ![64, 512, 1]⟩

abbrev nBuf : Space → Nat
  | .hbm => 117
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64, .i32⟩
  | .hbm, ⟨2, _⟩ => ⟨S24x512x1024, .f32⟩
  | .hbm, ⟨3, _⟩ => ⟨S24x1024, .f32⟩
  | .hbm, ⟨4, _⟩ => ⟨S24x1024x512, .f32⟩
  | .hbm, ⟨5, _⟩ => ⟨S24x512, .f32⟩
  | .hbm, ⟨6, _⟩ => ⟨S24x512, .f32⟩
  | .hbm, ⟨7, _⟩ => ⟨S24x512, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x512x1024, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1024, .f32⟩
  | .hbm, ⟨26, _⟩ => ⟨S64x1x1024, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S64x1, .i32⟩
  | .hbm, ⟨35, _⟩ => ⟨S64x1024x512, .f32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S64x512, .f32⟩
  | .hbm, ⟨45, _⟩ => ⟨S64x1x512, .f32⟩
  | .hbm, ⟨46, _⟩ => ⟨S64x512x1024, .f32⟩
  | .hbm, ⟨47, _⟩ => ⟨S64x512x1024, .f32⟩
  | .hbm, ⟨48, _⟩ => ⟨S64x512x1024, .f32⟩
  | .hbm, ⟨49, _⟩ => ⟨S_, .f32⟩
  | .hbm, ⟨50, _⟩ => ⟨S64x512x1024, .f32⟩
  | .hbm, ⟨51, _⟩ => ⟨S64x512x1024, .f32⟩
  | .hbm, ⟨52, _⟩ => ⟨S64x512x512, .f32⟩
  | .hbm, ⟨53, _⟩ => ⟨S64x512x512, .f32⟩
  | .hbm, ⟨54, _⟩ => ⟨S64x512x512, .f32⟩
  | .hbm, ⟨55, _⟩ => ⟨S_, .f32⟩
  | .hbm, ⟨56, _⟩ => ⟨S64x512, .f32⟩
  | .hbm, ⟨57, _⟩ => ⟨S64x512x1, .f32⟩
  | .hbm, ⟨58, _⟩ => ⟨S_, .f32⟩
  | .hbm, ⟨59, _⟩ => ⟨S64x512x1, .f32⟩
  | .hbm, ⟨60, _⟩ => ⟨S64x512x1, .f32⟩
  | .hbm, ⟨61, _⟩ => ⟨S_, .i32⟩
  | .hbm, ⟨62, _⟩ => ⟨S_, .f32⟩
  | .hbm, ⟨63, _⟩ => ⟨S64x512, .f32⟩
  | .hbm, ⟨64, _⟩ => ⟨S64x512x1, .f32⟩
  | .hbm, ⟨65, _⟩ => ⟨S_, .f32⟩
  | .hbm, ⟨66, _⟩ => ⟨S64x512x1, .f32⟩
  | .hbm, ⟨67, _⟩ => ⟨S64x512x1, .f32⟩
  | .hbm, ⟨68, _⟩ => ⟨S64x512x512, .f32⟩
  | .hbm, ⟨69, _⟩ => ⟨S64x512x512, .f32⟩
  | .hbm, ⟨70, _⟩ => ⟨S64x512x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S64x512, .f32⟩
  | .hbm, ⟨76, _⟩ => ⟨S64x512x1, .f32⟩
  | .hbm, ⟨77, _⟩ => ⟨S64x512x1, .f32⟩
  | .hbm, ⟨78, _⟩ => ⟨S64x512x1, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S64x512x1, .f32⟩
  | .hbm, ⟨84, _⟩ => ⟨S64x512x1, .f32⟩
  | .hbm, ⟨85, _⟩ => ⟨S64x512x512, .f32⟩
  | .hbm, ⟨86, _⟩ => ⟨S64x512x512, .f32⟩
  | .hbm, ⟨87, _⟩ => ⟨S_, .f32⟩
  | .hbm, ⟨88, _⟩ => ⟨S64x512x1, .f32⟩
  | .hbm, ⟨89, _⟩ => ⟨S64x512x1, .f32⟩
  | .hbm, ⟨90, _⟩ => ⟨S64x512x1, .f32⟩
  | .hbm, ⟨91, _⟩ => ⟨S64x512x512, .f32⟩
  | .hbm, ⟨92, _⟩ => ⟨S64x512x512, .f32⟩
  | .hbm, ⟨93, _⟩ => ⟨S_, .i32⟩
  | .hbm, ⟨94, _⟩ => ⟨S64, .i32⟩
  | .hbm, ⟨95, _⟩ => ⟨S64, .i1⟩
  | .hbm, ⟨96, _⟩ => ⟨S_, .i32⟩
  | .hbm, ⟨97, _⟩ => ⟨S64, .i32⟩
  | .hbm, ⟨98, _⟩ => ⟨S64, .i32⟩
  | .hbm, ⟨99, _⟩ => ⟨S64, .i32⟩
  | .hbm, ⟨100, _⟩ => ⟨S64x1, .i32⟩
  | .hbm, ⟨101, _⟩ => ⟨S64x512, .f32⟩
  | .hbm, ⟨102, _⟩ => ⟨S64x1x512, .f32⟩
  | .hbm, ⟨103, _⟩ => ⟨S_, .i32⟩
  | .hbm, ⟨104, _⟩ => ⟨S64, .i32⟩
  | .hbm, ⟨105, _⟩ => ⟨S64, .i1⟩
  | .hbm, ⟨106, _⟩ => ⟨S_, .i32⟩
  | .hbm, ⟨107, _⟩ => ⟨S64, .i32⟩
  | .hbm, ⟨108, _⟩ => ⟨S64, .i32⟩
  | .hbm, ⟨109, _⟩ => ⟨S64, .i32⟩
  | .hbm, ⟨110, _⟩ => ⟨S64x1, .i32⟩
  | .hbm, ⟨111, _⟩ => ⟨S64x512, .f32⟩
  | .hbm, ⟨112, _⟩ => ⟨S64x1x512, .f32⟩
  | .hbm, ⟨113, _⟩ => ⟨S64x512x512, .f32⟩
  | .hbm, ⟨114, _⟩ => ⟨S64x512x512, .f32⟩
  | .hbm, ⟨115, _⟩ => ⟨S64x512x512, .f32⟩
  | .hbm, ⟨116, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_3 : Ref sig .tc := ⟨.hbm, 79, rfl⟩
abbrev main_call1_v13 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_9 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_10 : Ref sig .tc := ⟨.hbm, 93, rfl⟩
abbrev main_v49 : Ref sig .tc := ⟨.hbm, 94, rfl⟩
abbrev main_v50 : Ref sig .tc := ⟨.hbm, 95, rfl⟩
abbrev main_c_11 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_12 : Ref sig .tc := ⟨.hbm, 103, rfl⟩
abbrev main_v57 : Ref sig .tc := ⟨.hbm, 104, rfl⟩
abbrev main_v58 : Ref sig .tc := ⟨.hbm, 105, rfl⟩
abbrev main_c_13 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x1024_S64x1x1024_0_2 : S64x1024.BroadcastsInDim S64x1x1024 (![0, 2] : Fin 2 → Fin S64x1x1024.rank)
  bcast_S64x512_S64x1x512_0_2 : S64x512.BroadcastsInDim S64x1x512 (![0, 2] : Fin 2 → Fin S64x1x512.rank)
  bcast_S64x1x1024_S64x512x1024_0_1_2 : S64x1x1024.BroadcastsInDim S64x512x1024 (![0, 1, 2] : Fin 3 → Fin S64x512x1024.rank)
  bcast_S_S64x512x1024 : S_.BroadcastsInDim S64x512x1024 (![] : Fin 0 → Fin S64x512x1024.rank)
  bcast_S64x1x512_S64x512x512_0_1_2 : S64x1x512.BroadcastsInDim S64x512x512 (![0, 1, 2] : Fin 3 → Fin S64x512x512.rank)
  reducesTo_S64x512x512_S64x512_d2 : S64x512x512.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x512_0_1_2 : S64x512x1.BroadcastsInDim S64x512x512 (![0, 1, 2] : Fin 3 → Fin S64x512x512.rank)
  gather_S24x512x1024_S64x1_S64x512x1024_12_0_n_n_0_1_15121024_wf : GatherDims.WF S24x512x1024 S64x1 S64x512x1024 [1, 2] [0] [] [0] [] 1 ![1, 512, 1024]
  gather_S24x1024_S64x1_S64x1024_1_0_n_n_0_1_11024_wf : GatherDims.WF S24x1024 S64x1 S64x1024 [1] [0] [] [0] [] 1 ![1, 1024]
  gather_S24x1024x512_S64x1_S64x1024x512_12_0_n_n_0_1_11024512_wf : GatherDims.WF S24x1024x512 S64x1 S64x1024x512 [1, 2] [0] [] [0] [] 1 ![1, 1024, 512]
  gather_S24x512_S64x1_S64x512_1_0_n_n_0_1_1512_wf : GatherDims.WF S24x512 S64x1 S64x512 [1] [0] [] [0] [] 1 ![1, 512]
  dot_S64x512x512_S64x512x1024_S64x512x1024_2_1_1_2_0_0_wf : DotDims.WF S64x512x512 S64x512x1024 S64x512x1024 [2] [1] [1] [2] [0] [0]
  dot_S64x512x1024_S64x1024x512_S64x512x512_2_1_1_2_0_0_wf : DotDims.WF S64x512x1024 S64x1024x512 S64x512x512 [2] [1] [1] [2] [0] [0]

variable [Facts₀]

def gather_S24x512x1024_S64x1_S64x512x1024_12_0_n_n_0_1_15121024 : GatherDims S24x512x1024 S64x1 S64x512x1024 where
  offsetDims := [1, 2]
  collapsedSliceDims := [0]
  operandBatchingDims := []
  startIndicesBatchingDims := []
  startIndexMap := [0]
  indexVectorDim := 1
  sliceSizes := ![1, 512, 1024]
  wf := gather_S24x512x1024_S64x1_S64x512x1024_12_0_n_n_0_1_15121024_wf
def gather_S24x1024_S64x1_S64x1024_1_0_n_n_0_1_11024 : GatherDims S24x1024 S64x1 S64x1024 where
  offsetDims := [1]
  collapsedSliceDims := [0]
  operandBatchingDims := []
  startIndicesBatchingDims := []
  startIndexMap := [0]
  indexVectorDim := 1
  sliceSizes := ![1, 1024]
  wf := gather_S24x1024_S64x1_S64x1024_1_0_n_n_0_1_11024_wf
def gather_S24x1024x512_S64x1_S64x1024x512_12_0_n_n_0_1_11024512 : GatherDims S24x1024x512 S64x1 S64x1024x512 where
  offsetDims := [1, 2]
  collapsedSliceDims := [0]
  operandBatchingDims := []
  startIndicesBatchingDims := []
  startIndexMap := [0]
  indexVectorDim := 1
  sliceSizes := ![1, 1024, 512]
  wf := gather_S24x1024x512_S64x1_S64x1024x512_12_0_n_n_0_1_11024512_wf
def gather_S24x512_S64x1_S64x512_1_0_n_n_0_1_1512 : GatherDims S24x512 S64x1 S64x512 where
  offsetDims := [1]
  collapsedSliceDims := [0]
  operandBatchingDims := []
  startIndicesBatchingDims := []
  startIndexMap := [0]
  indexVectorDim := 1
  sliceSizes := ![1, 512]
  wf := gather_S24x512_S64x1_S64x512_1_0_n_n_0_1_1512_wf
def dot_S64x512x512_S64x512x1024_S64x512x1024_2_1_1_2_0_0 : DotDims S64x512x512 S64x512x1024 S64x512x1024 where
  lhsContracting := [2]
  rhsContracting := [1]
  lhsNonContracting := [1]
  rhsNonContracting := [2]
  lhsBatch := [0]
  rhsBatch := [0]
  wf := dot_S64x512x512_S64x512x1024_S64x512x1024_2_1_1_2_0_0_wf
def dot_S64x512x1024_S64x1024x512_S64x512x512_2_1_1_2_0_0 : DotDims S64x512x1024 S64x1024x512 S64x512x512 where
  lhsContracting := [2]
  rhsContracting := [1]
  lhsNonContracting := [1]
  rhsNonContracting := [2]
  lhsBatch := [0]
  rhsBatch := [0]
  wf := dot_S64x512x1024_S64x1024x512_S64x512x512_2_1_1_2_0_0_wf

class Facts : Prop extends Facts₀ where

variable [Facts]
-- ==== Proof.AdapterSpec.lean ====
/-
  One sample's output as a function of that sample's rows and of ITS DAY's parameters, over the extended reals.

  A sample is a 512 x 512 matrix x. Its day selects a first-layer weight w1 (512 x 1024) and bias b1, a second-layer
  weight w2 (1024 x 512) and bias b2, and a LayerNorm scale g and shift bt. The output is

    h      = max (x . w1 + b1) 0                      (hidden layer, ReLU)
    y      = h . w2 + b2                              (second layer)
    mean p = (sum over o of y p o) / 512
    c p o  = y p o - mean p
    var p  = (sum over o of (c p o)^2) / 512
    out p o = c p o * rsqrt (var p + eps) * g o + bt o

  with every matrix product a finite sum of products, the quotient and the reciprocal square root the extended reals'
  total ones, and the two float literals (512 and eps) the exact values of their words.

  Both programs compute this for sample i with the parameters of day `dayOf (d i)`: the day word read as a signed
  integer and clamped into 0 .. 23.
-/
import Idealize.ShloMosaic.PureOps.Ideal
import Idealize.ShloMosaic.Lib.ValueIdx

noncomputable section

open scoped BigOperators

namespace Cert.DayAdapter

open Idealize.ShloMosaic Idealize.ShloMosaic.ValueIdx

/-- The hidden layer at row `p`, unit `k`: the row's product with column `k` of the first weight, plus the bias, cut at 0. -/
def hidden (x : Fin 512 → Fin 512 → EReal) (w1 : Fin 512 → Fin 1024 → EReal) (b1 : Fin 1024 → EReal)
    (p : Fin 512) (k : Fin 1024) : EReal :=
  max ((∑ j : Fin 512, x p j * w1 j k) + b1 k) 0

/-- The second layer at row `p`, column `o`. -/
def affine (x : Fin 512 → Fin 512 → EReal) (w1 : Fin 512 → Fin 1024 → EReal) (b1 : Fin 1024 → EReal)
    (w2 : Fin 1024 → Fin 512 → EReal) (b2 : Fin 512 → EReal) (p o : Fin 512) : EReal :=
  (∑ k : Fin 1024, hidden x w1 b1 p k * w2 k o) + b2 o

/-- The row length 512, as the value of its float word. -/
def width : EReal := Ideal.ofBits .f32 0x44000000#32

/-- The LayerNorm's epsilon, as the value of its float word (the float nearest 1e-5). -/
def eps : EReal := Ideal.ofBits .f32 0x3727C5AC#32

/-- A row's mean. -/
def rowMean (y : Fin 512 → Fin 512 → EReal) (p : Fin 512) : EReal :=
  Ideal.div (∑ o : Fin 512, y p o) width

/-- An entry less its row's mean. -/
def centred (y : Fin 512 → Fin 512 → EReal) (p o : Fin 512) : EReal := y p o - rowMean y p

/-- A row's variance: the mean of the squared centred entries. -/
def rowVar (y : Fin 512 → Fin 512 → EReal) (p : Fin 512) : EReal :=
  Ideal.div (∑ o : Fin 512, centred y p o * centred y p o) width

/-- LayerNorm over the last axis with scale `g` and shift `bt`. -/
def layerNorm (y : Fin 512 → Fin 512 → EReal) (g bt : Fin 512 → EReal) (p o : Fin 512) : EReal :=
  centred y p o * Ideal.rsqrt (rowVar y p + eps) * g o + bt o

/-- One sample's output. -/
def sampleOut (x : Fin 512 → Fin 512 → EReal) (w1 : Fin 512 → Fin 1024 → EReal) (b1 : Fin 1024 → EReal)
    (w2 : Fin 1024 → Fin 512 → EReal) (b2 g bt : Fin 512 → EReal) (p o : Fin 512) : EReal :=
  layerNorm (affine x w1 b1 w2 b2) g bt p o

/-- The day a day word selects: the word read as a signed integer, clamped into 0 .. 23. -/
def dayOf (w : BitVec 32) : Fin 24 := ⟨min w.toInt.toNat 23, by omega⟩

/-- The whole result at sample `i`, row `p`, column `o`: the sample's output with the parameters of its day. -/
def outAt (x : (⟨3, ![64, 512, 512]⟩ : Shape).Idx → EReal) (d : (⟨1, ![64]⟩ : Shape).Idx → BitVec 32)
    (W1 : (⟨3, ![24, 512, 1024]⟩ : Shape).Idx → EReal) (B1 : (⟨2, ![24, 1024]⟩ : Shape).Idx → EReal)
    (W2 : (⟨3, ![24, 1024, 512]⟩ : Shape).Idx → EReal) (B2 Gm Bt : (⟨2, ![24, 512]⟩ : Shape).Idx → EReal)
    (i : Fin 64) (p o : Fin 512) : EReal :=
  sampleOut (fun r c => x (ix3 i r c))
    (fun j k => W1 (ix3 (dayOf (d (ix1 i))) j k)) (fun k => B1 (ix2 (dayOf (d (ix1 i))) k))
    (fun k c => W2 (ix3 (dayOf (d (ix1 i))) k c)) (fun c => B2 (ix2 (dayOf (d (ix1 i))) c))
    (fun c => Gm (ix2 (dayOf (d (ix1 i))) c)) (fun c => Bt (ix2 (dayOf (d (ix1 i))) c)) p o

end Cert.DayAdapter

end
-- ==== Proof.KI.RegionEntry.lean ====
/-
  The memory as the pallas_call finds it. Before the launch @main runs twenty-five host operations: it clamps the day
  words into 0 .. 23, sorts the sample numbers by clamped day (a stable argsort: the permutation table), gathers the
  clamped days in that order (the day table), reshapes the first bias to 24 x 1 x 1024 and stacks the second bias, the
  scale and the shift into one 24 x 3 x 512 array. None of them writes an argument array.
  Here: those contents (`entry`), that @main reduces to the launch holding them (`hmain`), that the eight argument
  arrays are still as launched, and the two tables the launch prefetches (`tables`).
-/
import proofs.«427686_j87058987089974_3_alg».proof.Proof.Gen.KernelIdeal.Launch
import Idealize.ShloMosaic.Lib.Pipeline.Frame
import Idealize.ShloMosaic.Lib.StableHlo.Run

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

variable (m : (ℓ : Loc nD τ sig) → Buf (Elt F) ℓ)

/-- Core `c`'s TensorCore buffers when the launch is reached: the launch memory after the four stretches of host
    operations (the two constants, the clamp, the argsort, and the fourteen lines that build the tables and the
    stacked parameters). -/
abbrev entry (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main up to the launch: holding the unscoped buffers at the launch memory it reduces to the launch holding them at
    `entry`. -/
theorem hmain (𝒱₀ : Variants) : Pipeline.HMainP (Ix := Unit) (Name := ℕ) (U := UR sig nD τ) (Lvl := ℕ) pcfgs 0 defs₀ 𝒱₀ m (main (F := F)) (entry m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- A buffer none of the host operations writes is as launched. -/
theorem entry_of_not_written (c : Dev nD) (b : Ref sig .tc)
    (h : ∀ op ∈ (List.flatten [hostOps0, hostOps0_1, hostOps0_2, hostOps0_3] : List (HloOp τ sig (Elt F))), Proc.devRef .tc b ∉ op.writes) :
    entry m c b = m ((c : Thread nD τ).loc b) :=
  StableHlo.after_of_forall_not_mem (b := Proc.devRef .tc b) _ _ h

/-- No host operation before the launch writes argument 0: the launch finds it as launched. -/
theorem entry_arg0 (c : Dev nD) : entry m c main_arg0 = m ((c : Thread nD τ).loc main_arg0) :=
  entry_of_not_written m c main_arg0 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-- No host operation before the launch writes argument 1: the launch finds it as launched. -/
theorem entry_arg1 (c : Dev nD) : entry m c main_arg1 = m ((c : Thread nD τ).loc main_arg1) :=
  entry_of_not_written m c main_arg1 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-- No host operation before the launch writes argument 2: the launch finds it as launched. -/
theorem entry_arg2 (c : Dev nD) : entry m c main_arg2 = m ((c : Thread nD τ).loc main_arg2) :=
  entry_of_not_written m c main_arg2 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-- No host operation before the launch writes argument 3: the launch finds it as launched. -/
theorem entry_arg3 (c : Dev nD) : entry m c main_arg3 = m ((c : Thread nD τ).loc main_arg3) :=
  entry_of_not_written m c main_arg3 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-- No host operation before the launch writes argument 4: the launch finds it as launched. -/
theorem entry_arg4 (c : Dev nD) : entry m c main_arg4 = m ((c : Thread nD τ).loc main_arg4) :=
  entry_of_not_written m c main_arg4 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-- No host operation before the launch writes argument 5: the launch finds it as launched. -/
theorem entry_arg5 (c : Dev nD) : entry m c main_arg5 = m ((c : Thread nD τ).loc main_arg5) :=
  entry_of_not_written m c main_arg5 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-- No host operation before the launch writes argument 6: the launch finds it as launched. -/
theorem entry_arg6 (c : Dev nD) : entry m c main_arg6 = m ((c : Thread nD τ).loc main_arg6) :=
  entry_of_not_written m c main_arg6 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-- No host operation before the launch writes argument 7: the launch finds it as launched. -/
theorem entry_arg7 (c : Dev nD) : entry m c main_arg7 = m ((c : Thread nD τ).loc main_arg7) :=
  entry_of_not_written m c main_arg7 (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.TRef.nullary, StableHlo.nullary_writes,
      StableHlo.unary_writes, StableHlo.binary_writes, StableHlo.ternary_writes, StableHlo.reshape_writes, StableHlo.nary_writes,
      Finset.mem_singleton]
    repeat' apply And.intro
    all_goals exact StableHlo.devRef_ne_of_ne (by decide)))

/-! ## The prefetched tables -/

/-- The two tables' contents when the launch is reached (there is one device: device 0's): table 0 the permutation
    that sorts the samples by clamped day, table 1 the clamped days in that order. -/
def tables : pre0.Contents (Elt F) := fun j => entry m (0 : Dev nD) (pre0.ref j)

/-- On every device the tables hold those contents. -/
theorem entry_pre (c : Dev nD) (j : Fin 2) : entry m c (pre0.ref j) = tables m j := by
  obtain rfl : c = 0 := Subsingleton.elim _ _; rfl

/-- The launch's side condition of the tables: at every grid point every window's block lies inside its array. -/
abbrev Ok : Prop := ok0 (F := F) (tables m)

/-- The tables as admissible contents, and the pipeline at them. -/
abbrev adm (hO : Ok m) : (pcfg0 (F := F)).Adm := ⟨tables m, hO⟩
abbrev cfgM (hO : Ok m) : Pipeline.Cfg sig Λ₀ := cfg0 (adm m hO)

end Cert.KernelIdeal.Region

end
-- ==== Proof.KI.BodyRun.lean ====
/-
  One grid point of the kernel, on any whole staging buffers.

  The body reads five blocks: a sample x (1 x 512 x 512), a first weight w1 (1 x 512 x 1024), a first bias b1
  (1 x 1 x 1024), a second weight w2 (1 x 1024 x 512) and a stack p of three rows (1 x 3 x 512: second bias, scale,
  shift). It reads x, w1, b1, w2 whole and the stack row by row, and stores ONE value over the whole output block:
  the LayerNorm of the two-layer product, as the program's payloads compute it from those reads.
  Here: that value as a function of the five blocks ('payloadOf'), and the body's triple: holding the five input
  buffers at blocks x, w1, b1, w2, p and the output buffer at anything, the body ends holding the inputs as they were
  and the output at 'payloadOf x w1 b1 w2 p'. The two tables' buffers are passed to the body and never read.
-/
import proofs.«427686_j87058987089974_3_alg».proof.Proof.Gen.KernelIdeal.Launch
import proofs.«427686_j87058987089974_3_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The rectangles the body reads and writes through -/

/-- Row 0 of the stacked block: the second bias. -/
abbrev row0 : Rect S1x3x512 := Rect.unit (s := S1x3x512) ![0, 0, 0] S1x1x512.size inb_S1x3x512_S1x1x512_0_0_0
/-- Row 1 of the stacked block: the scale. -/
abbrev row1 : Rect S1x3x512 := Rect.unit (s := S1x3x512) ![0, 1, 0] S1x1x512.size inb_S1x3x512_S1x1x512_0_1_0
/-- Row 2 of the stacked block: the shift. -/
abbrev row2 : Rect S1x3x512 := Rect.unit (s := S1x3x512) ![0, 2, 0] S1x1x512.size inb_S1x3x512_S1x1x512_0_2_0
/-- The whole output block. -/
abbrev outAll : Rect S1x512x512 := Rect.unit (s := S1x512x512) ![0, 0, 0] S1x512x512.size inb_S1x512x512_S1x512x512_0_0_0

/-- The offsets of a whole block are zero on every axis. -/
theorem zero3 : (![0, 0, 0] : Fin 3 → Nat) = fun _ => 0 := by
  funext a; fin_cases a <;> rfl

/-! ## What the body stores -/

/-- The value the body stores over the output block, from the five input blocks: the second layer
    'k0_pay4' of (x, w1, b1, w2, row 0 of p), its row means broadcast 'k0_pay5', and the normalisation 'k0_pay1' of
    those with the scale (row 1 of p) and the shift (row 2 of p). -/
def payloadOf (x : Vec F S1x512x512 .f32) (w1 : Vec F S1x512x1024 .f32) (b1 : Vec F S1x1x1024 .f32)
    (w2 : Vec F S1x1024x512 .f32) (p : Vec F S1x3x512 .f32) : Vec F S1x512x512 .f32 :=
  k0_pay1 (k0_pay2 (View.ld p row1)) (k0_pay3 (View.ld p row2))
    (k0_pay4 x w1 b1 w2 (View.ld p row0)) (k0_pay5 x w1 b1 w2 (View.ld p row0))

/-! ## The body's triple -/

set_option maxHeartbeats 1000000 in
/-- The body on whole staging memrefs, the five inputs' at read contents 'x', 'w1', 'b1', 'w2', 'p' and the output's at
    anything, runs to the continuation holding the inputs' as they were and the output's at 'payloadOf' of them. -/
theorem body_run (c : Dev nD) (E : Set ℕ) (i : grid0.Coords)
    (arg1 : Memref sig .tc .smem S64 .i32) (harg1 : arg1.IsWhole) (arg2 : Memref sig .tc .smem S64 .i32) (harg2 : arg2.IsWhole)
    (arg3 : Memref sig .tc .vmem S1x512x512 .f32) (harg3 : arg3.IsWhole) (arg4 : Memref sig .tc .vmem S1x512x1024 .f32) (harg4 : arg4.IsWhole)
    (arg5 : Memref sig .tc .vmem S1x1x1024 .f32) (harg5 : arg5.IsWhole) (arg6 : Memref sig .tc .vmem S1x1024x512 .f32) (harg6 : arg6.IsWhole)
    (arg7 : Memref sig .tc .vmem S1x3x512 .f32) (harg7 : arg7.IsWhole) (arg8 : Memref sig .tc .vmem S1x512x512 .f32) (harg8 : arg8.IsWhole)
    (x : Vec F S1x512x512 .f32) (w1 : Vec F S1x512x1024 .f32) (b1 : Vec F S1x1x1024 .f32) (w2 : Vec F S1x1024x512 .f32) (p : Vec F S1x3x512 .f32)
    (K : PUnit → sProp 𝕄) :
    iprop(owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare p ∗ (∃ d, owns (c : Thread nD τ) arg8 fullShare d)
        ∗ (iprop(owns (c : Thread nD τ) arg3 fullShare x ∗ owns (c : Thread nD τ) arg4 fullShare w1 ∗ owns (c : Thread nD τ) arg5 fullShare b1
            ∗ owns (c : Thread nD τ) arg6 fullShare w2 ∗ owns (c : Thread nD τ) arg7 fullShare p
            ∗ owns (c : Thread nD τ) arg8 fullShare (payloadOf x w1 b1 w2 p)) -∗ K ⟨⟩))
      ⊢ wp frame (wpE (defs₀ (F := F)) Variants.none c none) E
          (cc0__moe_kernel i arg1 harg1 arg2 harg2 arg3 harg3 arg4 harg4 arg5 harg5 arg6 harg6 arg7 harg7 arg8 harg8) K := by
  simp only [cc0__moe_kernel_eq_skeleton]; unfold cc0__moe_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _,
      View.mem_set_unit_zero zero3 inb_S1x512x512_S1x512x512_0_0_0 y⟩),
    View.canon_unit_zero (S := S1x512x512) zero3]
  sl_unfold_run_names
  unfold payloadOf
  simp only [View.readAt_eq_ld, View.ld_unit_zero (S := S1x512x512) zero3, View.ld_unit_zero (S := S1x512x1024) zero3,
    View.ld_unit_zero (S := S1x1x1024) zero3, View.ld_unit_zero (S := S1x1024x512) zero3]

end Cert.KernelIdeal.Region

end
-- ==== Proof.KI.FrameRun.lean ====
/-
  The launch of the kernel: every grid point runs the body on that point's blocks, and the program's eight argument
  arrays end as launched.

  The pipeline stages six windows, all indexed through the two tables: the sample block (window 0), the first weight,
  first bias, second weight and stacked-parameter blocks of the point's day (windows 1 to 4), and the output block
  (window 5). At every point an input window's staging buffer holds that window's block of its array, fetched there
  or kept from the point before; the body leaves the inputs in place and the output buffer at 'payloadOf' of the
  five blocks ('body_run'). That is the body obligation of the library's launch theorem, proved here for ANY
  admissible contents of the tables and any proof data of that shape, then instantiated at the tables the launch
  finds. The launch theorem gives the run; read at the argument arrays it gives the frame: an argument a window
  stages is an input window's array, never written back, and every other argument bypasses the launch.
-/
import proofs.«427686_j87058987089974_3_alg».proof.Proof.KI.RegionEntry
import proofs.«427686_j87058987089974_3_alg».proof.Proof.KI.BodyRun
import Idealize.ShloMosaic.Lib.Pipeline.FrameBody
import Idealize.ShloMosaic.Lib.Pipeline.Kit
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## At any admissible contents of the tables -/

section AnyTables

variable (a : (pcfg0 (F := F)).Adm)

/-- The body as the pipeline calls it at point 't': on the two tables' buffers and each window's current staging buffer. -/
abbrev bodyAt (t : Fin (cfg0 a).N) : Prog (TpuEff nD τ sig (Elt F) Λ₀ .tc) PUnit :=
  cc0__moe_kernel (grid0.coords t) (Memref.whole main_v1) (Memref.isWhole_whole _) (Memref.whole main_v8) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))

/-- Windows 0 to 4 are inputs, whatever the tables hold. -/
theorem isIn0 : ((cfg0 a).win 0).isOut = false := rfl
theorem isIn1 : ((cfg0 a).win 1).isOut = false := rfl
theorem isIn2 : ((cfg0 a).win 2).isOut = false := rfl
theorem isIn3 : ((cfg0 a).win 3).isOut = false := rfl
theorem isIn4 : ((cfg0 a).win 4).isOut = false := rfl

variable {a} {c : Dev nD} (dat : Dat τ (Elt F) Unit ℕ (UR sig nD τ) ℕ (cfg0 a) c)

/-- An input window the body leaves at its block holds its block at every point, fetched there or kept: unfetched,
    its block index has not moved. The windows are uncut and never idle. -/
theorem before_in0 (hafter : ∀ t, dat.after 0 t = dat.blockOf 0 t) (t : Fin (cfg0 a).N) (d) : dat.before 0 t d = dat.blockOf 0 t :=
  (dat.before_in_eq_fetched 0 (isIn0 a) (fun _ => rfl) (fun _ _ _ => rfl) (fun t => by rw [hafter t]) t d).trans
    (by unfold Dat.fetched; rfl)
theorem before_in1 (hafter : ∀ t, dat.after 1 t = dat.blockOf 1 t) (t : Fin (cfg0 a).N) (d) : dat.before 1 t d = dat.blockOf 1 t :=
  (dat.before_in_eq_fetched 1 (isIn1 a) (fun _ => rfl) (fun _ _ _ => rfl) (fun t => by rw [hafter t]) t d).trans
    (by unfold Dat.fetched; rfl)
theorem before_in2 (hafter : ∀ t, dat.after 2 t = dat.blockOf 2 t) (t : Fin (cfg0 a).N) (d) : dat.before 2 t d = dat.blockOf 2 t :=
  (dat.before_in_eq_fetched 2 (isIn2 a) (fun _ => rfl) (fun _ _ _ => rfl) (fun t => by rw [hafter t]) t d).trans
    (by unfold Dat.fetched; rfl)
theorem before_in3 (hafter : ∀ t, dat.after 3 t = dat.blockOf 3 t) (t : Fin (cfg0 a).N) (d) : dat.before 3 t d = dat.blockOf 3 t :=
  (dat.before_in_eq_fetched 3 (isIn3 a) (fun _ => rfl) (fun _ _ _ => rfl) (fun t => by rw [hafter t]) t d).trans
    (by unfold Dat.fetched; rfl)
theorem before_in4 (hafter : ∀ t, dat.after 4 t = dat.blockOf 4 t) (t : Fin (cfg0 a).N) (d) : dat.before 4 t d = dat.blockOf 4 t :=
  (dat.before_in_eq_fetched 4 (isIn4 a) (fun _ => rfl) (fun _ _ _ => rfl) (fun t => by rw [hafter t]) t d).trans
    (by unfold Dat.fetched; rfl)

/-- The body at a point, for proof data whose invariant and debt do not change across a point ('hΦ', 'howes'), whose
    input windows are left at their blocks ('ha0' to 'ha4') and whose output window is left at 'payloadOf' of the five
    blocks ('ha5'): the inputs' buffers hold their blocks, so the body's triple applies; the invariant and the debt
    pass through untouched. -/
theorem sound_body_of
    (hΦ : ∀ t : Fin (cfg0 a).N, dat.Φ t.succ = dat.Φ t.castSucc)
    (howes : ∀ t : Fin (cfg0 a).N, dat.owesAt () t.succ = dat.owesAt () t.castSucc)
    (ha0 : ∀ t, dat.after 0 t = dat.blockOf 0 t) (ha1 : ∀ t, dat.after 1 t = dat.blockOf 1 t)
    (ha2 : ∀ t, dat.after 2 t = dat.blockOf 2 t) (ha3 : ∀ t, dat.after 3 t = dat.blockOf 3 t)
    (ha4 : ∀ t, dat.after 4 t = dat.blockOf 4 t)
    (ha5 : ∀ t, dat.after 5 t = payloadOf (dat.blockOf 0 t) (dat.blockOf 1 t) (dat.blockOf 2 t) (dat.blockOf 3 t) (dat.blockOf 4 t))
    (t : Fin (cfg0 a).N) :
    iprop(dat.Φ t.castSucc ∗ dat.owesAt () t.castSucc
        ∗ (∃ d, owns (c : Thread nD τ) (spec0_0.stage ((cfg0 a).slots t 0)) fullShare (dat.before 0 t d))
        ∗ (∃ d, owns (c : Thread nD τ) (spec0_1.stage ((cfg0 a).slots t 1)) fullShare (dat.before 1 t d))
        ∗ (∃ d, owns (c : Thread nD τ) (spec0_2.stage ((cfg0 a).slots t 2)) fullShare (dat.before 2 t d))
        ∗ (∃ d, owns (c : Thread nD τ) (spec0_3.stage ((cfg0 a).slots t 3)) fullShare (dat.before 3 t d))
        ∗ (∃ d, owns (c : Thread nD τ) (spec0_4.stage ((cfg0 a).slots t 4)) fullShare (dat.before 4 t d))
        ∗ (∃ d, owns (c : Thread nD τ) (spec0_5.stage ((cfg0 a).slots t 5)) fullShare (dat.before 5 t d)))
      ⊢ wp frame (wpE (defs₀ (F := F)) Variants.none c none) Set.univ (bodyAt a t) (fun _ =>
          iprop(dat.Φ t.succ ∗ dat.owesAt () t.succ
            ∗ owns (c : Thread nD τ) (spec0_0.stage ((cfg0 a).slots t 0)) fullShare (dat.after 0 t)
            ∗ owns (c : Thread nD τ) (spec0_1.stage ((cfg0 a).slots t 1)) fullShare (dat.after 1 t)
            ∗ owns (c : Thread nD τ) (spec0_2.stage ((cfg0 a).slots t 2)) fullShare (dat.after 2 t)
            ∗ owns (c : Thread nD τ) (spec0_3.stage ((cfg0 a).slots t 3)) fullShare (dat.after 3 t)
            ∗ owns (c : Thread nD τ) (spec0_4.stage ((cfg0 a).slots t 4)) fullShare (dat.after 4 t)
            ∗ owns (c : Thread nD τ) (spec0_5.stage ((cfg0 a).slots t 5)) fullShare (dat.after 5 t))) := by
  simp only [before_in0 dat ha0, before_in1 dat ha1, before_in2 dat ha2, before_in3 dat ha3, before_in4 dat ha4]
  rw [hΦ t, howes t, ha0 t, ha1 t, ha2 t, ha3 t, ha4 t, ha5 t]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ _ _ _ _
    (dat.blockOf 0 t) (dat.blockOf 1 t) (dat.blockOf 2 t) (dat.blockOf 3 t) (dat.blockOf 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for such proof data, at every point: the windows conjoined one by one. -/
theorem body_obligation_of
    (hΦ : ∀ t : Fin (cfg0 a).N, dat.Φ t.succ = dat.Φ t.castSucc)
    (howes : ∀ t : Fin (cfg0 a).N, dat.owesAt () t.succ = dat.owesAt () t.castSucc)
    (ha0 : ∀ t, dat.after 0 t = dat.blockOf 0 t) (ha1 : ∀ t, dat.after 1 t = dat.blockOf 1 t)
    (ha2 : ∀ t, dat.after 2 t = dat.blockOf 2 t) (ha3 : ∀ t, dat.after 3 t = dat.blockOf 3 t)
    (ha4 : ∀ t, dat.after 4 t = dat.blockOf 4 t)
    (ha5 : ∀ t, dat.after 5 t = payloadOf (dat.blockOf 0 t) (dat.blockOf 1 t) (dat.blockOf 2 t) (dat.blockOf 3 t) (dat.blockOf 4 t)) :
    BodyObligation dat (defs₀ (F := F)) Variants.none () Set.univ := fun t => by
  rw [bigSep_W0, bigSep_W0]
  exact sound_body_of dat hΦ howes ha0 ha1 ha2 ha3 ha4 ha5 t

end AnyTables

/-! ## At the tables the launch finds -/

variable (m : (ℓ : Loc nD τ sig) → Buf (Elt F) ℓ) (ρ : Dev nD → PrngReg)

/-- Window 'w''s block at grid point 't', read off the memory the launch finds. -/
def blockAt (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (entry m c (Pipeline.arrRef spec0 w))

/-- What the body leaves in the output window's buffer at point 't': the stored value of the five input blocks there
    (the sample, the first weight and bias, the second weight, the three stacked rows). -/
def stored (hO : Ok m) (c : Dev nD) (t : Fin (cfgM m hO).N) : Vec F S1x512x512 .f32 :=
  payloadOf (blockAt m hO c 0 t) (blockAt m hO c 1 t) (blockAt m hO c 2 t) (blockAt m hO c 3 t) (blockAt m hO c 4 t)

/-- The proof data of the one pipeline on core 'c': the arrays as the launch finds them; after the body at point 't'
    each input's buffer at its block and the output's at 'stored'; the invariant the scoped rest, the generator
    register and the tables' halves; nothing owed; full shares. -/
def dats (hO : Ok m) : (p : Fin 1) → (c : Dev nD) →
    Pipeline.Dat τ (Elt F) Unit ℕ (UR sig nD τ) ℕ ((Pipeline.pin pcfgs fun _ => adm m hO) p) c := fun _ c =>
  { A := fun w => entry m c (Pipeline.arrRef spec0 w)
    after := fun w t => match w with
      | ⟨0, _⟩ => blockAt m hO c 0 t
      | ⟨1, _⟩ => blockAt m hO c 1 t
      | ⟨2, _⟩ => blockAt m hO c 2 t
      | ⟨3, _⟩ => blockAt m hO c 3 t
      | ⟨4, _⟩ => blockAt m hO c 4 t
      | ⟨5, _⟩ => stored m hO c t
    Φ := fun _ => iprop(Pipeline.ΦA spec0 c ∗ Pipeline.ΦT pre0 (tables m) c)
    q := fun _ => fullShare
    owed := fun _ => 0 }

/-- The proof data's arrays are the contents the launch finds. -/
theorem A_eq (hO : Ok m) (c : Dev nD) (w) : (dats m hO 0 c).A w = entry m c (Pipeline.arrRef spec0 w) := by
  dsimp only [dats]

/-- What the body leaves, window by window. -/
theorem after_in0 (hO : Ok m) (c : Dev nD) (t) : (dats m hO 0 c).after 0 t = blockAt m hO c 0 t := by dsimp only [dats]; rfl
theorem after_in1 (hO : Ok m) (c : Dev nD) (t) : (dats m hO 0 c).after 1 t = blockAt m hO c 1 t := by dsimp only [dats]; rfl
theorem after_in2 (hO : Ok m) (c : Dev nD) (t) : (dats m hO 0 c).after 2 t = blockAt m hO c 2 t := by dsimp only [dats]; rfl
theorem after_in3 (hO : Ok m) (c : Dev nD) (t) : (dats m hO 0 c).after 3 t = blockAt m hO c 3 t := by dsimp only [dats]; rfl
theorem after_in4 (hO : Ok m) (c : Dev nD) (t) : (dats m hO 0 c).after 4 t = blockAt m hO c 4 t := by dsimp only [dats]; rfl
theorem after_out (hO : Ok m) (c : Dev nD) (t) : (dats m hO 0 c).after 5 t = stored m hO c t := by dsimp only [dats]; rfl

/-- The block the library reads off the proof data's array is the block read off the launch memory. -/
theorem blockOf_eq (hO : Ok m) (c : Dev nD) (w : Fin (cfgM m hO).W) (t : Fin (cfgM m hO).N) :
    (dats m hO 0 c).blockOf w t = blockAt m hO c w t := by
  unfold Dat.blockOf blockAt; rw [A_eq]

/-- The library's body obligation, at every point. -/
theorem body_obligation (hO : Ok m) (c : Dev nD) :
    BodyObligation (dats (F := F) m hO 0 c) (defs₀ (F := F)) Variants.none () Set.univ :=
  body_obligation_of (a := adm m hO) (dats m hO 0 c) (fun _ => rfl) (fun _ => rfl)
    (fun t => (after_in0 m hO c t).trans (blockOf_eq m hO c 0 t).symm)
    (fun t => (after_in1 m hO c t).trans (blockOf_eq m hO c 1 t).symm)
    (fun t => (after_in2 m hO c t).trans (blockOf_eq m hO c 2 t).symm)
    (fun t => (after_in3 m hO c t).trans (blockOf_eq m hO c 3 t).symm)
    (fun t => (after_in4 m hO c t).trans (blockOf_eq m hO c 4 t).symm)
    (fun t => by
      rw [after_out m hO c t, blockOf_eq m hO c 0 t, blockOf_eq m hO c 1 t, blockOf_eq m hO c 2 t, blockOf_eq m hO c 3 t,
        blockOf_eq m hO c 4 t]
      unfold stored; rfl)

/-! ## The run and the frame -/

set_option backward.isDefEq.respectTransparency.types false in
/-- At the compiled mesh, for any values, from any memory with zero counters: every weakly fair execution of @main on
    the TensorCores terminates, and every final state has every array of the pipeline at what the library computes from
    the proof data and every other unscoped buffer as the launch found it. -/
theorem run_main (hO : Ok m) : θ_run defs (onTc (τ := τ) (main (F := F))) (s₀ m ρ)
    (Pipeline.FramePost (Pipeline.pin pcfgs fun _ => adm m hO) (dats m hO) 0 (entry m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := entry m) (hmain := hmain m Variants.none) (hA := A_eq m hO) (hpf := entry_pre m)
    (hΦ := fun _ _ => rfl)

/-- Arguments 1, 3, 5, 6, 7 are unscoped and no window's array: they bypass the launch. -/
theorem rest_arg1 : main_arg1 ∈ Pipeline.restRefs sig spec0 := Pipeline.mem_restRefs_of (win := spec0) main_arg1 (by decide) (by decide)
theorem rest_arg3 : main_arg3 ∈ Pipeline.restRefs sig spec0 := Pipeline.mem_restRefs_of (win := spec0) main_arg3 (by decide) (by decide)
theorem rest_arg5 : main_arg5 ∈ Pipeline.restRefs sig spec0 := Pipeline.mem_restRefs_of (win := spec0) main_arg5 (by decide) (by decide)
theorem rest_arg6 : main_arg6 ∈ Pipeline.restRefs sig spec0 := Pipeline.mem_restRefs_of (win := spec0) main_arg6 (by decide) (by decide)
theorem rest_arg7 : main_arg7 ∈ Pipeline.restRefs sig spec0 := Pipeline.mem_restRefs_of (win := spec0) main_arg7 (by decide) (by decide)

/-- The frame: every execution terminates with the eight argument arrays as launched. An argument an input window
    stages (arguments 0, 2, 4) is that window's array, which the library leaves at the proof data's array, the launch
    contents; every other argument is no window's array and bypasses the launch. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats m hO 0 c).arrAt_in 0 (isIn0 (adm m hO)) _).trans ((A_eq m hO c 0).trans (entry_arg0 m c))),
      ((h c).2 main_arg1 rest_arg1).trans (entry_arg1 m c),
      ((h c).1 1).trans (((dats m hO 0 c).arrAt_in 1 (isIn1 (adm m hO)) _).trans ((A_eq m hO c 1).trans (entry_arg2 m c))),
      ((h c).2 main_arg3 rest_arg3).trans (entry_arg3 m c),
      ((h c).1 3).trans (((dats m hO 0 c).arrAt_in 3 (isIn3 (adm m hO)) _).trans ((A_eq m hO c 3).trans (entry_arg4 m c))),
      ((h c).2 main_arg5 rest_arg5).trans (entry_arg5 m c),
      ((h c).2 main_arg6 rest_arg6).trans (entry_arg6 m c),
      ((h c).2 main_arg7 rest_arg7).trans (entry_arg7 m c)⟩)
    (run_main m ρ hO)

end Cert.KernelIdeal.Region

end
-- ==== Proof.KI.DayTables.lean ====
/-
  What the host operations before the launch compute, as word-level mathematics of the day words.

  @main clamps each day word into 0 .. 23 (the lesser of 23 and the greater of 0 and the word, signed), sorts the sample
  numbers 0 .. 63 by clamped day with a stable sort (the permutation table), reads the clamped days in that order (the
  day table), views the first bias as 24 x 1 x 1024 and stacks the second bias, the scale and the shift into one
  24 x 3 x 512 array. Here: those four arrays in closed form; that the sorted sample numbers are a permutation `sigma` of
  0 .. 63, the permutation table at `b` being the word of `sigma b` and the day table at `b` the clamped day of sample
  `sigma b`; that a clamped day is at most 23 and, for a day word that is not negative, the day the specification
  selects; the six index maps at the tables in closed form; and from these the launch's side condition: every block the
  index maps name lies inside its array.
-/
import proofs.«427686_j87058987089974_3_alg».proof.Proof.KI.RegionEntry
import proofs.«427686_j87058987089974_3_alg».proof.Proof.AdapterSpec
import Idealize.ShloMosaic.Lib.ValueIdx
import Idealize.ShloMosaic.Lib.StableHlo.Run
import Idealize.ShloMosaic.Lib.StableHlo.Predicate
import Idealize.ShloMosaic.Lib.SortFacts
import Idealize.ShloMosaic.Lib.Pipeline.Value

noncomputable section

namespace Cert.KernelIdeal.Region

open Idealize.ShloMosaic Idealize.ShloMosaic.TcCoe Idealize.ShloMosaic.ValueIdx
open Idealize.SL.Sem
open Cert.KernelIdeal Cert.KernelIdeal.Gen

variable {F : FTy → Type} [FloatOps F]

variable (m : (ℓ : Loc nD τ sig) → Buf (Elt F) ℓ)

/-! ## The host operations' results as word-level functions of the day words -/

/-- the day words clamped into 0 .. 23, as the printed clip computes them: the lesser of 23 and the greater of 0 and the word -/
def clampDays (d : IVec S64 32) : IVec S64 32 :=
  minsi (broadcastInDim S64 ![] bcast_S_S64 (constantI S_ 32 23#32))
    (maxsi (broadcastInDim S64 ![] bcast_S_S64 (constantI S_ 32 0#32)) d)

/-- the stable argsort of the clamped days: the sample numbers carried through the sort by clamped day -/
def order (d : IVec S64 32) : IVec S64 32 :=
  (Host.sort2 S64 0 comparator_i32_i32_d0 (clampDays d) (iotaInDim S64 32 0)).2

/-- the clamped days in sorted order, as printed: a negative position has 64 added, the positions become a column of
    start indices, and the clamped days are gathered at them -/
def sortedDays (d : IVec S64 32) : IVec S64 32 :=
  Host.gather gather_S64_S64x1_S64_n_0_n_n_0_1_1 (clampDays d)
    (broadcastInDim S64x1 ![0] bcast_S64_S64x1_0
      (select (cmpi .slt (order d) (broadcastInDim S64 ![] bcast_S_S64 (constantI S_ 32 0#32)))
        (addi (order d) (broadcastInDim S64 ![] bcast_S_S64 (constantI S_ 32 64#32))) (order d)))

/-- The permutation table holds the argsort of the clamped day words. -/
theorem entry_v1 (c : Dev nD) : entry m c main_v1 = order (m ((c : Thread nD τ).loc main_arg1)) := by
  dsimp only [entry]
  simp only [hostOps0, hostOps0_1, hostOps0_2, hostOps0_3, List.flatten_cons, List.flatten_nil, List.append_nil, List.cons_append,
    List.nil_append]
  after_results
  rfl

/-- The day table holds the clamped day words in sorted order. -/
theorem entry_v8 (c : Dev nD) : entry m c main_v8 = sortedDays (m ((c : Thread nD τ).loc main_arg1)) := by
  dsimp only [entry]
  simp only [hostOps0, hostOps0_1, hostOps0_2, hostOps0_3, List.flatten_cons, List.flatten_nil, List.append_nil, List.cons_append,
    List.nil_append]
  after_results_simp
  rfl

/-! ## The argsort is a permutation -/

/-- The one-coordinate index, in its two spellings. -/
theorem ofFin_eq_ix1 {n : Nat} (k : Fin n) : (Shape.Idx.ofFin k : (⟨1, ![n]⟩ : Shape).Idx) = ix1 k := by
  funext a
  match a with
  | ⟨0, _⟩ => rfl

/-- The carried operand of a two-operand sort of a vector reads, at position `j`, the carried vector at the position the
    stable sort of the pairs puts at `j`. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (ix1 (sortedFrom (fun k k' => cmp (x (ix1 k), y (ix1 k)) (x (ix1 k'), y (ix1 k')) == 1#1) (j 0))) := by
  unfold Host.sort2
  simp [ofFin_eq_ix1]

/-- Sample `k` sorts strictly before sample `k'`: its clamped day is the lesser (the comparator reads the keys only). -/
def before (d : IVec S64 32) (k k' : Fin 64) : Bool :=
  comparator_i32_i32_d0 (clampDays d (ix1 k), iotaInDim S64 32 0 (ix1 k)) (clampDays d (ix1 k'), iotaInDim S64 32 0 (ix1 k')) == 1#1

/-- the permutation the argsort is: grid point `b` works on sample `sigma d b` -/
def sigma (d : IVec S64 32) : Equiv.Perm (Fin 64) :=
  Equiv.ofBijective (sortedFrom (before d)) ⟨sortedFrom_injective _, sortedFrom_surjective _⟩

/-- The permutation table at `b` is the word of the sample the permutation sends `b` to. -/
theorem order_apply (d : IVec S64 32) (b : Fin 64) : order d (ix1 b) = BitVec.ofNat 32 (sigma d b).val := by
  unfold order
  rw [sort2_snd_rank1]
  rfl

attribute [irreducible] sigma

/-! ## The clamp, word by word -/

/-- A clamped day at a position is the clamp of the word there. -/
theorem clampDays_apply (d : IVec S64 32) (j : S64.Idx) : clampDays d j = IntOp.minsi 23#32 (IntOp.maxsi 0#32 (d j)) := rfl

/-- A word that is not negative as a signed integer is its unsigned value, below 2^31. -/
theorem toInt_nonneg_iff (w : BitVec 32) : 0 ≤ w.toInt ↔ w.toNat < 2 ^ 31 := by
  have h := BitVec.toInt_eq_toNat_cond w
  have hlt := w.isLt
  split at h <;> omega

/-- The clamp of a word into 0 .. 23 is at most 23. -/
theorem clamp_word_le (w : BitVec 32) : (IntOp.minsi 23#32 (IntOp.maxsi 0#32 w)).toNat ≤ 23 := by
  have h23 : (23#32 : BitVec 32).toInt = 23 := by decide
  have h0 : (0#32 : BitVec 32).toInt = 0 := by decide
  have hw := BitVec.toInt_eq_toNat_cond w
  have hlt := w.isLt
  unfold IntOp.minsi IntOp.maxsi
  by_cases h1 : w.slt 0#32 = true
  · rw [if_pos h1]
    have h2 : ¬ ((23#32 : BitVec 32).slt 0#32 = true) := by decide
    rw [if_neg h2]; decide
  · rw [if_neg h1]
    by_cases h2 : (23#32 : BitVec 32).slt w = true
    · rw [if_pos h2]; decide
    · rw [if_neg h2]
      simp only [BitVec.slt, h23, h0, decide_eq_true_eq] at h1 h2
      split at hw <;> omega

/-- The clamp of a word that is not negative is the lesser of its value and 23. -/
theorem clamp_word_eq (w : BitVec 32) (h : 0 ≤ w.toInt) :
    (IntOp.minsi 23#32 (IntOp.maxsi 0#32 w)).toNat = min w.toInt.toNat 23 := by
  have h23 : (23#32 : BitVec 32).toInt = 23 := by decide
  have h0 : (0#32 : BitVec 32).toInt = 0 := by decide
  have hw := BitVec.toInt_eq_toNat_cond w
  have hlt := w.isLt
  unfold IntOp.minsi IntOp.maxsi
  have h1 : ¬ (w.slt 0#32 = true) := by
    simp only [BitVec.slt, h0, decide_eq_true_eq]; omega
  rw [if_neg h1]
  by_cases h2 : (23#32 : BitVec 32).slt w = true
  · rw [if_pos h2]
    simp only [BitVec.slt, h23, decide_eq_true_eq] at h2
    show 23 = min w.toInt.toNat 23
    omega
  · rw [if_neg h2]
    simp only [BitVec.slt, h23, decide_eq_true_eq] at h2
    split at hw <;> omega

/-- A clamped day is at most 23. -/
theorem clampDays_le (d : IVec S64 32) (i : Fin 64) : (clampDays d (ix1 i)).toNat ≤ 23 := by
  rw [clampDays_apply]; exact clamp_word_le _

/-- For a day word that is not negative the clamped day is the day the specification selects. -/
theorem clampDays_eq_dayOf (d : IVec S64 32) (i : Fin 64) (h : 0 ≤ (d (ix1 i)).toInt) :
    (clampDays d (ix1 i)).toNat = (Cert.DayAdapter.dayOf (d (ix1 i))).val := by
  rw [clampDays_apply]; exact clamp_word_eq _ h

/-! ## The day table reads the clamped days through the permutation -/

/-- A sample number's word is not negative and is the number. -/
theorem ofNat_small (k : Fin 64) : (BitVec.ofNat 32 k.val).toNat = k.val := by
  rw [BitVec.toNat_ofNat]; exact Nat.mod_eq_of_lt (by have := k.isLt; omega)

/-- The start index at `b`: the permutation table's word there is not negative, so nothing is added to it. -/
theorem wrapped_apply (d : IVec S64 32) (b : Fin 64) :
    (select (cmpi .slt (order d) (broadcastInDim S64 ![] bcast_S_S64 (constantI S_ 32 0#32)))
        (addi (order d) (broadcastInDim S64 ![] bcast_S_S64 (constantI S_ 32 64#32))) (order d)) (ix1 b)
      = BitVec.ofNat 32 (sigma d b).val := by
  show Scalar.select (IntOp.cmpi .slt (order d (ix1 b)) 0#32) (IntOp.addi (order d (ix1 b)) 64#32) (order d (ix1 b)) = _
  rw [order_apply]
  generalize sigma d b = k
  have hk := ofNat_small k
  have hlt := k.isLt
  have hc : IntOp.cmpi .slt (BitVec.ofNat 32 k.val) 0#32 ≠ 1#1 := fun e => by
    have := (StableHlo.Predicate.slt_iff_toNat (a := BitVec.ofNat 32 k.val) (b := 0#32) (by omega) (by decide)).mp e
    simp at this
  exact if_neg hc

/-- A take of a 64-entry table at a column of start indices whose entry at row `b` is the word of position `k` reads, at
    `b`, the table at `k`: the word is not negative and below 64, so the clamp of the start index does nothing. -/
theorem take_at (x : IVec S64 32) (I : IVec S64x1 32) (b k : Fin 64)
    (hI : I (StableHlo.Predicate.ixP b) = BitVec.ofNat 32 k.val) :
    Host.gather gather_S64_S64x1_S64_n_0_n_n_0_1_1 x I (ix1 b) = x (ix1 k) := by
  have hg := StableHlo.Predicate.gather_take gather_S64_S64x1_S64_n_0_n_n_0_1_1 rfl rfl rfl rfl x I b (by decide)
  rw [ofFin_eq_ix1 b] at hg
  refine hg.trans (congrArg x ?_)
  rw [← ofFin_eq_ix1 k]
  refine congrArg Shape.Idx.ofFin (Fin.ext ?_)
  have hk := ofNat_small k
  have hlt := k.isLt
  have hi : (BitVec.ofNat 32 k.val).toInt = ((BitVec.ofNat 32 k.val).toNat : Int) :=
    StableHlo.Predicate.toInt_eq_toNat_of_lt (by omega)
  show min (I (StableHlo.Predicate.ixP b)).toInt.toNat (64 - 1) = k.val
  rw [hI, hi, hk]
  omega

/-- The day table at `b` is the clamped day of the sample the permutation sends `b` to. -/
theorem sortedDays_apply (d : IVec S64 32) (b : Fin 64) : sortedDays d (ix1 b) = clampDays d (ix1 (sigma d b)) :=
  take_at (clampDays d) _ b (sigma d b)
    ((StableHlo.Predicate.bcast_col1 bcast_S64_S64x1_0 _ b).trans
      ((congrArg _ (ofFin_eq_ix1 b)).trans (wrapped_apply d b)))

/-! ## The index maps at the tables -/

/-- a grid point's one coordinate -/
abbrev gp (i : grid0.Coords) : Fin 64 := i 0

/-- the day words the launch finds (there is one device) -/
abbrev days : IVec S64 32 := m (((0 : Dev nD) : Thread nD τ).loc main_arg1)

/-- The one position of a one-entry rectangle at offset `k` of a 64-entry table is position `k`. -/
theorem unit_emb_eq (k : Fin 64) (off : Fin 1 → Nat) (hoff : off 0 = k.val) (inb : ∀ a, off a + S1.size a ≤ S64.size a)
    (h1 : 0 < S1.numel) : (Rect.unit (s := S64) off S1.size inb).emb (Shape.Idx.first h1) = ix1 k := by
  funext a
  match a with
  | ⟨0, _⟩ =>
    apply Fin.ext
    show off 0 + 1 * 0 = k.val
    omega

/-- A grid coordinate's word, read back as an index, is the coordinate. -/
theorem gp_off (i : grid0.Coords) :
    (![(Scalar.indexCast (BitVec.ofNat 32 (i 0).val)).toNat] : Fin 1 → Nat) 0 = (gp i).val := by
  show (BitVec.ofNat 32 (i 0).val).toNat = (i 0).val
  exact ofNat_small (gp i)

/-- The index maps of windows 0 and 5 at any tables: block (table 0 at the grid point, 0, 0). -/
theorem transform_0_eq (pf : pre0.Contents (Elt F)) (i : grid0.Coords) :
    cc0_transform_0 k0_off1_inb numel1_S1 pf i = ![((pf 0 (ix1 (gp i)) : BitVec 32)).toNat, 0, 0] :=
  congrArg (fun j => (![((pf 0 j : BitVec 32)).toNat, 0, 0] : Fin 3 → Nat)) (unit_emb_eq (gp i) _ (gp_off i) (k0_off1_inb i) _)
theorem transform_5_eq (pf : pre0.Contents (Elt F)) (i : grid0.Coords) :
    cc0_transform_5 k0_off1_inb numel1_S1 pf i = ![((pf 0 (ix1 (gp i)) : BitVec 32)).toNat, 0, 0] :=
  congrArg (fun j => (![((pf 0 j : BitVec 32)).toNat, 0, 0] : Fin 3 → Nat)) (unit_emb_eq (gp i) _ (gp_off i) (k0_off1_inb i) _)

/-- The index maps of windows 1 to 4 at any tables: block (table 1 at the grid point, 0, 0). -/
theorem transform_1_eq (pf : pre0.Contents (Elt F)) (i : grid0.Coords) :
    cc0_transform_1 k0_off1_inb numel1_S1 pf i = ![((pf 1 (ix1 (gp i)) : BitVec 32)).toNat, 0, 0] :=
  congrArg (fun j => (![((pf 1 j : BitVec 32)).toNat, 0, 0] : Fin 3 → Nat)) (unit_emb_eq (gp i) _ (gp_off i) (k0_off1_inb i) _)
theorem transform_2_eq (pf : pre0.Contents (Elt F)) (i : grid0.Coords) :
    cc0_transform_2 k0_off1_inb numel1_S1 pf i = ![((pf 1 (ix1 (gp i)) : BitVec 32)).toNat, 0, 0] :=
  congrArg (fun j => (![((pf 1 j : BitVec 32)).toNat, 0, 0] : Fin 3 → Nat)) (unit_emb_eq (gp i) _ (gp_off i) (k0_off1_inb i) _)
theorem transform_3_eq (pf : pre0.Contents (Elt F)) (i : grid0.Coords) :
    cc0_transform_3 k0_off1_inb numel1_S1 pf i = ![((pf 1 (ix1 (gp i)) : BitVec 32)).toNat, 0, 0] :=
  congrArg (fun j => (![((pf 1 j : BitVec 32)).toNat, 0, 0] : Fin 3 → Nat)) (unit_emb_eq (gp i) _ (gp_off i) (k0_off1_inb i) _)
theorem transform_4_eq (pf : pre0.Contents (Elt F)) (i : grid0.Coords) :
    cc0_transform_4 k0_off1_inb numel1_S1 pf i = ![((pf 1 (ix1 (gp i)) : BitVec 32)).toNat, 0, 0] :=
  congrArg (fun j => (![((pf 1 j : BitVec 32)).toNat, 0, 0] : Fin 3 → Nat)) (unit_emb_eq (gp i) _ (gp_off i) (k0_off1_inb i) _)

/-- Table 0 is the permutation table, table 1 the day table. -/
theorem tables_zero : (tables m 0 : IVec S64 32) = order (days m) := entry_v1 m 0
theorem tables_one : (tables m 1 : IVec S64 32) = sortedDays (days m) := entry_v8 m 0

/-- Table 0 at a grid point: the word of the sample the permutation sends the point to. -/
theorem table0_at (i : grid0.Coords) :
    ((tables m 0 (ix1 (gp i)) : BitVec 32)).toNat = (sigma (days m) (gp i)).val :=
  (congrArg BitVec.toNat ((congrFun (tables_zero m) (ix1 (gp i))).trans (order_apply (days m) (gp i)))).trans
    (ofNat_small _)

/-- Table 1 at a grid point: that sample's clamped day. -/
theorem table1_at (i : grid0.Coords) :
    ((tables m 1 (ix1 (gp i)) : BitVec 32)).toNat = (clampDays (days m) (ix1 (sigma (days m) (gp i)))).toNat :=
  congrArg BitVec.toNat ((congrFun (tables_one m) (ix1 (gp i))).trans (sortedDays_apply (days m) (gp i)))

/-- Windows 0 (the samples) and 5 (the result): at grid point `i`, the block of sample `sigma i`. -/
theorem index_perm (i : grid0.Coords) :
    cc0_transform_0 k0_off1_inb numel1_S1 (tables m) i = ![(sigma (days m) (gp i)).val, 0, 0] :=
  (transform_0_eq (tables m) i).trans (congrArg (fun n : Nat => (![n, 0, 0] : Fin 3 → Nat)) (table0_at m i))
theorem index_perm5 (i : grid0.Coords) :
    cc0_transform_5 k0_off1_inb numel1_S1 (tables m) i = ![(sigma (days m) (gp i)).val, 0, 0] :=
  (transform_5_eq (tables m) i).trans (congrArg (fun n : Nat => (![n, 0, 0] : Fin 3 → Nat)) (table0_at m i))

/-- Windows 1 to 4 (the day's parameters): at grid point `i`, the block of the clamped day of sample `sigma i`. -/
theorem index_day (i : grid0.Coords) :
    cc0_transform_1 k0_off1_inb numel1_S1 (tables m) i = ![(clampDays (days m) (ix1 (sigma (days m) (gp i)))).toNat, 0, 0] :=
  (transform_1_eq (tables m) i).trans (congrArg (fun n : Nat => (![n, 0, 0] : Fin 3 → Nat)) (table1_at m i))
theorem index_day2 (i : grid0.Coords) :
    cc0_transform_2 k0_off1_inb numel1_S1 (tables m) i = ![(clampDays (days m) (ix1 (sigma (days m) (gp i)))).toNat, 0, 0] :=
  (transform_2_eq (tables m) i).trans (congrArg (fun n : Nat => (![n, 0, 0] : Fin 3 → Nat)) (table1_at m i))
theorem index_day3 (i : grid0.Coords) :
    cc0_transform_3 k0_off1_inb numel1_S1 (tables m) i = ![(clampDays (days m) (ix1 (sigma (days m) (gp i)))).toNat, 0, 0] :=
  (transform_3_eq (tables m) i).trans (congrArg (fun n : Nat => (![n, 0, 0] : Fin 3 → Nat)) (table1_at m i))
theorem index_day4 (i : grid0.Coords) :
    cc0_transform_4 k0_off1_inb numel1_S1 (tables m) i = ![(clampDays (days m) (ix1 (sigma (days m) (gp i)))).toNat, 0, 0] :=
  (transform_4_eq (tables m) i).trans (congrArg (fun n : Nat => (![n, 0, 0] : Fin 3 → Nat)) (table1_at m i))

/-! ## The launch's side condition -/

/-- Block (k, 0, 0) of extent 1 x p x q lies inside an n x p x q array when k < n. -/
theorem block_inside {n p q : Nat} (k : Nat) (hk : k < n) :
    ∀ a : Fin 3, ((![k, 0, 0] : Fin 3 → Nat) a + 1) * (⟨3, ![1, p, q]⟩ : Shape).size a ≤ (⟨3, ![n, p, q]⟩ : Shape).size a := by
  intro a
  match a with
  | ⟨0, _⟩ => show (k + 1) * 1 ≤ n; omega
  | ⟨1, _⟩ => show (0 + 1) * p ≤ p; omega
  | ⟨2, _⟩ => show (0 + 1) * q ≤ q; omega

/-- At every grid point every window's block lies inside its array: a sample number is below 64, a clamped day at most
    23; every window holds 32-bit floats, so every transfer ends on a word. -/
theorem ok_tables : Ok m := by
  have hp : ∀ i : grid0.Coords, (sigma (days m) (gp i)).val < 64 := fun i => (sigma (days m) (gp i)).isLt
  have hd : ∀ i : grid0.Coords, (clampDays (days m) (ix1 (sigma (days m) (gp i)))).toNat < 24 := fun i =>
    Nat.lt_succ_of_le (clampDays_le _ _)
  unfold Ok ok0
  refine ⟨fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩⟩
  · rw [index_perm]; exact block_inside _ (hp i)
  · rw [index_day]; exact block_inside _ (hd i)
  · rw [index_day2]; exact block_inside _ (hd i)
  · rw [index_day3]; exact block_inside _ (hd i)
  · rw [index_day4]; exact block_inside _ (hd i)
  · rw [index_perm5]; exact block_inside _ (hp i)

/-! ## The reshaped bias and the stacked parameters -/

/-- the first bias viewed as 24 x 1 x 1024: the same entries in row-major order -/
def bias1View (b1 : FVec F S24x1024 .f32) : FVec F S24x1x1024 .f32 :=
  shapeCast S24x1x1024 b1 shapeCasts_S24x1024_S24x1x1024

/-- the second bias, the scale and the shift, each viewed as 24 x 1 x 512: the three layers of the stack -/
abbrev stackLayers (b2 g bt : FVec F S24x512 .f32) : List ((s : Shape) × (s.Idx → F .f32)) :=
  [⟨S24x1x512, broadcastInDim S24x1x512 ![0, 2] bcast_S24x512_S24x1x512_0_2 b2⟩,
   ⟨S24x1x512, broadcastInDim S24x1x512 ![0, 2] bcast_S24x512_S24x1x512_0_2 g⟩,
   ⟨S24x1x512, broadcastInDim S24x1x512 ![0, 2] bcast_S24x512_S24x1x512_0_2 bt⟩]

/-- the three layers stacked along the middle axis: 24 x 3 x 512 -/
def paramStack (b2 g bt : FVec F S24x512 .f32) : FVec F S24x3x512 .f32 :=
  concatenate S24x3x512 1 (stackLayers b2 g bt) concatenates_S24x1x512_S24x1x512_S24x1x512_S24x3x512_d1

/-- Window 2's array is the first bias viewed as 24 x 1 x 1024. -/
theorem entry_v9 (c : Dev nD) : entry m c main_v9 = bias1View (m ((c : Thread nD τ).loc main_arg3)) := by
  dsimp only [entry]
  simp only [hostOps0, hostOps0_1, hostOps0_2, hostOps0_3, List.flatten_cons, List.flatten_nil, List.append_nil, List.cons_append,
    List.nil_append]
  after_results
  rfl

/-- An operation on three literal operands takes each operand's contents at its own buffer. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- The last stretch of host operations, from any contents `V`, leaves in window 4's array the stack of `V`'s second bias,
    scale and shift. -/
theorem after3_v13 (V : Valuation τ sig (Elt F)) :
    StableHlo.after (hostOps0_3 (F := F)) V (Proc.devRef .tc main_v13)
      = paramStack (V (Proc.devRef .tc main_arg5)) (V (Proc.devRef .tc main_arg6)) (V (Proc.devRef .tc main_arg7)) := by
  simp only [hostOps0_3, StableHlo.after_cons, StableHlo.after_nil]
  rw [nary3_result]
  repeat (first
    | rw [StableHlo.unary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

/-- The first three stretches of host operations write none of the argument arrays. -/
theorem after012_of_not_written (c : Dev nD) (b : Ref sig .tc)
    (h : ∀ op ∈ (hostOps0 ++ hostOps0_1 ++ hostOps0_2 : List (HloOp τ sig (Elt F))), Proc.devRef .tc b ∉ op.writes) :
    StableHlo.after (hostOps0 ++ hostOps0_1 ++ hostOps0_2) (fun b => m (c, b)) (Proc.devRef .tc b) = m ((c : Thread nD τ).loc b) :=
  StableHlo.after_of_forall_not_mem (b := Proc.devRef .tc b) _ _ h

/-- Window 4's array is the stack of the second bias, the scale and the shift. -/
theorem entry_v13 (c : Dev nD) :
    entry m c main_v13 = paramStack (m ((c : Thread nD τ).loc main_arg5)) (m ((c : Thread nD τ).loc main_arg6))
      (m ((c : Thread nD τ).loc main_arg7)) := by
  have hl : (List.flatten [hostOps0, hostOps0_1, hostOps0_2, hostOps0_3] : List (HloOp τ sig (Elt F)))
      = (hostOps0 ++ hostOps0_1 ++ hostOps0_2) ++ hostOps0_3 := by
    simp only [List.flatten_cons, List.flatten_nil, List.append_nil, List.append_assoc]
  have hw : ∀ b : Ref sig .tc, b = main_arg5 ∨ b = main_arg6 ∨ b = main_arg7 →
      ∀ op ∈ (hostOps0 ++ hostOps0_1 ++ hostOps0_2 : List (HloOp τ sig (Elt F))), Proc.devRef .tc b ∉ op.writes := by
    intro b hb
    refine List.forall_iff_forall_mem.mp ?_
    simp only [hostOps0, hostOps0_1, hostOps0_2, List.append_nil, List.cons_append, List.nil_append, List.Forall,
      StableHlo.TRef.unary, StableHlo.TRef.binary, StableHlo.TRef.nullary, StableHlo.nullary_writes, StableHlo.unary_writes,
      StableHlo.binary_writes, Finset.mem_singleton]
    rcases hb with rfl | rfl | rfl
    all_goals (repeat' apply And.intro)
    all_goals exact StableHlo.devRef_ne_of_ne (by decide)
  show StableHlo.after (List.flatten [hostOps0, hostOps0_1, hostOps0_2, hostOps0_3]) (fun b => m (c, b)) (Proc.devRef .tc main_v13) = _
  rw [hl, StableHlo.after_append, after3_v13, after012_of_not_written m c main_arg5 (hw _ (Or.inl rfl)),
    after012_of_not_written m c main_arg6 (hw _ (Or.inr (Or.inl rfl))), after012_of_not_written m c main_arg7 (hw _ (Or.inr (Or.inr rfl)))]

/-- The reshaped bias at (day, 0, k) is the bias at (day, k). -/
theorem bias1View_apply (b1 : FVec F S24x1024 .f32) (dd : Fin 24) (k : Fin 1024) :
    bias1View b1 (ix3 dd 0 k) = b1 (ix2 dd k) := by
  unfold bias1View
  refine shapeCast_apply b1 shapeCasts_S24x1024_S24x1x1024 (ix3 dd 0 k) (ix2 dd k) ?_
  rw [Shape.rowMajor_val_two, Shape.rowMajor_val_three]
  show dd.val * 1024 + k.val = (dd.val * 1 + 0) * 1024 + k.val
  omega

/-- A 24 x 512 array viewed as 24 x 1 x 512 reads, at (day, 0, c), the array at (day, c). -/
theorem bcast_mid_apply (v : FVec F S24x512 .f32) (dd : Fin 24) (c : Fin 512) :
    broadcastInDim S24x1x512 ![0, 2] bcast_S24x512_S24x1x512_0_2 v (ix3 dd 0 c) = v (ix2 dd c) := by
  refine broadcastInDim_apply ![0, 2] bcast_S24x512_S24x1x512_0_2 v (ix3 dd 0 c) (ix2 dd c) ?_
  intro a
  match a with
  | ⟨0, _⟩ => rfl
  | ⟨1, _⟩ => rfl

/-- Off the stacking axis the stack's index and a layer's index agree. -/
theorem stack_off_axis (dd : Fin 24) (r : Fin 3) (c : Fin 512) (hr : S24x1x512.rank = S24x3x512.rank) :
    ∀ b : Fin S24x1x512.rank, b.cast hr ≠ (1 : Fin S24x3x512.rank) →
      ((ix3 dd (0 : Fin 1) c : S24x1x512.Idx) b).val = ((ix3 dd r c : S24x3x512.Idx) (b.cast hr)).val := by
  intro b hb
  match b with
  | ⟨0, _⟩ => rfl
  | ⟨1, _⟩ => exact absurd rfl hb
  | ⟨2, _⟩ => rfl

/-- The stack's layer 0 is the second bias. -/
theorem paramStack_bias (b2 g bt : FVec F S24x512 .f32) (dd : Fin 24) (c : Fin 512) :
    paramStack b2 g bt (ix3 dd 0 c) = b2 (ix2 dd c) := by
  unfold paramStack
  exact (concatenate_apply_piece (1 : Fin S24x3x512.rank) (stackLayers b2 g bt)
    concatenates_S24x1x512_S24x1x512_S24x1x512_S24x3x512_d1 (ix3 dd 0 c) 0 (by show (0 : ℕ) < 3; omega) S24x1x512 _ rfl rfl
    0 rfl (ix3 dd 0 c) (stack_off_axis dd 0 c rfl) rfl).trans
    (bcast_mid_apply b2 dd c)

/-- The stack's layer 1 is the scale. -/
theorem paramStack_scale (b2 g bt : FVec F S24x512 .f32) (dd : Fin 24) (c : Fin 512) :
    paramStack b2 g bt (ix3 dd 1 c) = g (ix2 dd c) := by
  unfold paramStack
  exact (concatenate_apply_piece (1 : Fin S24x3x512.rank) (stackLayers b2 g bt)
    concatenates_S24x1x512_S24x1x512_S24x1x512_S24x3x512_d1 (ix3 dd 1 c) 1 (by show (1 : ℕ) < 3; omega) S24x1x512 _ rfl rfl
    1 rfl (ix3 dd 0 c) (stack_off_axis dd 1 c rfl) rfl).trans
    (bcast_mid_apply g dd c)

/-- The stack's layer 2 is the shift. -/
theorem paramStack_shift (b2 g bt : FVec F S24x512 .f32) (dd : Fin 24) (c : Fin 512) :
    paramStack b2 g bt (ix3 dd 2 c) = bt (ix2 dd c) := by
  unfold paramStack
  exact (concatenate_apply_piece (1 : Fin S24x3x512.rank) (stackLayers b2 g bt)
    concatenates_S24x1x512_S24x1x512_S24x1x512_S24x3x512_d1 (ix3 dd 2 c) 2 (by show (2 : ℕ) < 3; omega) S24x1x512 _ rfl rfl
    2 rfl (ix3 dd 0 c) (stack_off_axis dd 2 c rfl) rfl).trans
    (bcast_mid_apply bt dd c)

end Cert.KernelIdeal.Region

end
-- ==== Proof.KI.BlockReads.lean ====
/-
  The six windows' blocks, with the two tables' contents a variable.

  Every window's block has shape [1, A, B] over an array [N, A, B], and its block index at a grid point is the window's
  index map at the tables' contents and the point's coordinates. Here, for any admissible contents: each window's
  block index as its index map; where an element of a block sits in the array when the block index is (n, 0, 0) — at
  (n, y1, y2), a block's coordinate being index × size + the coordinate inside the block; an input block read off the
  array's contents; which array elements the output window's block covers; and that the output block is written back
  at every point when no two points share an output block index.
-/
import proofs.«427686_j87058987089974_3_alg».proof.Proof.KI.RegionEntry
import Idealize.ShloMosaic.Lib.Pipeline.Value
import Idealize.ShloMosaic.Lib.ValueIdx

noncomputable section

namespace Cert.KernelIdeal.Region

open Idealize.ShloMosaic Idealize.ShloMosaic.TcCoe Idealize.SL.Sem Idealize.ShloMosaic.ValueIdx
open Cert.KernelIdeal Cert.KernelIdeal.Gen

variable {F : FTy → Type} [FloatOps F]

/-! ## The block indices -/

set_option maxHeartbeats 50000 in
/-- Window 0 (the sample x): the block index at point `t` is the window's index map at the contents and `t`'s coordinates. -/
theorem win_index0 (a : (pcfg0 (F := F)).Adm) (t : Fin (cfg0 a).N) :
    ((cfg0 a).win 0).index t = cc0_transform_0 Gen.k0_off1_inb Gen.numel1_S1 a.1 (grid0.coords t) := rfl

set_option maxHeartbeats 50000 in
/-- Window 1 (the first weight): the block index at point `t` is the window's index map at the contents and `t`'s coordinates. -/
theorem win_index1 (a : (pcfg0 (F := F)).Adm) (t : Fin (cfg0 a).N) :
    ((cfg0 a).win 1).index t = cc0_transform_1 Gen.k0_off1_inb Gen.numel1_S1 a.1 (grid0.coords t) := rfl

set_option maxHeartbeats 50000 in
/-- Window 2 (the first bias): the block index at point `t` is the window's index map at the contents and `t`'s coordinates. -/
theorem win_index2 (a : (pcfg0 (F := F)).Adm) (t : Fin (cfg0 a).N) :
    ((cfg0 a).win 2).index t = cc0_transform_2 Gen.k0_off1_inb Gen.numel1_S1 a.1 (grid0.coords t) := rfl

set_option maxHeartbeats 50000 in
/-- Window 3 (the second weight): the block index at point `t` is the window's index map at the contents and `t`'s coordinates. -/
theorem win_index3 (a : (pcfg0 (F := F)).Adm) (t : Fin (cfg0 a).N) :
    ((cfg0 a).win 3).index t = cc0_transform_3 Gen.k0_off1_inb Gen.numel1_S1 a.1 (grid0.coords t) := rfl

set_option maxHeartbeats 50000 in
/-- Window 4 (the stacked second bias, scale and shift): the block index at point `t` is the window's index map at the contents and `t`'s coordinates. -/
theorem win_index4 (a : (pcfg0 (F := F)).Adm) (t : Fin (cfg0 a).N) :
    ((cfg0 a).win 4).index t = cc0_transform_4 Gen.k0_off1_inb Gen.numel1_S1 a.1 (grid0.coords t) := rfl

set_option maxHeartbeats 50000 in
/-- Window 5 (the output): the block index at point `t` is the window's index map at the contents and `t`'s coordinates. -/
theorem win_index5 (a : (pcfg0 (F := F)).Adm) (t : Fin (cfg0 a).N) :
    ((cfg0 a).win 5).index t = cc0_transform_5 Gen.k0_off1_inb Gen.numel1_S1 a.1 (grid0.coords t) := rfl

/-! ## Where a block's element sits in its array -/

set_option maxHeartbeats 200000 in
/-- Window 0 at block index `(n, 0, 0)`: the block's element `y` is the array's element `(n, y 1, y 2)`. -/
theorem emb_win0 (a : (pcfg0 (F := F)).Adm) (t : Fin (cfg0 a).N) (y : S1x512x512.Idx) (n : Fin 64)
    (hix : ((cfg0 a).win 0).index t = ![n.val, 0, 0]) :
    (((cfg0 a).win 0).blk t).view.emb y = (ix3 n (y 1) (y 2) : S64x512x512.Idx) := by
  funext ax; apply Fin.ext
  have h0 := congrFun hix (0 : Fin 3)
  have h1 := congrFun hix (1 : Fin 3)
  have h2 := congrFun hix (2 : Fin 3)
  match ax with
  | ⟨0, _⟩ =>
    show ((cfg0 a).win 0).index t (0 : Fin 3) * 1 + 1 * (y 0).val = n.val
    have hy : (y 0).val < 1 := (y 0).isLt
    rw [h0]; show n.val * 1 + 1 * (y 0).val = n.val; omega
  | ⟨1, _⟩ =>
    show ((cfg0 a).win 0).index t (1 : Fin 3) * 512 + 1 * (y 1).val = (y 1).val
    rw [h1]; show 0 * 512 + 1 * (y 1).val = (y 1).val; omega
  | ⟨2, _⟩ =>
    show ((cfg0 a).win 0).index t (2 : Fin 3) * 512 + 1 * (y 2).val = (y 2).val
    rw [h2]; show 0 * 512 + 1 * (y 2).val = (y 2).val; omega

set_option maxHeartbeats 200000 in
/-- Window 1 at block index `(n, 0, 0)`: the block's element `y` is the array's element `(n, y 1, y 2)`. -/
theorem emb_win1 (a : (pcfg0 (F := F)).Adm) (t : Fin (cfg0 a).N) (y : S1x512x1024.Idx) (n : Fin 24)
    (hix : ((cfg0 a).win 1).index t = ![n.val, 0, 0]) :
    (((cfg0 a).win 1).blk t).view.emb y = (ix3 n (y 1) (y 2) : S24x512x1024.Idx) := by
  funext ax; apply Fin.ext
  have h0 := congrFun hix (0 : Fin 3)
  have h1 := congrFun hix (1 : Fin 3)
  have h2 := congrFun hix (2 : Fin 3)
  match ax with
  | ⟨0, _⟩ =>
    show ((cfg0 a).win 1).index t (0 : Fin 3) * 1 + 1 * (y 0).val = n.val
    have hy : (y 0).val < 1 := (y 0).isLt
    rw [h0]; show n.val * 1 + 1 * (y 0).val = n.val; omega
  | ⟨1, _⟩ =>
    show ((cfg0 a).win 1).index t (1 : Fin 3) * 512 + 1 * (y 1).val = (y 1).val
    rw [h1]; show 0 * 512 + 1 * (y 1).val = (y 1).val; omega
  | ⟨2, _⟩ =>
    show ((cfg0 a).win 1).index t (2 : Fin 3) * 1024 + 1 * (y 2).val = (y 2).val
    rw [h2]; show 0 * 1024 + 1 * (y 2).val = (y 2).val; omega

set_option maxHeartbeats 200000 in
/-- Window 2 at block index `(n, 0, 0)`: the block's element `y` is the array's element `(n, y 1, y 2)`. -/
theorem emb_win2 (a : (pcfg0 (F := F)).Adm) (t : Fin (cfg0 a).N) (y : S1x1x1024.Idx) (n : Fin 24)
    (hix : ((cfg0 a).win 2).index t = ![n.val, 0, 0]) :
    (((cfg0 a).win 2).blk t).view.emb y = (ix3 n (y 1) (y 2) : S24x1x1024.Idx) := by
  funext ax; apply Fin.ext
  have h0 := congrFun hix (0 : Fin 3)
  have h1 := congrFun hix (1 : Fin 3)
  have h2 := congrFun hix (2 : Fin 3)
  match ax with
  | ⟨0, _⟩ =>
    show ((cfg0 a).win 2).index t (0 : Fin 3) * 1 + 1 * (y 0).val = n.val
    have hy : (y 0).val < 1 := (y 0).isLt
    rw [h0]; show n.val * 1 + 1 * (y 0).val = n.val; omega
  | ⟨1, _⟩ =>
    show ((cfg0 a).win 2).index t (1 : Fin 3) * 1 + 1 * (y 1).val = (y 1).val
    rw [h1]; show 0 * 1 + 1 * (y 1).val = (y 1).val; omega
  | ⟨2, _⟩ =>
    show ((cfg0 a).win 2).index t (2 : Fin 3) * 1024 + 1 * (y 2).val = (y 2).val
    rw [h2]; show 0 * 1024 + 1 * (y 2).val = (y 2).val; omega

set_option maxHeartbeats 200000 in
/-- Window 3 at block index `(n, 0, 0)`: the block's element `y` is the array's element `(n, y 1, y 2)`. -/
theorem emb_win3 (a : (pcfg0 (F := F)).Adm) (t : Fin (cfg0 a).N) (y : S1x1024x512.Idx) (n : Fin 24)
    (hix : ((cfg0 a).win 3).index t = ![n.val, 0, 0]) :
    (((cfg0 a).win 3).blk t).view.emb y = (ix3 n (y 1) (y 2) : S24x1024x512.Idx) := by
  funext ax; apply Fin.ext
  have h0 := congrFun hix (0 : Fin 3)
  have h1 := congrFun hix (1 : Fin 3)
  have h2 := congrFun hix (2 : Fin 3)
  match ax with
  | ⟨0, _⟩ =>
    show ((cfg0 a).win 3).index t (0 : Fin 3) * 1 + 1 * (y 0).val = n.val
    have hy : (y 0).val < 1 := (y 0).isLt
    rw [h0]; show n.val * 1 + 1 * (y 0).val = n.val; omega
  | ⟨1, _⟩ =>
    show ((cfg0 a).win 3).index t (1 : Fin 3) * 1024 + 1 * (y 1).val = (y 1).val
    rw [h1]; show 0 * 1024 + 1 * (y 1).val = (y 1).val; omega
  | ⟨2, _⟩ =>
    show ((cfg0 a).win 3).index t (2 : Fin 3) * 512 + 1 * (y 2).val = (y 2).val
    rw [h2]; show 0 * 512 + 1 * (y 2).val = (y 2).val; omega

set_option maxHeartbeats 200000 in
/-- Window 4 at block index `(n, 0, 0)`: the block's element `y` is the array's element `(n, y 1, y 2)`. -/
theorem emb_win4 (a : (pcfg0 (F := F)).Adm) (t : Fin (cfg0 a).N) (y : S1x3x512.Idx) (n : Fin 24)
    (hix : ((cfg0 a).win 4).index t = ![n.val, 0, 0]) :
    (((cfg0 a).win 4).blk t).view.emb y = (ix3 n (y 1) (y 2) : S24x3x512.Idx) := by
  funext ax; apply Fin.ext
  have h0 := congrFun hix (0 : Fin 3)
  have h1 := congrFun hix (1 : Fin 3)
  have h2 := congrFun hix (2 : Fin 3)
  match ax with
  | ⟨0, _⟩ =>
    show ((cfg0 a).win 4).index t (0 : Fin 3) * 1 + 1 * (y 0).val = n.val
    have hy : (y 0).val < 1 := (y 0).isLt
    rw [h0]; show n.val * 1 + 1 * (y 0).val = n.val; omega
  | ⟨1, _⟩ =>
    show ((cfg0 a).win 4).index t (1 : Fin 3) * 3 + 1 * (y 1).val = (y 1).val
    rw [h1]; show 0 * 3 + 1 * (y 1).val = (y 1).val; omega
  | ⟨2, _⟩ =>
    show ((cfg0 a).win 4).index t (2 : Fin 3) * 512 + 1 * (y 2).val = (y 2).val
    rw [h2]; show 0 * 512 + 1 * (y 2).val = (y 2).val; omega

set_option maxHeartbeats 200000 in
/-- Window 5 at block index `(n, 0, 0)`: the block's element `y` is the array's element `(n, y 1, y 2)`. -/
theorem emb_win5 (a : (pcfg0 (F := F)).Adm) (t : Fin (cfg0 a).N) (y : S1x512x512.Idx) (n : Fin 64)
    (hix : ((cfg0 a).win 5).index t = ![n.val, 0, 0]) :
    (((cfg0 a).win 5).blk t).view.emb y = (ix3 n (y 1) (y 2) : S64x512x512.Idx) := by
  funext ax; apply Fin.ext
  have h0 := congrFun hix (0 : Fin 3)
  have h1 := congrFun hix (1 : Fin 3)
  have h2 := congrFun hix (2 : Fin 3)
  match ax with
  | ⟨0, _⟩ =>
    show ((cfg0 a).win 5).index t (0 : Fin 3) * 1 + 1 * (y 0).val = n.val
    have hy : (y 0).val < 1 := (y 0).isLt
    rw [h0]; show n.val * 1 + 1 * (y 0).val = n.val; omega
  | ⟨1, _⟩ =>
    show ((cfg0 a).win 5).index t (1 : Fin 3) * 512 + 1 * (y 1).val = (y 1).val
    rw [h1]; show 0 * 512 + 1 * (y 1).val = (y 1).val; omega
  | ⟨2, _⟩ =>
    show ((cfg0 a).win 5).index t (2 : Fin 3) * 512 + 1 * (y 2).val = (y 2).val
    rw [h2]; show 0 * 512 + 1 * (y 2).val = (y 2).val; omega

/-! ## An input block read off the array -/

set_option maxHeartbeats 200000 in
/-- Window 0 at block index `(n, 0, 0)`: the block read off contents `A` of the array is `A` at `(n, y 1, y 2)`. -/
theorem read_win0 (a : (pcfg0 (F := F)).Adm) (t : Fin (cfg0 a).N) (A : S64x512x512.Idx → Elt F .f32) (y : S1x512x512.Idx)
    (n : Fin 64) (hix : ((cfg0 a).win 0).index t = ![n.val, 0, 0]) :
    (((cfg0 a).win 0).blk t).view.read (Elt F) A y = A (ix3 n (y 1) (y 2)) :=
  congrArg A (emb_win0 a t y n hix)

set_option maxHeartbeats 200000 in
/-- Window 1 at block index `(n, 0, 0)`: the block read off contents `A` of the array is `A` at `(n, y 1, y 2)`. -/
theorem read_win1 (a : (pcfg0 (F := F)).Adm) (t : Fin (cfg0 a).N) (A : S24x512x1024.Idx → Elt F .f32) (y : S1x512x1024.Idx)
    (n : Fin 24) (hix : ((cfg0 a).win 1).index t = ![n.val, 0, 0]) :
    (((cfg0 a).win 1).blk t).view.read (Elt F) A y = A (ix3 n (y 1) (y 2)) :=
  congrArg A (emb_win1 a t y n hix)

set_option maxHeartbeats 200000 in
/-- Window 2 at block index `(n, 0, 0)`: the block read off contents `A` of the array is `A` at `(n, y 1, y 2)`. -/
theorem read_win2 (a : (pcfg0 (F := F)).Adm) (t : Fin (cfg0 a).N) (A : S24x1x1024.Idx → Elt F .f32) (y : S1x1x1024.Idx)
    (n : Fin 24) (hix : ((cfg0 a).win 2).index t = ![n.val, 0, 0]) :
    (((cfg0 a).win 2).blk t).view.read (Elt F) A y = A (ix3 n (y 1) (y 2)) :=
  congrArg A (emb_win2 a t y n hix)

set_option maxHeartbeats 200000 in
/-- Window 3 at block index `(n, 0, 0)`: the block read off contents `A` of the array is `A` at `(n, y 1, y 2)`. -/
theorem read_win3 (a : (pcfg0 (F := F)).Adm) (t : Fin (cfg0 a).N) (A : S24x1024x512.Idx → Elt F .f32) (y : S1x1024x512.Idx)
    (n : Fin 24) (hix : ((cfg0 a).win 3).index t = ![n.val, 0, 0]) :
    (((cfg0 a).win 3).blk t).view.read (Elt F) A y = A (ix3 n (y 1) (y 2)) :=
  congrArg A (emb_win3 a t y n hix)

set_option maxHeartbeats 200000 in
/-- Window 4 at block index `(n, 0, 0)`: the block read off contents `A` of the array is `A` at `(n, y 1, y 2)`. -/
theorem read_win4 (a : (pcfg0 (F := F)).Adm) (t : Fin (cfg0 a).N) (A : S24x3x512.Idx → Elt F .f32) (y : S1x3x512.Idx)
    (n : Fin 24) (hix : ((cfg0 a).win 4).index t = ![n.val, 0, 0]) :
    (((cfg0 a).win 4).blk t).view.read (Elt F) A y = A (ix3 n (y 1) (y 2)) :=
  congrArg A (emb_win4 a t y n hix)

/-! ## The output window -/

set_option maxHeartbeats 200000 in
/-- The output window's block at point `t` covers the array elements whose every coordinate lies in the block's range:
    from index × size, for size coordinates. -/
theorem mem_out_blk (a : (pcfg0 (F := F)).Adm) (t : Fin (cfg0 a).N) (i : S64x512x512.Idx) :
    i ∈ (((cfg0 a).win 5).blk t).view.set ↔ ∀ ax : Fin 3, ((cfg0 a).win 5).index t ax * S1x512x512.size ax ≤ (i ax).val
      ∧ (i ax).val < ((cfg0 a).win 5).index t ax * S1x512x512.size ax + S1x512x512.size ax := by
  have h : (((cfg0 a).win 5).blk t).view.set = (((cfg0 a).win 5).rect t).set := View.set_slice_whole main_v14 _
  rw [h]; exact Rect.mem_set_unit

set_option maxHeartbeats 200000 in
/-- When no two points share an output block index, the output block is written back at every point: at the last, and
    at any other because the next point's index differs. -/
theorem flush_out (a : (pcfg0 (F := F)).Adm)
    (hinj : ∀ t t' : Fin (cfg0 a).N, ((cfg0 a).win 5).index t = ((cfg0 a).win 5).index t' → t = t') (t : Fin (cfg0 a).N) :
    ((cfg0 a).win 5).flush t = true := by
  unfold Pipeline.Window.flush
  have hout : ((cfg0 a).win 5).isOut = true := rfl
  rw [hout, Bool.true_and, Bool.or_eq_true, decide_eq_true_eq, decide_eq_true_eq]
  by_cases h : t.val + 1 = (cfg0 a).N
  · exact Or.inl h
  · refine Or.inr ⟨by have := t.isLt; have hN : (cfg0 a).N = (cfg0 a).grid.N := rfl; omega, fun e => ?_⟩
    have h' := congrArg Fin.val (hinj _ _ e)
    simp at h'

end Cert.KernelIdeal.Region

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.KI.BlockValue.lean ====
/-
  One grid point's stored block, read at an index, over the extended reals.

  The block is computed from seven staged blocks: a sample `x` (1 x 512 x 512), its day's first weight (1 x 512 x 1024) and
  bias (1 x 1 x 1024), second weight (1 x 1024 x 512), and the rows b2, gamma, beta (each 1 x 1 x 512). With the leading unit
  axes dropped the body takes h = max (x . w1 + b1) 0, y = h . w2 + b2, the row means of y kept as a column and spread
  back along the rows, the centred entries, the row means of their squares, and centred * rsqrt (var + eps) * gamma + beta.

  Every step is read at one index: a product into a zero accumulator is the sum over the contracted coordinate of the
  operands' products; a sum along the last axis is the sum over that axis's coordinates; a change of format is the
  identity on extended reals; the casts and broadcasts move an index's coordinates and never its value. What remains is,
  term for term, `Cert.DayAdapter.sampleOut` of the blocks' entries.
-/
import proofs.«427686_j87058987089974_3_alg».proof.Proof.Gen.KernelIdeal.Skeleton
import proofs.«427686_j87058987089974_3_alg».proof.Proof.AdapterSpec
import proofs.«427686_j87058987089974_3_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Block

open Idealize.ShloMosaic Idealize.ShloMosaic.ValueIdx Cert.KernelIdeal Cert.KernelIdeal.Gen

/-! ## The two products' operand indices -/

/-- The first product: the left operand's row coordinate is the output's row. -/
theorem lhs1_0 (j : S512x1024.Idx) (k : dot_S512x512_S512x1024_S512x1024_1_0_0_1_n_n.contr.Idx) :
    (dot_S512x512_S512x1024_S512x1024_1_0_0_1_n_n.lhsIdx j k 0).val = (j 0).val := by
  simp [DotDims.lhsIdx, dot_S512x512_S512x1024_S512x1024_1_0_0_1_n_n]
  rfl

/-- The first product: the left operand's column coordinate is the contracted coordinate. -/
theorem lhs1_1 (j : S512x1024.Idx) (k : dot_S512x512_S512x1024_S512x1024_1_0_0_1_n_n.contr.Idx) :
    (dot_S512x512_S512x1024_S512x1024_1_0_0_1_n_n.lhsIdx j k 1).val = (k ⟨0, by decide⟩).val :=
  DotDims.lhsIdx_val_of_single _ rfl j k

/-- The first product: the right operand's row coordinate is the contracted coordinate. -/
theorem rhs1_0 (j : S512x1024.Idx) (k : dot_S512x512_S512x1024_S512x1024_1_0_0_1_n_n.contr.Idx) :
    (dot_S512x512_S512x1024_S512x1024_1_0_0_1_n_n.rhsIdx j k 0).val = (k ⟨0, by decide⟩).val :=
  DotDims.rhsIdx_val_of_single _ rfl j k

/-- The first product: the right operand's column coordinate is the output's column. -/
theorem rhs1_1 (j : S512x1024.Idx) (k : dot_S512x512_S512x1024_S512x1024_1_0_0_1_n_n.contr.Idx) :
    (dot_S512x512_S512x1024_S512x1024_1_0_0_1_n_n.rhsIdx j k 1).val = (j 1).val := by
  simp [DotDims.rhsIdx, dot_S512x512_S512x1024_S512x1024_1_0_0_1_n_n]
  rfl

/-- The second product: the left operand's row coordinate is the output's row. -/
theorem lhs2_0 (j : S512x512.Idx) (k : dot_S512x1024_S1024x512_S512x512_1_0_0_1_n_n.contr.Idx) :
    (dot_S512x1024_S1024x512_S512x512_1_0_0_1_n_n.lhsIdx j k 0).val = (j 0).val := by
  simp [DotDims.lhsIdx, dot_S512x1024_S1024x512_S512x512_1_0_0_1_n_n]
  rfl

/-- The second product: the left operand's column coordinate is the contracted coordinate. -/
theorem lhs2_1 (j : S512x512.Idx) (k : dot_S512x1024_S1024x512_S512x512_1_0_0_1_n_n.contr.Idx) :
    (dot_S512x1024_S1024x512_S512x512_1_0_0_1_n_n.lhsIdx j k 1).val = (k ⟨0, by decide⟩).val :=
  DotDims.lhsIdx_val_of_single _ rfl j k

/-- The second product: the right operand's row coordinate is the contracted coordinate. -/
theorem rhs2_0 (j : S512x512.Idx) (k : dot_S512x1024_S1024x512_S512x512_1_0_0_1_n_n.contr.Idx) :
    (dot_S512x1024_S1024x512_S512x512_1_0_0_1_n_n.rhsIdx j k 0).val = (k ⟨0, by decide⟩).val :=
  DotDims.rhsIdx_val_of_single _ rfl j k

/-- The second product: the right operand's column coordinate is the output's column. -/
theorem rhs2_1 (j : S512x512.Idx) (k : dot_S512x1024_S1024x512_S512x512_1_0_0_1_n_n.contr.Idx) :
    (dot_S512x1024_S1024x512_S512x512_1_0_0_1_n_n.rhsIdx j k 1).val = (j 1).val := by
  simp [DotDims.rhsIdx, dot_S512x1024_S1024x512_S512x512_1_0_0_1_n_n]
  rfl

/-! ## A product, a row sum and a cast read at an index -/

/-- The first product into a zero accumulator, read at `(p, c)`: the sum over the contracted coordinate of the
    products of the left operand's row `p` and the right operand's column `c`. -/
theorem matmul1_apply (A : FVec Ideal S512x512 .bf16) (B : FVec Ideal S512x1024 .bf16) (p : Fin 512) (c : Fin 1024) :
    matmul dot_S512x512_S512x1024_S512x1024_1_0_0_1_n_n none A B (constant (F := Ideal) S512x1024 .f32 0x00000000#32) (ix2 p c)
      = ∑ t : Fin 512, A (ix2 p t) * B (ix2 t c) := by
  show FloatOps.matmul dot_S512x512_S512x1024_S512x1024_1_0_0_1_n_n none A B (constant (F := Ideal) S512x1024 .f32 0x00000000#32) (ix2 p c) = _
  rw [Ideal.matmul_constant_zero_apply,
    ← Equiv.sum_comp (contrEquiv1 dot_S512x512_S512x1024_S512x1024_1_0_0_1_n_n 512 rfl rfl).symm]
  refine Finset.sum_congr rfl fun t _ => ?_
  have ct := contrEquiv1_symm_val dot_S512x512_S512x1024_S512x1024_1_0_0_1_n_n 512 rfl rfl t
  have hl : dot_S512x512_S512x1024_S512x1024_1_0_0_1_n_n.lhsIdx (ix2 p c) ((contrEquiv1 dot_S512x512_S512x1024_S512x1024_1_0_0_1_n_n 512 rfl rfl).symm t) = ix2 p t := by
    funext ax; apply Fin.ext
    match ax with
    | ⟨0, _⟩ => exact lhs1_0 _ _
    | ⟨1, _⟩ => exact (lhs1_1 _ _).trans ct
  have hr : dot_S512x512_S512x1024_S512x1024_1_0_0_1_n_n.rhsIdx (ix2 p c) ((contrEquiv1 dot_S512x512_S512x1024_S512x1024_1_0_0_1_n_n 512 rfl rfl).symm t) = ix2 t c := by
    funext ax; apply Fin.ext
    match ax with
    | ⟨0, _⟩ => exact (rhs1_0 _ _).trans ct
    | ⟨1, _⟩ => exact rhs1_1 _ _
  rw [hl, hr]

/-- The second product into a zero accumulator, read at `(p, c)`: the sum over the contracted coordinate of the
    products of the left operand's row `p` and the right operand's column `c`. -/
theorem matmul2_apply (A : FVec Ideal S512x1024 .bf16) (B : FVec Ideal S1024x512 .bf16) (p : Fin 512) (c : Fin 512) :
    matmul dot_S512x1024_S1024x512_S512x512_1_0_0_1_n_n none A B (constant (F := Ideal) S512x512 .f32 0x00000000#32) (ix2 p c)
      = ∑ t : Fin 1024, A (ix2 p t) * B (ix2 t c) := by
  show FloatOps.matmul dot_S512x1024_S1024x512_S512x512_1_0_0_1_n_n none A B (constant (F := Ideal) S512x512 .f32 0x00000000#32) (ix2 p c) = _
  rw [Ideal.matmul_constant_zero_apply,
    ← Equiv.sum_comp (contrEquiv1 dot_S512x1024_S1024x512_S512x512_1_0_0_1_n_n 1024 rfl rfl).symm]
  refine Finset.sum_congr rfl fun t _ => ?_
  have ct := contrEquiv1_symm_val dot_S512x1024_S1024x512_S512x512_1_0_0_1_n_n 1024 rfl rfl t
  have hl : dot_S512x1024_S1024x512_S512x512_1_0_0_1_n_n.lhsIdx (ix2 p c) ((contrEquiv1 dot_S512x1024_S1024x512_S512x512_1_0_0_1_n_n 1024 rfl rfl).symm t) = ix2 p t := by
    funext ax; apply Fin.ext
    match ax with
    | ⟨0, _⟩ => exact lhs2_0 _ _
    | ⟨1, _⟩ => exact (lhs2_1 _ _).trans ct
  have hr : dot_S512x1024_S1024x512_S512x512_1_0_0_1_n_n.rhsIdx (ix2 p c) ((contrEquiv1 dot_S512x1024_S1024x512_S512x512_1_0_0_1_n_n 1024 rfl rfl).symm t) = ix2 t c := by
    funext ax; apply Fin.ext
    match ax with
    | ⟨0, _⟩ => exact (rhs2_0 _ _).trans ct
    | ⟨1, _⟩ => exact rhs2_1 _ _
  rw [hl, hr]

/-- A sum along the last axis of a 512 x 512 array, read at row `p`: the sum of that row's entries. -/
theorem rowSum_apply (y : FVec Ideal S512x512 .f32) (h : S512x512.Reduces [1] S512) (hφ : FKind.Formats .f32)
    (hacc : (0x00000000#32 : BitVec 32) = 0x00000000#32) (p : Fin 512) :
    multiReduction (F := Ideal) .add [1] S512 y 0x00000000#32 h hφ hacc (ix1 p) = ∑ o : Fin 512, y (ix2 p o) := by
  refine (Ideal.multiReduction_add_single y 0x00000000#32 h hφ hacc (ix1 p)).trans ?_
  refine Finset.sum_congr rfl fun o _ => congrArg y ?_
  funext ax; apply Fin.ext
  match ax with
  | ⟨0, _⟩ => rfl
  | ⟨1, _⟩ => rfl

/-- A `[1, 1, n]` array read as a vector `[n]`: entry `i` is the array's `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ## The body's values at an index -/

/-- The second layer's value at row `p`, column `o`, from the blocks. -/
theorem pay4_apply (v0 : Vec Ideal S1x512x512 .f32) (v3 : Vec Ideal S1x512x1024 .f32) (v6 : Vec Ideal S1x1x1024 .f32)
    (v8 : Vec Ideal S1x1024x512 .f32) (v11 : Vec Ideal S1x1x512 .f32) (p o : Fin 512) :
    k0_pay4 (F := Ideal) v0 v3 v6 v8 v11 (ix2 p o)
      = Cert.DayAdapter.affine (fun r c => v0 (ix3 (0 : Fin 1) r c)) (fun j k => v3 (ix3 (0 : Fin 1) j k))
          (fun k => v6 (ix3 (0 : Fin 1) (0 : Fin 1) k)) (fun k c => v8 (ix3 (0 : Fin 1) k c))
          (fun c => v11 (ix3 (0 : Fin 1) (0 : Fin 1) c)) p o := by
  unfold k0_pay4 Cert.DayAdapter.affine
  dsimp only
  refine (addf_apply (φ := .f32) _ _ _).trans ?_
  refine congrArg₂ (· + ·) ?_ ?_
  · refine (matmul2_apply _ _ p o).trans ?_
    refine Finset.sum_congr rfl fun t _ => ?_
    refine congrArg₂ (· * ·) ?_ ?_
    · refine (truncf_apply (φ := .f32) (ψ := .bf16) _ _ _).trans ?_
      refine (maximumf_apply (φ := .f32) _ _ _).trans ?_
      unfold Cert.DayAdapter.hidden
      refine congrArg₂ max ?_ ?_
      · refine (addf_apply (φ := .f32) _ _ _).trans ?_
        refine congrArg₂ (· + ·) ?_ ?_
        · refine (matmul1_apply _ _ p t).trans ?_
          refine Finset.sum_congr rfl fun j _ => ?_
          refine congrArg₂ (· * ·) ?_ ?_
          · exact (truncf_apply (φ := .f32) (ψ := .bf16) _ _ _).trans (shapeCast_1ab_ab_apply v0 _ p j)
          · exact (truncf_apply (φ := .f32) (ψ := .bf16) _ _ _).trans (shapeCast_1ab_ab_apply v3 _ j t)
        · exact (broadcastTo_1b_ab_apply _ _ p t).trans
            ((shapeCast_a_1a_apply _ _ 0 t).trans (shapeCast_11a_a_apply v6 _ t))
      · exact Ideal.ofBits_zero_f32
    · exact (truncf_apply (φ := .f32) (ψ := .bf16) _ _ _).trans (shapeCast_1ab_ab_apply v8 _ t o)
  · exact (broadcastTo_1b_ab_apply _ _ p o).trans
      ((shapeCast_a_1a_apply _ _ 0 o).trans (shapeCast_11a_a_apply v11 _ o))

/-- A reciprocal square root taken entrywise, read at an index. -/
theorem rsqrt_apply {s : Shape} {φ : FTy} (a : FVec Ideal s φ) (i : s.Idx) : rsqrt a i = Ideal.rsqrt (a i) := rfl

/-- The scale row as a vector: entry `o` is the block's `(0, 0, o)`. -/
theorem pay2_apply (v13 : Vec Ideal S1x1x512 .f32) (o : Fin 512) :
    k0_pay2 (F := Ideal) v13 (ix1 o) = v13 (ix3 (0 : Fin 1) (0 : Fin 1) o) := by
  unfold k0_pay2
  exact shapeCast_11a_a_apply v13 _ o

/-- The shift row as a vector: entry `o` is the block's `(0, 0, o)`. -/
theorem pay3_apply (v15 : Vec Ideal S1x1x512 .f32) (o : Fin 512) :
    k0_pay3 (F := Ideal) v15 (ix1 o) = v15 (ix3 (0 : Fin 1) (0 : Fin 1) o) := by
  unfold k0_pay3
  exact shapeCast_11a_a_apply v15 _ o

/-- The row means, kept as a column and spread along the row: at `(p, o)` the mean of row `p` of the second layer. -/
theorem pay5_apply (v0 : Vec Ideal S1x512x512 .f32) (v3 : Vec Ideal S1x512x1024 .f32) (v6 : Vec Ideal S1x1x1024 .f32)
    (v8 : Vec Ideal S1x1024x512 .f32) (v11 : Vec Ideal S1x1x512 .f32) (p o : Fin 512) :
    k0_pay5 (F := Ideal) v0 v3 v6 v8 v11 (ix2 p o)
      = Cert.DayAdapter.rowMean
          (Cert.DayAdapter.affine (fun r c => v0 (ix3 (0 : Fin 1) r c)) (fun j k => v3 (ix3 (0 : Fin 1) j k))
            (fun k => v6 (ix3 (0 : Fin 1) (0 : Fin 1) k)) (fun k c => v8 (ix3 (0 : Fin 1) k c))
            (fun c => v11 (ix3 (0 : Fin 1) (0 : Fin 1) c))) p := by
  unfold k0_pay5 Cert.DayAdapter.rowMean
  dsimp only
  refine (Cert.Lib.broadcastTo_a1_ab_apply _ _ p o).trans ?_
  refine (divf_apply (φ := .f32) _ _ _).trans ?_
  refine congrArg₂ Ideal.div ?_ ?_
  · refine (Cert.Lib.shapeCast_a_a1_apply _ _ p 0).trans ?_
    refine (rowSum_apply _ _ _ _ p).trans ?_
    exact Finset.sum_congr rfl fun c _ => pay4_apply v0 v3 v6 v8 v11 p c
  · rfl

/-- The normalisation, over any second-layer values `y`, any array `m` of means, any scale `g` and shift `bt`: the
    stored block at `(0, p, o)` is the centred entry times the reciprocal root of the row's mean square deviation plus
    epsilon, scaled and shifted. -/
theorem pay1_apply (g bt : FVec Ideal S512 .f32) (y m : FVec Ideal S512x512 .f32) (p o : Fin 512) :
    k0_pay1 (F := Ideal) g bt y m (ix3 (0 : Fin 1) p o)
      = (y (ix2 p o) - m (ix2 p o))
          * Ideal.rsqrt (Ideal.div (∑ c : Fin 512, (y (ix2 p c) - m (ix2 p c)) * (y (ix2 p c) - m (ix2 p c)))
              Cert.DayAdapter.width + Cert.DayAdapter.eps)
          * g (ix1 o) + bt (ix1 o) := by
  unfold k0_pay1
  dsimp only
  refine (shapeCast_ab_1ab_apply _ _ 0 p o).trans ?_
  refine (addf_apply (φ := .f32) _ _ _).trans ?_
  refine congrArg₂ (· + ·) ?_ ?_
  · refine (mulf_apply (φ := .f32) _ _ _).trans ?_
    refine congrArg₂ (· * ·) ?_ ?_
    · refine (mulf_apply (φ := .f32) _ _ _).trans ?_
      refine congrArg₂ (· * ·) ?_ ?_
      · exact subf_apply (φ := .f32) _ _ _
      · refine (Cert.Lib.broadcastTo_a1_ab_apply _ _ p o).trans ?_
        refine (rsqrt_apply (φ := .f32) _ _).trans ?_
        refine congrArg Ideal.rsqrt ?_
        refine (addf_apply (φ := .f32) _ _ _).trans ?_
        refine congrArg₂ (· + ·) ?_ ?_
        · refine (divf_apply (φ := .f32) _ _ _).trans ?_
          refine congrArg₂ Ideal.div ?_ ?_
          · refine (Cert.Lib.shapeCast_a_a1_apply _ _ p 0).trans ?_
            refine (rowSum_apply _ _ _ _ p).trans ?_
            refine Finset.sum_congr rfl fun c _ => ?_
            exact (mulf_apply (φ := .f32) _ _ _).trans
              (congrArg₂ (· * ·) (subf_apply (φ := .f32) _ _ _) (subf_apply (φ := .f32) _ _ _))
          · rfl
        · rfl
    · exact (broadcastTo_1b_ab_apply _ _ p o).trans (shapeCast_a_1a_apply g _ 0 o)
  · exact (broadcastTo_1b_ab_apply _ _ p o).trans (shapeCast_a_1a_apply bt _ 0 o)

/-- One grid point's stored block at `(0, p, o)`: the sample's output at row `p`, column `o`, from the staged
    blocks. -/
theorem payload_apply (v0 : Vec Ideal S1x512x512 .f32) (v3 : Vec Ideal S1x512x1024 .f32) (v6 : Vec Ideal S1x1x1024 .f32)
    (v8 : Vec Ideal S1x1024x512 .f32) (v11 v13 v15 : Vec Ideal S1x1x512 .f32) (p o : Fin 512) :
    k0_pay1 (F := Ideal) (k0_pay2 v13) (k0_pay3 v15) (k0_pay4 v0 v3 v6 v8 v11) (k0_pay5 v0 v3 v6 v8 v11) (ix3 (0 : Fin 1) p o)
      = Cert.DayAdapter.sampleOut (fun r c => v0 (ix3 (0 : Fin 1) r c)) (fun j k => v3 (ix3 (0 : Fin 1) j k))
          (fun k => v6 (ix3 (0 : Fin 1) (0 : Fin 1) k)) (fun k c => v8 (ix3 (0 : Fin 1) k c))
          (fun c => v11 (ix3 (0 : Fin 1) (0 : Fin 1) c)) (fun c => v13 (ix3 (0 : Fin 1) (0 : Fin 1) c))
          (fun c => v15 (ix3 (0 : Fin 1) (0 : Fin 1) c)) p o := by
  refine (pay1_apply (k0_pay2 v13) (k0_pay3 v15) (k0_pay4 v0 v3 v6 v8 v11) (k0_pay5 v0 v3 v6 v8 v11) p o).trans ?_
  unfold Cert.DayAdapter.sampleOut Cert.DayAdapter.layerNorm Cert.DayAdapter.rowVar Cert.DayAdapter.centred
  simp only [pay2_apply, pay3_apply, pay4_apply, pay5_apply]

end Cert.KernelIdeal.Block

end
-- ==== Proof.KI.PointValue.lean ====
/-
  One grid point's stored block is the specification's output for its sample.

  The body reads the second bias, the scale and the shift as rows 0, 1 and 2 of the staged 1 x 3 x 512 block: a load
  through the unit-stride rectangle at offsets (0, J, 0) reads, at (0, 0, c), the block at (0, J, c). When the five
  staged blocks hold sample i and the parameters of its day, entry by entry, the stored block at (0, r, o) is the
  specification's output of sample i at row r, column o: the block's value is the sample's output as a function of
  seven entry functions, and those seven agree with the specification's.
-/
import proofs.«427686_j87058987089974_3_alg».proof.Proof.KI.BodyRun
import proofs.«427686_j87058987089974_3_alg».proof.Proof.KI.BlockValue
import proofs.«427686_j87058987089974_3_alg».proof.Proof.AdapterSpec

noncomputable section

namespace Cert.KernelIdeal.Region

open Idealize.ShloMosaic Idealize.ShloMosaic.ValueIdx
open Cert.KernelIdeal Cert.KernelIdeal.Gen

variable {F : FTy → Type} [FloatOps F]

/-! ## The three rows of the stacked block -/

/-- Row 0 read at (0, 0, c) is the block at (0, 0, c). -/
theorem ld_row0 (p : Vec F S1x3x512 .f32) (c : Fin 512) :
    View.ld p row0 (ix3 (0 : Fin 1) (0 : Fin 1) c) = p (ix3 (0 : Fin 1) (0 : Fin 3) c) := by
  refine congrArg p (funext fun a => Fin.ext ?_)
  match a with
  | ⟨0, _⟩ => rfl
  | ⟨1, _⟩ => rfl
  | ⟨2, _⟩ => show 0 + 1 * c.val = c.val; omega

/-- Row 1 read at (0, 0, c) is the block at (0, 1, c). -/
theorem ld_row1 (p : Vec F S1x3x512 .f32) (c : Fin 512) :
    View.ld p row1 (ix3 (0 : Fin 1) (0 : Fin 1) c) = p (ix3 (0 : Fin 1) (1 : Fin 3) c) := by
  refine congrArg p (funext fun a => Fin.ext ?_)
  match a with
  | ⟨0, _⟩ => rfl
  | ⟨1, _⟩ => rfl
  | ⟨2, _⟩ => show 0 + 1 * c.val = c.val; omega

/-- Row 2 read at (0, 0, c) is the block at (0, 2, c). -/
theorem ld_row2 (p : Vec F S1x3x512 .f32) (c : Fin 512) :
    View.ld p row2 (ix3 (0 : Fin 1) (0 : Fin 1) c) = p (ix3 (0 : Fin 1) (2 : Fin 3) c) := by
  refine congrArg p (funext fun a => Fin.ext ?_)
  match a with
  | ⟨0, _⟩ => rfl
  | ⟨1, _⟩ => rfl
  | ⟨2, _⟩ => show 0 + 1 * c.val = c.val; omega

/-! ## The stored block -/

/-- A sample's output depends on its seven entry functions only. -/
theorem sampleOut_congr {x x' : Fin 512 → Fin 512 → EReal} {w1 w1' : Fin 512 → Fin 1024 → EReal}
    {b1 b1' : Fin 1024 → EReal} {w2 w2' : Fin 1024 → Fin 512 → EReal} {b2 b2' g g' bt bt' : Fin 512 → EReal}
    (hx : x = x') (hw1 : w1 = w1') (hb1 : b1 = b1') (hw2 : w2 = w2') (hb2 : b2 = b2') (hg : g = g') (hbt : bt = bt')
    (p o : Fin 512) :
    Cert.DayAdapter.sampleOut x w1 b1 w2 b2 g bt p o = Cert.DayAdapter.sampleOut x' w1' b1' w2' b2' g' bt' p o := by
  subst hx hw1 hb1 hw2 hb2 hg hbt; rfl

/-- The stored block at (0, r, o), when the staged blocks hold sample i and the parameters of day dd = the day of
    sample i: the specification's output at (i, r, o). -/
theorem point_value (x : Vec Ideal S1x512x512 .f32) (w1 : Vec Ideal S1x512x1024 .f32) (b1 : Vec Ideal S1x1x1024 .f32)
    (w2 : Vec Ideal S1x1024x512 .f32) (p : Vec Ideal S1x3x512 .f32)
    (X : S64x512x512.Idx → EReal) (d : S64.Idx → BitVec 32) (W1 : S24x512x1024.Idx → EReal) (B1 : S24x1024.Idx → EReal)
    (W2 : S24x1024x512.Idx → EReal) (B2 Gm Bt : S24x512.Idx → EReal) (i : Fin 64) (dd : Fin 24)
    (hdd : dd = Cert.DayAdapter.dayOf (d (ix1 i)))
    (hx : ∀ r c : Fin 512, x (ix3 (0 : Fin 1) r c) = X (ix3 i r c))
    (hw1 : ∀ (j : Fin 512) (k : Fin 1024), w1 (ix3 (0 : Fin 1) j k) = W1 (ix3 dd j k))
    (hb1 : ∀ k : Fin 1024, b1 (ix3 (0 : Fin 1) (0 : Fin 1) k) = B1 (ix2 dd k))
    (hw2 : ∀ (k : Fin 1024) (c : Fin 512), w2 (ix3 (0 : Fin 1) k c) = W2 (ix3 dd k c))
    (hp0 : ∀ c : Fin 512, p (ix3 (0 : Fin 1) (0 : Fin 3) c) = B2 (ix2 dd c))
    (hp1 : ∀ c : Fin 512, p (ix3 (0 : Fin 1) (1 : Fin 3) c) = Gm (ix2 dd c))
    (hp2 : ∀ c : Fin 512, p (ix3 (0 : Fin 1) (2 : Fin 3) c) = Bt (ix2 dd c))
    (r o : Fin 512) :
    payloadOf (F := Ideal) x w1 b1 w2 p (ix3 (0 : Fin 1) r o) = Cert.DayAdapter.outAt X d W1 B1 W2 B2 Gm Bt i r o := by
  subst hdd
  unfold payloadOf
  refine (Cert.KernelIdeal.Block.payload_apply x w1 b1 w2 (View.ld p row0) (View.ld p row1) (View.ld p row2) r o).trans ?_
  unfold Cert.DayAdapter.outAt
  exact sampleOut_congr (funext fun r => funext fun c => hx r c) (funext fun j => funext fun k => hw1 j k)
    (funext fun k => hb1 k) (funext fun k => funext fun c => hw2 k c)
    (funext fun c => (ld_row0 p c).trans (hp0 c)) (funext fun c => (ld_row1 p c).trans (hp1 c))
    (funext fun c => (ld_row2 p c).trans (hp2 c)) r o

end Cert.KernelIdeal.Region

end
-- ==== Proof.KI.KernelValue.lean ====
/-
  The idealized kernel's whole result, index by index.

  Grid point t works on sample s(t), where s is the permutation that sorts the samples by clamped day: it stages
  block s(t) of x and of the output, and the blocks of the four parameter arrays at the clamped day of sample s(t).
  With every day word nonnegative the clamped day of a sample is the day the specification selects ('dayOf'), so what
  point t stores is block s(t) of ONE whole-array function, 'finalOut': the specification's output of every sample with
  its own day's parameters. A permutation is injective, so every point writes its block back (no two consecutive points
  share an output block), and it is surjective, so the 64 blocks cover the array: the array ends holding 'finalOut'.
-/
import proofs.«427686_j87058987089974_3_alg».proof.Proof.KI.FrameRun
import proofs.«427686_j87058987089974_3_alg».proof.Proof.KI.DayTables
import proofs.«427686_j87058987089974_3_alg».proof.Proof.KI.BlockReads
import proofs.«427686_j87058987089974_3_alg».proof.Proof.KI.PointValue
import proofs.«427686_j87058987089974_3_alg».proof.Proof.AdapterSpec
import Idealize.ShloMosaic.Lib.Pipeline.Value

noncomputable section

namespace Cert.KernelIdeal.Region

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The grid is one axis of 64 points: a point's coordinate is its number. -/
theorem coord_val : ∀ t : Fin grid0.N, (gp (grid0.coords t)).val = t.val := by decide +kernel

/-- The sample grid point `t` works on. -/
abbrev sampleOf (hO : Ok m) (t : Fin (cfgM m hO).N) : Fin 64 := sigma (days m) (gp (grid0.coords t))

/-- The whole result: at sample `i`, row `p`, column `o` the specification's output with the parameters of the
    sample's day. -/
def finalOut (c : Dev nD) : S64x512x512.Idx → EReal := fun j =>
  Cert.DayAdapter.outAt (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (j 0) (j 1) (j 2)

theorem finalOut_apply (c : Dev nD) (i : Fin 64) (p o : Fin 512) :
    finalOut m c (ix3 i p o) = Cert.DayAdapter.outAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) i p o := rfl

/-! ## The six block indices at a grid point -/

/-- The clamped day of the sample point `t` works on, as a day number. -/
def dayAt (hO : Ok m) (t : Fin (cfgM m hO).N) : Fin 24 :=
  ⟨(clampDays (days m) (ix1 (sampleOf m hO t))).toNat, Nat.lt_succ_of_le (clampDays_le (days m) (sampleOf m hO t))⟩

theorem x_index (hO : Ok m) (t : Fin (cfgM m hO).N) : ((cfgM m hO).win 0).index t = ![(sampleOf m hO t).val, 0, 0] :=
  (win_index0 (adm m hO) t).trans (index_perm m (grid0.coords t))
theorem out_index (hO : Ok m) (t : Fin (cfgM m hO).N) : ((cfgM m hO).win 5).index t = ![(sampleOf m hO t).val, 0, 0] :=
  (win_index5 (adm m hO) t).trans (index_perm5 m (grid0.coords t))
theorem w1_index (hO : Ok m) (t : Fin (cfgM m hO).N) : ((cfgM m hO).win 1).index t = ![(dayAt m hO t).val, 0, 0] :=
  (win_index1 (adm m hO) t).trans (index_day m (grid0.coords t))
theorem b1_index (hO : Ok m) (t : Fin (cfgM m hO).N) : ((cfgM m hO).win 2).index t = ![(dayAt m hO t).val, 0, 0] :=
  (win_index2 (adm m hO) t).trans (index_day2 m (grid0.coords t))
theorem w2_index (hO : Ok m) (t : Fin (cfgM m hO).N) : ((cfgM m hO).win 3).index t = ![(dayAt m hO t).val, 0, 0] :=
  (win_index3 (adm m hO) t).trans (index_day3 m (grid0.coords t))
theorem stack_index (hO : Ok m) (t : Fin (cfgM m hO).N) : ((cfgM m hO).win 4).index t = ![(dayAt m hO t).val, 0, 0] :=
  (win_index4 (adm m hO) t).trans (index_day4 m (grid0.coords t))

/-- With the sample's day word nonnegative, its clamped day is the day the specification selects. -/
theorem dayAt_eq (hO : Ok m) (hd : ∀ i : Fin 64, 0 ≤ ((days m) (ix1 i)).toInt) (t : Fin (cfgM m hO).N) :
    dayAt m hO t = Cert.DayAdapter.dayOf ((days m) (ix1 (sampleOf m hO t))) :=
  Fin.ext (clampDays_eq_dayOf (days m) (sampleOf m hO t) (hd _))

/-! ## What a point writes back is its block of the whole result -/

/-- Every index of a 1 x 512 x 512 block is (0, r, o). -/
theorem blockIdx_eq (y : S1x512x512.Idx) : y = ix3 (0 : Fin 1) (y 1) (y 2) := by
  funext ax
  match ax with
  | ⟨0, _⟩ => exact Fin.ext (by have h : (y (0 : Fin 3)).val < 1 := (y (0 : Fin 3)).isLt; show (y (0 : Fin 3)).val = 0; omega)
  | ⟨1, _⟩ => rfl
  | ⟨2, _⟩ => rfl

/-- An output block read out of a whole-array function, the tables' contents a variable: the block index on the
    leading axis, the block's own coordinates on the other two. -/
theorem read_out {F : FTy → Type} [FloatOps F] (a : (pcfg0 (F := F)).Adm) (t : Fin (cfg0 a).N) (A : S64x512x512.Idx → Elt F .f32)
    (y : S1x512x512.Idx) (n : Fin 64) (hix : ((cfg0 a).win 5).index t = ![n.val, 0, 0]) :
    (((cfg0 a).win 5).blk t).view.read (Elt F) A y = A (ix3 n (y 1) (y 2)) :=
  congrArg A (emb_win5 a t y n hix)

set_option maxHeartbeats 400000 in
/-- WHAT POINT `t` WRITES BACK is block `t` of the whole result: the stored value at (0, r, o) is the specification's
    output of sample s(t) at (r, o), because the x block is the sample's rows and the four parameter blocks are the
    parameters of its clamped day, which is the day the specification selects. -/
theorem flushed_out (hO : Ok m) (hd : ∀ i : Fin 64, 0 ≤ ((days m) (ix1 i)).toInt) (c : Dev nD) (t : Fin (cfgM m hO).N) :
    (dats m hO 0 c).flushed 5 t = (((cfgM m hO).win 5).blk t).view.read (Elt Ideal) (finalOut m c) := by
  obtain rfl : c = 0 := Subsingleton.elim _ _
  show ((cfgM m hO).win 5).cut (grid0.coords t) ((dats m hO 0 0).after 5 t) = _
  rw [after_out]
  refine funext fun (y : S1x512x512.Idx) => ?_
  have hy := blockIdx_eq y
  have hr : (((cfgM m hO).win 5).blk t).view.read (Elt Ideal) (finalOut m 0) y = finalOut m 0 (ix3 (sampleOf m hO t) (y 1) (y 2)) :=
    read_out (adm m hO) t (finalOut m 0) y (sampleOf m hO t) (out_index m hO t)
  refine Eq.trans ?_ hr.symm
  refine Eq.trans ?_ (finalOut_apply m 0 (sampleOf m hO t) (y 1) (y 2)).symm
  show stored m hO 0 t y = _
  rw [hy]
  unfold stored
  refine point_value (blockAt m hO 0 0 t) (blockAt m hO 0 1 t) (blockAt m hO 0 2 t) (blockAt m hO 0 3 t) (blockAt m hO 0 4 t)
    (m (((0 : Dev nD) : Thread nD τ).loc main_arg0)) (m (((0 : Dev nD) : Thread nD τ).loc main_arg1))
    (m (((0 : Dev nD) : Thread nD τ).loc main_arg2)) (m (((0 : Dev nD) : Thread nD τ).loc main_arg3))
    (m (((0 : Dev nD) : Thread nD τ).loc main_arg4)) (m (((0 : Dev nD) : Thread nD τ).loc main_arg5))
    (m (((0 : Dev nD) : Thread nD τ).loc main_arg6)) (m (((0 : Dev nD) : Thread nD τ).loc main_arg7))
    (sampleOf m hO t) (dayAt m hO t) (dayAt_eq m hO hd t) ?_ ?_ ?_ ?_ ?_ ?_ ?_ (y 1) (y 2)
  · intro r cc
    exact (read_win0 (adm m hO) t (entry m 0 main_arg0) (ix3 (0 : Fin 1) r cc) (sampleOf m hO t) (x_index m hO t)).trans
      (congrFun (entry_arg0 m 0) _)
  · intro j k
    exact (read_win1 (adm m hO) t (entry m 0 main_arg2) (ix3 (0 : Fin 1) j k) (dayAt m hO t) (w1_index m hO t)).trans
      (congrFun (entry_arg2 m 0) _)
  · intro k
    exact (read_win2 (adm m hO) t (entry m 0 main_v9) (ix3 (0 : Fin 1) (0 : Fin 1) k) (dayAt m hO t) (b1_index m hO t)).trans
      ((congrFun (entry_v9 m 0) _).trans (bias1View_apply _ (dayAt m hO t) k))
  · intro k cc
    exact (read_win3 (adm m hO) t (entry m 0 main_arg4) (ix3 (0 : Fin 1) k cc) (dayAt m hO t) (w2_index m hO t)).trans
      (congrFun (entry_arg4 m 0) _)
  · intro cc
    exact (read_win4 (adm m hO) t (entry m 0 main_v13) (ix3 (0 : Fin 1) (0 : Fin 3) cc) (dayAt m hO t) (stack_index m hO t)).trans
      ((congrFun (entry_v13 m 0) _).trans (paramStack_bias _ _ _ (dayAt m hO t) cc))
  · intro cc
    exact (read_win4 (adm m hO) t (entry m 0 main_v13) (ix3 (0 : Fin 1) (1 : Fin 3) cc) (dayAt m hO t) (stack_index m hO t)).trans
      ((congrFun (entry_v13 m 0) _).trans (paramStack_scale _ _ _ (dayAt m hO t) cc))
  · intro cc
    exact (read_win4 (adm m hO) t (entry m 0 main_v13) (ix3 (0 : Fin 1) (2 : Fin 3) cc) (dayAt m hO t) (stack_index m hO t)).trans
      ((congrFun (entry_v13 m 0) _).trans (paramStack_shift _ _ _ (dayAt m hO t) cc))

/-! ## Every point writes back, and the blocks cover the array -/

/-- Two points with the same output block are the same point: the permutation is injective. -/
theorem out_index_inj (hO : Ok m) (t t' : Fin (cfgM m hO).N)
    (h : ((cfgM m hO).win 5).index t = ((cfgM m hO).win 5).index t') : t = t' := by
  rw [out_index, out_index] at h
  have h0 : (sampleOf m hO t).val = (sampleOf m hO t').val := congrFun h (0 : Fin 3)
  have h1 : gp (grid0.coords t) = gp (grid0.coords t') := (sigma (days m)).injective (Fin.ext h0)
  exact Fin.ext ((coord_val t).symm.trans ((congrArg Fin.val h1).trans (coord_val t')))

/-- Every point writes its block back. -/
theorem out_flush (hO : Ok m) (t : Fin (cfgM m hO).N) : ((cfgM m hO).win 5).flush t = true :=
  flush_out (adm m hO) (out_index_inj m hO) t

/-- Every index of the output lies in some point's block: sample i is worked on by the point the permutation sends to i. -/
theorem out_cover (hO : Ok m) (i : S64x512x512.Idx) :
    ∃ t : Fin (cfgM m hO).N, ((cfgM m hO).win 5).flush t = true ∧ i ∈ (((cfgM m hO).win 5).blk t).view.set := by
  have hi0 : (i 0).val < 64 := (i 0).isLt
  have hi1 : (i 1).val < 512 := (i 1).isLt
  have hi2 : (i 2).val < 512 := (i 2).isLt
  obtain ⟨b, hb⟩ := (sigma (days m)).surjective ⟨(i 0).val, hi0⟩
  let t : Fin (cfgM m hO).N := ⟨b.val, b.isLt⟩
  have hgp : gp (grid0.coords t) = b := Fin.ext (coord_val t)
  have hs : (sampleOf m hO t).val = (i 0).val := by
    show (sigma (days m) (gp (grid0.coords t))).val = _
    rw [hgp, hb]
  refine ⟨t, out_flush m hO t, (mem_out_blk (adm m hO) t i).mpr ?_⟩
  have hix := out_index m hO t
  intro ax
  match ax with
  | ⟨0, _⟩ =>
    have h0 : ((cfgM m hO).win 5).index t (0 : Fin 3) = (sampleOf m hO t).val := congrFun hix (0 : Fin 3)
    show ((cfgM m hO).win 5).index t (0 : Fin 3) * 1 ≤ (i 0).val ∧ (i 0).val < ((cfgM m hO).win 5).index t (0 : Fin 3) * 1 + 1
    rw [h0, hs]; omega
  | ⟨1, _⟩ =>
    have h1 : ((cfgM m hO).win 5).index t (1 : Fin 3) = 0 := congrFun hix (1 : Fin 3)
    show ((cfgM m hO).win 5).index t (1 : Fin 3) * 512 ≤ (i 1).val ∧ (i 1).val < ((cfgM m hO).win 5).index t (1 : Fin 3) * 512 + 512
    rw [h1]; omega
  | ⟨2, _⟩ =>
    have h2 : ((cfgM m hO).win 5).index t (2 : Fin 3) = 0 := congrFun hix (2 : Fin 3)
    show ((cfgM m hO).win 5).index t (2 : Fin 3) * 512 ≤ (i 2).val ∧ (i 2).val < ((cfgM m hO).win 5).index t (2 : Fin 3) * 512 + 512
    rw [h2]; omega

/-- THE OUTPUT ARRAY after the run is the whole result. -/
theorem out_final (hO : Ok m) (hd : ∀ i : Fin 64, 0 ≤ ((days m) (ix1 i)).toInt) (c : Dev nD) :
    (dats m hO 0 c).arrAt 5 (cfgM m hO).N = finalOut m c :=
  (dats m hO 0 c).arrAt_eq_of_cover 5 (finalOut m c) (fun t _ => flushed_out m hO hd c t) (out_cover m hO)

/-! ## The run, read -/

/-- Every execution of the idealized kernel program terminates with the result array at the whole result and the eight
    argument arrays as launched. -/
theorem run (hd : ∀ i : Fin 64, 0 ≤ ((days m) (ix1 i)).toInt) :
    θ_run defs (onTc (τ := τ) (main (F := Ideal))) ⟨m, fun _ => 0, ρ⟩ (fun r => ∀ c : Dev nD,
      r.2.mem ((c.tc : Thread nD τ).loc main_v14) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 5).trans (out_final m (ok_tables m) hd c),
      ((h c).1 0).trans (((dats m (ok_tables m) 0 c).arrAt_in 0 (isIn0 (adm m (ok_tables m))) _).trans ((A_eq m (ok_tables m) c 0).trans (entry_arg0 m c))),
      ((h c).2 main_arg1 rest_arg1).trans (entry_arg1 m c),
      ((h c).1 1).trans (((dats m (ok_tables m) 0 c).arrAt_in 1 (isIn1 (adm m (ok_tables m))) _).trans ((A_eq m (ok_tables m) c 1).trans (entry_arg2 m c))),
      ((h c).2 main_arg3 rest_arg3).trans (entry_arg3 m c),
      ((h c).1 3).trans (((dats m (ok_tables m) 0 c).arrAt_in 3 (isIn3 (adm m (ok_tables m))) _).trans ((A_eq m (ok_tables m) c 3).trans (entry_arg4 m c))),
      ((h c).2 main_arg5 rest_arg5).trans (entry_arg5 m c),
      ((h c).2 main_arg6 rest_arg6).trans (entry_arg6 m c),
      ((h c).2 main_arg7 rest_arg7).trans (entry_arg7 m c)⟩)
    (run_main m ρ (ok_tables m))

end Cert.KernelIdeal.Region

end
-- ==== Proof.Ref.HostTerm.lean ====
/-
  The reference program's result as a function of its eight argument arrays.

  Each definition below is one stage of the computation, built from exactly the operations the program's statements
  apply, with the same shape records, the same side conditions and the same literal words:

    wrapped d      the day words, a negative one with 24 added
    idxCol d       those words as a 64 x 1 column of gather indices
    w1At, b1At, w2At, rowAt   each sample's day's slice of a parameter array (the gather clamps the day into 0 .. 23)
    pre            x . W1[d] + b1[d]
    hid            max pre 0
    lin            hid . W2[d] + b2[d]
    mean y         a row's sum over the last axis, divided by the word 512
    centred y      y less its row's mean
    var y          the row sum of the squared centred entries, divided by 512 - 0; kept when 512 - 0 > 0
    scale y        rsqrt (var y + eps)
    normed y       centred y * scale y
    result         normed lin * gamma[d] + beta[d]
-/
import proofs.«427686_j87058987089974_3_alg».proof.ReferenceIdeal

noncomputable section

namespace Cert.ReferenceIdeal.Hand

open Idealize.ShloMosaic Cert.ReferenceIdeal

variable {F : FTy → Type} [FloatOps F] [Facts]
open Facts₀ Facts

/-! ## The day's parameters -/

/-- The day words wrapped: where a word is negative (signed comparison with 0), the word plus 24; elsewhere the word. -/
def wrapped (d : IVec S64 32) : IVec S64 32 :=
  select (cmpi .slt d (broadcastInDim S64 ![] bcast_S_S64 (constantI S_ 32 0#32)))
    (addi d (broadcastInDim S64 ![] bcast_S_S64 (constantI S_ 32 24#32))) d

/-- The wrapped words as a 64 x 1 column: one gather index per sample. -/
def idxCol (d : IVec S64 32) : IVec S64x1 32 :=
  broadcastInDim S64x1 ![0] bcast_S64_S64x1_0 (wrapped d)

/-- Each sample's first-layer weight: the 512 x 1024 slice of W1 at the sample's index. -/
def w1At (W1 : FVec F S24x512x1024 .f32) (d : IVec S64 32) : FVec F S64x512x1024 .f32 :=
  Host.gather gather_S24x512x1024_S64x1_S64x512x1024_12_0_n_n_0_1_15121024 W1 (idxCol d)

/-- Each sample's first-layer bias: the row of b1 at the sample's index. -/
def b1At (B1 : FVec F S24x1024 .f32) (d : IVec S64 32) : FVec F S64x1024 .f32 :=
  Host.gather gather_S24x1024_S64x1_S64x1024_1_0_n_n_0_1_11024 B1 (idxCol d)

/-- Each sample's second-layer weight: the 1024 x 512 slice of W2 at the sample's index. -/
def w2At (W2 : FVec F S24x1024x512 .f32) (d : IVec S64 32) : FVec F S64x1024x512 .f32 :=
  Host.gather gather_S24x1024x512_S64x1_S64x1024x512_12_0_n_n_0_1_11024512 W2 (idxCol d)

/-- Each sample's row of a 24 x 512 parameter (second-layer bias, scale, shift) at the sample's index. -/
def rowAt (P : FVec F S24x512 .f32) (d : IVec S64 32) : FVec F S64x512 .f32 :=
  Host.gather gather_S24x512_S64x1_S64x512_1_0_n_n_0_1_1512 P (idxCol d)

/-- The first-layer bias with a unit row axis inserted. -/
def b1Row (B1 : FVec F S24x1024 .f32) (d : IVec S64 32) : FVec F S64x1x1024 .f32 :=
  broadcastInDim S64x1x1024 ![0, 2] bcast_S64x1024_S64x1x1024_0_2 (b1At B1 d)

/-- A gathered 24 x 512 parameter with a unit row axis inserted. -/
def rowRow (P : FVec F S24x512 .f32) (d : IVec S64 32) : FVec F S64x1x512 .f32 :=
  broadcastInDim S64x1x512 ![0, 2] bcast_S64x512_S64x1x512_0_2 (rowAt P d)

/-- A 64 x 1 x 512 array repeated along the row axis. -/
def spreadRow (r : FVec F S64x1x512 .f32) : FVec F S64x512x512 .f32 :=
  broadcastInDim S64x512x512 ![0, 1, 2] bcast_S64x1x512_S64x512x512_0_1_2 r

/-! ## The two layers -/

/-- The first layer before the cut: per sample x . W1[d], plus the bias repeated along the rows. -/
def pre (x : FVec F S64x512x512 .f32) (d : IVec S64 32) (W1 : FVec F S24x512x1024 .f32) (B1 : FVec F S24x1024 .f32) :
    FVec F S64x512x1024 .f32 :=
  addf (Host.dotGeneral dot_S64x512x512_S64x512x1024_S64x512x1024_2_1_1_2_0_0 none x (w1At W1 d))
    (broadcastInDim S64x512x1024 ![0, 1, 2] bcast_S64x1x1024_S64x512x1024_0_1_2 (b1Row B1 d))

/-- The cut at zero: the maximum with the zero word repeated. -/
def relu (h : FVec F S64x512x1024 .f32) : FVec F S64x512x1024 .f32 :=
  maximumf h (broadcastInDim S64x512x1024 ![] bcast_S_S64x512x1024 (constant S_ .f32 0x00000000#32))

/-- The hidden layer. -/
def hid (x : FVec F S64x512x512 .f32) (d : IVec S64 32) (W1 : FVec F S24x512x1024 .f32) (B1 : FVec F S24x1024 .f32) :
    FVec F S64x512x1024 .f32 :=
  relu (pre x d W1 B1)

/-- The second layer: per sample hid . W2[d], plus the bias repeated along the rows. -/
def lin (x : FVec F S64x512x512 .f32) (d : IVec S64 32) (W1 : FVec F S24x512x1024 .f32) (B1 : FVec F S24x1024 .f32)
    (W2 : FVec F S24x1024x512 .f32) (B2 : FVec F S24x512 .f32) : FVec F S64x512x512 .f32 :=
  addf (Host.dotGeneral dot_S64x512x1024_S64x1024x512_S64x512x512_2_1_1_2_0_0 none (hid x d W1 B1) (w2At W2 d))
    (spreadRow (rowRow B2 d))

/-! ## The normalization over the last axis -/

/-- The sum over the last axis, from the zero word. -/
def rowSum (y : FVec F S64x512x512 .f32) : FVec F S64x512 .f32 :=
  Host.reduceAdd y (constant S_ .f32 0x00000000#32) reducesTo_S64x512x512_S64x512_d2 h_S_

/-- A 64 x 512 array with a unit last axis appended. -/
def asCol (s : FVec F S64x512 .f32) : FVec F S64x512x1 .f32 :=
  broadcastInDim S64x512x1 ![0, 1] bcast_S64x512_S64x512x1_0_1 s

/-- A scalar repeated over 64 x 512 x 1. -/
def splat (c : FVec F S_ .f32) : FVec F S64x512x1 .f32 :=
  broadcastInDim S64x512x1 ![] bcast_S_S64x512x1 c

/-- A 64 x 512 x 1 array repeated along the last axis. -/
def spread (m : FVec F S64x512x1 .f32) : FVec F S64x512x512 .f32 :=
  broadcastInDim S64x512x512 ![0, 1, 2] bcast_S64x512x1_S64x512x512_0_1_2 m

/-- The row means: the row sums divided by the word 512. -/
def mean (y : FVec F S64x512x512 .f32) : FVec F S64x512x1 .f32 :=
  Host.divf (asCol (rowSum y)) (splat (constant S_ .f32 0x44000000#32))

/-- The entries less their row's mean. -/
def centred (y : FVec F S64x512x512 .f32) : FVec F S64x512x512 .f32 :=
  subf y (spread (mean y))

/-- The variance's divisor: the word 512 less the integer 0 converted. -/
def divisor : FVec F S_ .f32 :=
  subf (constant S_ .f32 0x44000000#32) (sitofp .f32 (constantI S_ 32 0#32))

/-- The row variances: the row sums of the squared centred entries divided by the divisor, where the divisor is
    greater than zero; elsewhere the word 0x7FC00000. -/
def var (y : FVec F S64x512x512 .f32) : FVec F S64x512x1 .f32 :=
  select (broadcastInDim S64x512x1 ![] bcast_S_S64x512x1 (cmpf .ogt (divisor (F := F)) (constant S_ .f32 0x00000000#32)))
    (Host.divf (asCol (rowSum (mulf (centred y) (centred y)))) (splat divisor))
    (splat (id (constant S_ .f32 0x7FC00000#32)))

/-- The reciprocal square root of the variance plus the word 0x3727C5AC. -/
def scale (y : FVec F S64x512x512 .f32) : FVec F S64x512x1 .f32 :=
  Host.rsqrt (addf (var y) (splat (constant S_ .f32 0x3727C5AC#32)))

/-- The centred entries times their row's scale. -/
def normed (y : FVec F S64x512x512 .f32) : FVec F S64x512x512 .f32 :=
  mulf (centred y) (spread (scale y))

/-! ## The result -/

/-- The program's result: the normalized second layer times the day's scale, plus the day's shift. -/
def result (x : FVec F S64x512x512 .f32) (d : IVec S64 32) (W1 : FVec F S24x512x1024 .f32) (B1 : FVec F S24x1024 .f32)
    (W2 : FVec F S24x1024x512 .f32) (B2 Gm Bt : FVec F S24x512 .f32) : FVec F S64x512x512 .f32 :=
  addf (mulf (normed (lin x d W1 B1 W2 B2)) (spreadRow (rowRow Gm d))) (spreadRow (rowRow Bt d))

end Cert.ReferenceIdeal.Hand

end
-- ==== Proof.Ref.HostRun.lean ====
/-
  The reference program's run.

  The program is a straight line of 109 array operations: its own 86 statements, with the three outlined functions
  (the cut at zero, the variance, and the variance's guarded choice) written out at their call sites over each call's own
  buffers. `ops` lists them in order; `main_eq` says the program is that line; `run` says that every fair execution
  ends with the result buffer at `result` of the eight argument arrays and with the arguments as they were.
-/
import proofs.«427686_j87058987089974_3_alg».proof.Proof.Ref.HostTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The program's operations, in order. Six times the same eight build the column of gather indices from the day words
    (zero, its repeat, the sign test, 24, its repeat, the sum, the choice, the column), each followed by its gather. -/
abbrev ops : List (HloOp τ sig (Elt F)) :=
  [ -- the first weight's slices
    nullary main_c (constantI S_ 32 0#32),
    unary main_c main_v0 (broadcastInDim S64 ![] bcast_S_S64),
    binary main_arg1 main_v0 main_v1 (cmpi .slt),
    nullary main_c_0 (constantI S_ 32 24#32),
    unary main_c_0 main_v2 (broadcastInDim S64 ![] bcast_S_S64),
    binary main_arg1 main_v2 main_v3 addi,
    ternary main_v1 main_v3 main_arg1 main_v4 select,
    unary main_v4 main_v5 (broadcastInDim S64x1 ![0] bcast_S64_S64x1_0),
    binary main_arg2 main_v5 main_v6 (fun x i => Host.gather gather_S24x512x1024_S64x1_S64x512x1024_12_0_n_n_0_1_15121024 x i),
    -- the first bias's rows, with a unit row axis
    nullary main_c_1 (constantI S_ 32 0#32),
    unary main_c_1 main_v7 (broadcastInDim S64 ![] bcast_S_S64),
    binary main_arg1 main_v7 main_v8 (cmpi .slt),
    nullary main_c_2 (constantI S_ 32 24#32),
    unary main_c_2 main_v9 (broadcastInDim S64 ![] bcast_S_S64),
    binary main_arg1 main_v9 main_v10 addi,
    ternary main_v8 main_v10 main_arg1 main_v11 select,
    unary main_v11 main_v12 (broadcastInDim S64x1 ![0] bcast_S64_S64x1_0),
    binary main_arg3 main_v12 main_v13 (fun x i => Host.gather gather_S24x1024_S64x1_S64x1024_1_0_n_n_0_1_11024 x i),
    unary main_v13 main_v14 (broadcastInDim S64x1x1024 ![0, 2] bcast_S64x1024_S64x1x1024_0_2),
    -- the second weight's slices
    nullary main_c_3 (constantI S_ 32 0#32),
    unary main_c_3 main_v15 (broadcastInDim S64 ![] bcast_S_S64),
    binary main_arg1 main_v15 main_v16 (cmpi .slt),
    nullary main_c_4 (constantI S_ 32 24#32),
    unary main_c_4 main_v17 (broadcastInDim S64 ![] bcast_S_S64),
    binary main_arg1 main_v17 main_v18 addi,
    ternary main_v16 main_v18 main_arg1 main_v19 select,
    unary main_v19 main_v20 (broadcastInDim S64x1 ![0] bcast_S64_S64x1_0),
    binary main_arg4 main_v20 main_v21 (fun x i => Host.gather gather_S24x1024x512_S64x1_S64x1024x512_12_0_n_n_0_1_11024512 x i),
    -- the second bias's rows, with a unit row axis
    nullary main_c_5 (constantI S_ 32 0#32),
    unary main_c_5 main_v22 (broadcastInDim S64 ![] bcast_S_S64),
    binary main_arg1 main_v22 main_v23 (cmpi .slt),
    nullary main_c_6 (constantI S_ 32 24#32),
    unary main_c_6 main_v24 (broadcastInDim S64 ![] bcast_S_S64),
    binary main_arg1 main_v24 main_v25 addi,
    ternary main_v23 main_v25 main_arg1 main_v26 select,
    unary main_v26 main_v27 (broadcastInDim S64x1 ![0] bcast_S64_S64x1_0),
    binary main_arg5 main_v27 main_v28 (fun x i => Host.gather gather_S24x512_S64x1_S64x512_1_0_n_n_0_1_1512 x i),
    unary main_v28 main_v29 (broadcastInDim S64x1x512 ![0, 2] bcast_S64x512_S64x1x512_0_2),
    -- the first layer: the product, the bias repeated along the rows, the sum
    binary main_arg0 main_v6 main_v30 (fun l r => Host.dotGeneral dot_S64x512x512_S64x512x1024_S64x512x1024_2_1_1_2_0_0 none l r),
    unary main_v14 main_v31 (broadcastInDim S64x512x1024 ![0, 1, 2] bcast_S64x1x1024_S64x512x1024_0_1_2),
    binary main_v30 main_v31 main_v32 addf,
    -- the cut at zero, in its call's buffers: the zero word, its repeat, the maximum
    TRef.nullary main_call0.cst (constant S_ .f32 0x00000000#32),
    TRef.unary main_call0.cst main_call0.v0 (broadcastInDim S64x512x1024 ![] bcast_S_S64x512x1024),
    TRef.binary (.of main_v32 : TRef sig ⟨S64x512x1024, .f32⟩) main_call0.v0 main_call0.v1 maximumf,
    -- the second layer
    binary main_v33 main_v21 main_v34 (fun l r => Host.dotGeneral dot_S64x512x1024_S64x1024x512_S64x512x512_2_1_1_2_0_0 none l r),
    unary main_v29 main_v35 (broadcastInDim S64x512x512 ![0, 1, 2] bcast_S64x1x512_S64x512x512_0_1_2),
    binary main_v34 main_v35 main_v36 addf,
    -- the row means
    nullary main_cst (constant S_ .f32 0x00000000#32),
    binary main_v36 main_cst main_v37 (fun x v => Host.reduceAdd x v reducesTo_S64x512x512_S64x512_d2 h_S_),
    unary main_v37 main_v38 (broadcastInDim S64x512x1 ![0, 1] bcast_S64x512_S64x512x1_0_1),
    nullary main_cst_7 (constant S_ .f32 0x44000000#32),
    unary main_cst_7 main_v39 (broadcastInDim S64x512x1 ![] bcast_S_S64x512x1),
    binary main_v38 main_v39 main_v40 Host.divf,
    nullary main_c_8 (constantI S_ 32 0#32),
    -- the variance, in its call's buffers: the means again, the centred entries, their squares, the divisor 512 - 0,
    -- the squares' row sums over the divisor, the test that the divisor is positive
    TRef.nullary main_call1.cst (constant S_ .f32 0x00000000#32),
    TRef.binary (.of main_v36 : TRef sig ⟨S64x512x512, .f32⟩) main_call1.cst main_call1.v0 (fun x v => Host.reduceAdd x v reducesTo_S64x512x512_S64x512_d2 h_S_),
    TRef.unary main_call1.v0 main_call1.v1 (broadcastInDim S64x512x1 ![0, 1] bcast_S64x512_S64x512x1_0_1),
    TRef.nullary main_call1.cst_0 (constant S_ .f32 0x44000000#32),
    TRef.unary main_call1.cst_0 main_call1.v2 (broadcastInDim S64x512x1 ![] bcast_S_S64x512x1),
    TRef.binary main_call1.v1 main_call1.v2 main_call1.v3 Host.divf,
    TRef.unary main_call1.v3 main_call1.v4 (broadcastInDim S64x512x512 ![0, 1, 2] bcast_S64x512x1_S64x512x512_0_1_2),
    TRef.binary (.of main_v36 : TRef sig ⟨S64x512x512, .f32⟩) main_call1.v4 main_call1.v5 subf,
    TRef.binary main_call1.v5 main_call1.v5 main_call1.v6 mulf,
    TRef.unary (.of main_c_8 : TRef sig ⟨S_, .i32⟩) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S64x512x512_S64x512_d2 h_S_),
    TRef.unary main_call1.v9 main_call1.v10 (broadcastInDim S64x512x1 ![0, 1] bcast_S64x512_S64x512x1_0_1),
    TRef.unary main_call1.v8 main_call1.v11 (broadcastInDim S64x512x1 ![] bcast_S_S64x512x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    -- the guarded choice, in its call's buffers: the other word kept as it is, repeated, the choice by the repeated test
    TRef.unary main_call1.cst_4 main_call1.call0.v0 id,
    TRef.unary main_call1.call0.v0 main_call1.call0.v1 (broadcastInDim S64x512x1 ![] bcast_S_S64x512x1),
    TRef.ternary main_call1.v13 main_call1.v12 main_call1.call0.v1 main_call1.call0.v2
      (fun p a b => select (broadcastInDim S64x512x1 ![] bcast_S_S64x512x1 p) a b),
    -- the centred entries and their scale
    unary main_v40 main_v42 (broadcastInDim S64x512x512 ![0, 1, 2] bcast_S64x512x1_S64x512x512_0_1_2),
    binary main_v36 main_v42 main_v43 subf,
    nullary main_cst_9 (constant S_ .f32 0x3727C5AC#32),
    unary main_cst_9 main_v44 (broadcastInDim S64x512x1 ![] bcast_S_S64x512x1),
    binary main_v41 main_v44 main_v45 addf,
    unary main_v45 main_v46 Host.rsqrt,
    unary main_v46 main_v47 (broadcastInDim S64x512x512 ![0, 1, 2] bcast_S64x512x1_S64x512x512_0_1_2),
    binary main_v43 main_v47 main_v48 mulf,
    -- the scale's rows, with a unit row axis
    nullary main_c_10 (constantI S_ 32 0#32),
    unary main_c_10 main_v49 (broadcastInDim S64 ![] bcast_S_S64),
    binary main_arg1 main_v49 main_v50 (cmpi .slt),
    nullary main_c_11 (constantI S_ 32 24#32),
    unary main_c_11 main_v51 (broadcastInDim S64 ![] bcast_S_S64),
    binary main_arg1 main_v51 main_v52 addi,
    ternary main_v50 main_v52 main_arg1 main_v53 select,
    unary main_v53 main_v54 (broadcastInDim S64x1 ![0] bcast_S64_S64x1_0),
    binary main_arg6 main_v54 main_v55 (fun x i => Host.gather gather_S24x512_S64x1_S64x512_1_0_n_n_0_1_1512 x i),
    unary main_v55 main_v56 (broadcastInDim S64x1x512 ![0, 2] bcast_S64x512_S64x1x512_0_2),
    -- the shift's rows, with a unit row axis
    nullary main_c_12 (constantI S_ 32 0#32),
    unary main_c_12 main_v57 (broadcastInDim S64 ![] bcast_S_S64),
    binary main_arg1 main_v57 main_v58 (cmpi .slt),
    nullary main_c_13 (constantI S_ 32 24#32),
    unary main_c_13 main_v59 (broadcastInDim S64 ![] bcast_S_S64),
    binary main_arg1 main_v59 main_v60 addi,
    ternary main_v58 main_v60 main_arg1 main_v61 select,
    unary main_v61 main_v62 (broadcastInDim S64x1 ![0] bcast_S64_S64x1_0),
    binary main_arg7 main_v62 main_v63 (fun x i => Host.gather gather_S24x512_S64x1_S64x512_1_0_n_n_0_1_1512 x i),
    unary main_v63 main_v64 (broadcastInDim S64x1x512 ![0, 2] bcast_S64x512_S64x1x512_0_2),
    -- the scale and the shift applied
    unary main_v56 main_v65 (broadcastInDim S64x512x512 ![0, 1, 2] bcast_S64x1x512_S64x512x512_0_1_2),
    binary main_v48 main_v65 main_v66 mulf,
    unary main_v64 main_v67 (broadcastInDim S64x512x512 ![0, 1, 2] bcast_S64x1x512_S64x512x512_0_1_2),
    binary main_v66 main_v67 main_v68 addf ]

/-! ## The program is that line -/

set_option maxRecDepth 8192 in
set_option maxHeartbeats 4000000 in
/-- The program's second window is the line's last 25 operations: both sides are the same chain of steps. -/
theorem part1_eq (c : Dev nD) : main_part1 (F := F) c = seq (ops.drop 84) := rfl

set_option maxRecDepth 8192 in
set_option maxHeartbeats 4000000 in
/-- The program's first window is the line's first 84 operations: the three functions' bodies stand at their calls, over
    the calls' buffers, and sequencing grafts what follows onto each body's end. -/
theorem part0_eq (c : Dev nD) : main_part0 (F := F) c = seq (ops.take 84) := rfl

/-- The program is the whole line: a line cut in two runs as its first part and then its second. -/
theorem main_eq (c : Dev nD) : main (F := F) c = seq ops := by
  have h : (ops (F := F)) = ops.take 84 ++ ops.drop 84 := (List.take_append_drop 84 ops).symm
  rw [h, seq_append, ← part0_eq c, ← part1_eq c]
  rfl

/-! ## The line's side conditions -/

/-- No buffer of the program is scoped. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation touches buffers of the program only. -/
theorem ops_sub : (ops : List (HloOp τ sig (Elt F))).Forall fun op => op.bufs ⊆ tcRefs τ sig := by
  simp only [List.Forall, nullary_bufs_sub, unary_bufs_sub, binary_bufs_sub, ternary_bufs_sub, and_self]

/-! ## What the buffers hold after the line

No operation writes an argument, so each argument keeps its contents. The result buffer holds the last sum; reading each
operand back through the operation that wrote it, down to the arguments, gives the stages of `result` one inside the
other: the six index columns are the same function of the day words, the program's means and the variance's inner means
are the same function of the second layer, and a value passed through a call's typed buffer is the value itself. -/

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp
theorem arg5_eq (V : Valuation τ sig (Elt F)) :
    after ops V (main_arg5 : DevRef τ sig) = V (main_arg5 : DevRef τ sig) := by
  after_results_simp
theorem arg6_eq (V : Valuation τ sig (Elt F)) :
    after ops V (main_arg6 : DevRef τ sig) = V (main_arg6 : DevRef τ sig) := by
  after_results_simp
theorem arg7_eq (V : Valuation τ sig (Elt F)) :
    after ops V (main_arg7 : DevRef τ sig) = V (main_arg7 : DevRef τ sig) := by
  after_results_simp

set_option maxRecDepth 8192 in
set_option maxHeartbeats 4000000 in
theorem out_eq (V : Valuation τ sig (Elt F)) :
    after ops V (main_v68 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

/-! ## The run -/

/-- On every device, for any float values, from any memory with zero counters: every weakly fair execution of the
    program terminates with the result buffer at `result` of the eight arguments' contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v68)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v68).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.Hand

end
-- ==== Proof.Ref.HostValue.lean ====
/-
  The reference's result read at an index is the specification's output.

  The reference gathers, for every sample, the parameters of the sample's day: the day word has 24 added where it is
  negative (never, under the hypothesis that every day word is at least 0), and the gather reads the parameter array
  at that word taken as a signed integer and clamped into 0 .. 23. It then forms, per sample,

    h = max (x . W1[d] + b1[d]) 0,   y = h . W2[d] + b2[d],

  and normalizes y over the last axis: the row mean is the row sum over the word 512; the variance is the row sum of
  the squared centred entries over (512 - 0), kept because 512 - 0 > 0; the result is
  centred * rsqrt (variance + eps) * gamma[d] + beta[d].

  Here each kind of operation is read at an index over the extended reals: the index word, the four gathers (each
  operand axis computed on its own), the broadcasts, the two batched products as finite sums over the contracted axis,
  the sum over the last axis from the zero word, and the literal words (512, the zero word, the guard 512 - 0 > 0).
  The stages of the reference's term are then read from the inside out, and the last theorem joins the result at
  (i, p, o) to the specification's output of sample i with the parameters of its day.
-/
import proofs.«427686_j87058987089974_3_alg».proof.Proof.Ref.HostTerm
import proofs.«427686_j87058987089974_3_alg».proof.Proof.AdapterSpec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.Hand

open Idealize.ShloMosaic Idealize.ShloMosaic.ValueIdx Cert.ReferenceIdeal

variable [Facts]
open Facts₀ Facts

local notation "gW1" => gather_S24x512x1024_S64x1_S64x512x1024_12_0_n_n_0_1_15121024
local notation "gW2" => gather_S24x1024x512_S64x1_S64x1024x512_12_0_n_n_0_1_11024512
local notation "gB1" => gather_S24x1024_S64x1_S64x1024_1_0_n_n_0_1_11024
local notation "gRow" => gather_S24x512_S64x1_S64x512_1_0_n_n_0_1_1512
local notation "dotA" => dot_S64x512x512_S64x512x1024_S64x512x1024_2_1_1_2_0_0
local notation "dotB" => dot_S64x512x1024_S64x1024x512_S64x512x512_2_1_1_2_0_0

/-! ## The index word -/

/-- A day word that is not negative is left as it is by "add 24 where negative". -/
theorem wrap_word (w : BitVec 32) (hw : 0 ≤ w.toInt) :
    Scalar.select (IntOp.cmpi .slt w 0#32) (IntOp.addi w 24#32) w = w := by
  have h : w.slt 0#32 = false := by
    rw [BitVec.slt]
    simp only [BitVec.toInt_zero, decide_eq_false_iff_not, not_lt]
    exact hw
  simp only [IntOp.cmpi, h, BitVec.ofBool_false]
  exact select_zero _ _

/-- The wrapped day words at sample i, when the word there is not negative: the word itself. -/
theorem wrapped_apply (d : IVec S64 32) (i : Fin 64) (hd : 0 ≤ (d (ix1 i)).toInt) :
    wrapped d (ix1 i) = d (ix1 i) :=
  wrap_word (d (ix1 i)) hd

/-- The index column at (i, 0) is the wrapped word of sample i. -/
theorem idxCol_apply (d : IVec S64 32) (i : Fin 64) (hd : 0 ≤ (d (ix1 i)).toInt) :
    idxCol d (ix2 i (0 : Fin 1)) = d (ix1 i) := by
  unfold idxCol
  rw [broadcastInDim_apply _ _ _ _ (ix1 i) (fun a => by match a with | ⟨0, _⟩ => rfl)]
  exact wrapped_apply d i hd

/-! ## The gathers: each reads the operand at the day the index word selects (signed, clamped into 0 .. 23) -/

theorem gW1_axis0 (idx : IVec S64x1 32) (i : Fin 64) (j : Fin 512) (k : Fin 1024) :
    (gW1).start (ix3 i j k) idx 0 + (gW1).batchCoord (ix3 i j k) 0 + (gW1).offCoord (ix3 i j k) 0
      = min (idx (ix2 i 0)).toInt.toNat 23 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (gW1).startIndexMap from List.mem_singleton.mpr rfl)]
  have hsi : (gW1).siIdx (ix3 i j k)
      ⟨List.idxOf (0 : Fin 3) (gW1).startIndexMap, List.idxOf_lt_length_iff.2 (List.mem_singleton.mpr rfl)⟩ = ix2 i 0 := by
    funext b; refine Fin.ext ?_
    match b with
    | ⟨0, _⟩ => rfl
    | ⟨1, _⟩ => rfl
  rw [hsi]
  rfl

theorem gW1_axis1 (idx : IVec S64x1 32) (y : S64x512x1024.Idx) :
    (gW1).start y idx 1 + (gW1).batchCoord y 1 + (gW1).offCoord y 1 = (y 1).val := by
  rw [GatherDims.batchCoord_eq_zero _ _ _ List.not_mem_nil]
  have hs : (gW1).start y idx 1 = 0 := by
    unfold GatherDims.start
    rw [dif_neg (show ¬ (1 : Fin 3) ∈ (gW1).startIndexMap from (by decide : ¬ (1 : Fin 3) ∈ ([0] : List (Fin 3))))]
  have ho : (gW1).offCoord y 1 = (y 1).val := by
    unfold GatherDims.offCoord
    rw [dif_pos (show (1 : Fin 3) ∈ (gW1).sKept from (by decide : (1 : Fin 3) ∈ ([1, 2] : List (Fin 3))))]
    rfl
  rw [hs, ho]; omega

theorem gW1_axis2 (idx : IVec S64x1 32) (y : S64x512x1024.Idx) :
    (gW1).start y idx 2 + (gW1).batchCoord y 2 + (gW1).offCoord y 2 = (y 2).val := by
  rw [GatherDims.batchCoord_eq_zero _ _ _ List.not_mem_nil]
  have hs : (gW1).start y idx 2 = 0 := by
    unfold GatherDims.start
    rw [dif_neg (show ¬ (2 : Fin 3) ∈ (gW1).startIndexMap from (by decide : ¬ (2 : Fin 3) ∈ ([0] : List (Fin 3))))]
  have ho : (gW1).offCoord y 2 = (y 2).val := by
    unfold GatherDims.offCoord
    rw [dif_pos (show (2 : Fin 3) ∈ (gW1).sKept from (by decide : (2 : Fin 3) ∈ ([1, 2] : List (Fin 3))))]
    rfl
  rw [hs, ho]; omega

/-- The first weight gathered, at (i, j, k). -/
theorem gatherW1_apply {α : Type} (W : S24x512x1024.Idx → α) (idx : IVec S64x1 32) (i : Fin 64) (j : Fin 512) (k : Fin 1024) :
    Host.gather gW1 W idx (ix3 i j k) = W (ix3 (Cert.DayAdapter.dayOf (idx (ix2 i 0))) j k) := by
  unfold Host.gather
  congr 1
  funext a
  refine Fin.ext ?_
  match a with
  | ⟨0, _⟩ => exact gW1_axis0 idx i j k
  | ⟨1, _⟩ => exact gW1_axis1 idx (ix3 i j k)
  | ⟨2, _⟩ => exact gW1_axis2 idx (ix3 i j k)

theorem gW2_axis0 (idx : IVec S64x1 32) (i : Fin 64) (j : Fin 1024) (k : Fin 512) :
    (gW2).start (ix3 i j k) idx 0 + (gW2).batchCoord (ix3 i j k) 0 + (gW2).offCoord (ix3 i j k) 0
      = min (idx (ix2 i 0)).toInt.toNat 23 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (gW2).startIndexMap from List.mem_singleton.mpr rfl)]
  have hsi : (gW2).siIdx (ix3 i j k)
      ⟨List.idxOf (0 : Fin 3) (gW2).startIndexMap, List.idxOf_lt_length_iff.2 (List.mem_singleton.mpr rfl)⟩ = ix2 i 0 := by
    funext b; refine Fin.ext ?_
    match b with
    | ⟨0, _⟩ => rfl
    | ⟨1, _⟩ => rfl
  rw [hsi]
  rfl

theorem gW2_axis1 (idx : IVec S64x1 32) (y : S64x1024x512.Idx) :
    (gW2).start y idx 1 + (gW2).batchCoord y 1 + (gW2).offCoord y 1 = (y 1).val := by
  rw [GatherDims.batchCoord_eq_zero _ _ _ List.not_mem_nil]
  have hs : (gW2).start y idx 1 = 0 := by
    unfold GatherDims.start
    rw [dif_neg (show ¬ (1 : Fin 3) ∈ (gW2).startIndexMap from (by decide : ¬ (1 : Fin 3) ∈ ([0] : List (Fin 3))))]
  have ho : (gW2).offCoord y 1 = (y 1).val := by
    unfold GatherDims.offCoord
    rw [dif_pos (show (1 : Fin 3) ∈ (gW2).sKept from (by decide : (1 : Fin 3) ∈ ([1, 2] : List (Fin 3))))]
    rfl
  rw [hs, ho]; omega

theorem gW2_axis2 (idx : IVec S64x1 32) (y : S64x1024x512.Idx) :
    (gW2).start y idx 2 + (gW2).batchCoord y 2 + (gW2).offCoord y 2 = (y 2).val := by
  rw [GatherDims.batchCoord_eq_zero _ _ _ List.not_mem_nil]
  have hs : (gW2).start y idx 2 = 0 := by
    unfold GatherDims.start
    rw [dif_neg (show ¬ (2 : Fin 3) ∈ (gW2).startIndexMap from (by decide : ¬ (2 : Fin 3) ∈ ([0] : List (Fin 3))))]
  have ho : (gW2).offCoord y 2 = (y 2).val := by
    unfold GatherDims.offCoord
    rw [dif_pos (show (2 : Fin 3) ∈ (gW2).sKept from (by decide : (2 : Fin 3) ∈ ([1, 2] : List (Fin 3))))]
    rfl
  rw [hs, ho]; omega

/-- The second weight gathered, at (i, j, k). -/
theorem gatherW2_apply {α : Type} (W : S24x1024x512.Idx → α) (idx : IVec S64x1 32) (i : Fin 64) (j : Fin 1024) (k : Fin 512) :
    Host.gather gW2 W idx (ix3 i j k) = W (ix3 (Cert.DayAdapter.dayOf (idx (ix2 i 0))) j k) := by
  unfold Host.gather
  congr 1
  funext a
  refine Fin.ext ?_
  match a with
  | ⟨0, _⟩ => exact gW2_axis0 idx i j k
  | ⟨1, _⟩ => exact gW2_axis1 idx (ix3 i j k)
  | ⟨2, _⟩ => exact gW2_axis2 idx (ix3 i j k)

theorem gB1_axis0 (idx : IVec S64x1 32) (i : Fin 64) (k : Fin 1024) :
    (gB1).start (ix2 i k) idx 0 + (gB1).batchCoord (ix2 i k) 0 + (gB1).offCoord (ix2 i k) 0
      = min (idx (ix2 i 0)).toInt.toNat 23 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gB1).startIndexMap from List.mem_singleton.mpr rfl)]
  have hsi : (gB1).siIdx (ix2 i k)
      ⟨List.idxOf (0 : Fin 2) (gB1).startIndexMap, List.idxOf_lt_length_iff.2 (List.mem_singleton.mpr rfl)⟩ = ix2 i 0 := by
    funext b; refine Fin.ext ?_
    match b with
    | ⟨0, _⟩ => rfl
    | ⟨1, _⟩ => rfl
  rw [hsi]
  rfl

theorem gB1_axis1 (idx : IVec S64x1 32) (y : S64x1024.Idx) :
    (gB1).start y idx 1 + (gB1).batchCoord y 1 + (gB1).offCoord y 1 = (y 1).val := by
  rw [GatherDims.batchCoord_eq_zero _ _ _ List.not_mem_nil]
  have hs : (gB1).start y idx 1 = 0 := by
    unfold GatherDims.start
    rw [dif_neg (show ¬ (1 : Fin 2) ∈ (gB1).startIndexMap from (by decide : ¬ (1 : Fin 2) ∈ ([0] : List (Fin 2))))]
  have ho : (gB1).offCoord y 1 = (y 1).val := by
    unfold GatherDims.offCoord
    rw [dif_pos (show (1 : Fin 2) ∈ (gB1).sKept from (by decide : (1 : Fin 2) ∈ ([1] : List (Fin 2))))]
    rfl
  rw [hs, ho]; omega

/-- The first bias gathered, at (i, k). -/
theorem gatherB1_apply {α : Type} (B : S24x1024.Idx → α) (idx : IVec S64x1 32) (i : Fin 64) (k : Fin 1024) :
    Host.gather gB1 B idx (ix2 i k) = B (ix2 (Cert.DayAdapter.dayOf (idx (ix2 i 0))) k) := by
  unfold Host.gather
  congr 1
  funext a
  refine Fin.ext ?_
  match a with
  | ⟨0, _⟩ => exact gB1_axis0 idx i k
  | ⟨1, _⟩ => exact gB1_axis1 idx (ix2 i k)

theorem gRow_axis0 (idx : IVec S64x1 32) (i : Fin 64) (o : Fin 512) :
    (gRow).start (ix2 i o) idx 0 + (gRow).batchCoord (ix2 i o) 0 + (gRow).offCoord (ix2 i o) 0
      = min (idx (ix2 i 0)).toInt.toNat 23 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gRow).startIndexMap from List.mem_singleton.mpr rfl)]
  have hsi : (gRow).siIdx (ix2 i o)
      ⟨List.idxOf (0 : Fin 2) (gRow).startIndexMap, List.idxOf_lt_length_iff.2 (List.mem_singleton.mpr rfl)⟩ = ix2 i 0 := by
    funext b; refine Fin.ext ?_
    match b with
    | ⟨0, _⟩ => rfl
    | ⟨1, _⟩ => rfl
  rw [hsi]
  rfl

theorem gRow_axis1 (idx : IVec S64x1 32) (y : S64x512.Idx) :
    (gRow).start y idx 1 + (gRow).batchCoord y 1 + (gRow).offCoord y 1 = (y 1).val := by
  rw [GatherDims.batchCoord_eq_zero _ _ _ List.not_mem_nil]
  have hs : (gRow).start y idx 1 = 0 := by
    unfold GatherDims.start
    rw [dif_neg (show ¬ (1 : Fin 2) ∈ (gRow).startIndexMap from (by decide : ¬ (1 : Fin 2) ∈ ([0] : List (Fin 2))))]
  have ho : (gRow).offCoord y 1 = (y 1).val := by
    unfold GatherDims.offCoord
    rw [dif_pos (show (1 : Fin 2) ∈ (gRow).sKept from (by decide : (1 : Fin 2) ∈ ([1] : List (Fin 2))))]
    rfl
  rw [hs, ho]; omega

/-- A 24 x 512 parameter gathered, at (i, o). -/
theorem gatherRow_apply {α : Type} (P : S24x512.Idx → α) (idx : IVec S64x1 32) (i : Fin 64) (o : Fin 512) :
    Host.gather gRow P idx (ix2 i o) = P (ix2 (Cert.DayAdapter.dayOf (idx (ix2 i 0))) o) := by
  unfold Host.gather
  congr 1
  funext a
  refine Fin.ext ?_
  match a with
  | ⟨0, _⟩ => exact gRow_axis0 idx i o
  | ⟨1, _⟩ => exact gRow_axis1 idx (ix2 i o)

/-! ## The broadcasts, each read at an index -/

/-- A 64 x 1024 array with a unit row axis inserted, at (i, 0, k). -/
theorem insRowB1_apply {α : Type} (v : S64x1024.Idx → α) (i : Fin 64) (k : Fin 1024) :
    broadcastInDim S64x1x1024 ![0, 2] bcast_S64x1024_S64x1x1024_0_2 v (ix3 i (0 : Fin 1) k) = v (ix2 i k) :=
  broadcastInDim_apply _ _ _ _ (ix2 i k) (fun a => by match a with | ⟨0, _⟩ => rfl | ⟨1, _⟩ => rfl)

/-- A 64 x 1 x 1024 array repeated along the rows, at (i, p, k). -/
theorem spreadB1_apply {α : Type} (v : S64x1x1024.Idx → α) (i : Fin 64) (p : Fin 512) (k : Fin 1024) :
    broadcastInDim S64x512x1024 ![0, 1, 2] bcast_S64x1x1024_S64x512x1024_0_1_2 v (ix3 i p k) = v (ix3 i (0 : Fin 1) k) :=
  broadcastInDim_apply _ _ _ _ (ix3 i (0 : Fin 1) k)
    (fun a => by match a with | ⟨0, _⟩ => rfl | ⟨1, _⟩ => rfl | ⟨2, _⟩ => rfl)

/-- A 64 x 512 array with a unit row axis inserted, at (i, 0, o). -/
theorem insRow_apply {α : Type} (v : S64x512.Idx → α) (i : Fin 64) (o : Fin 512) :
    broadcastInDim S64x1x512 ![0, 2] bcast_S64x512_S64x1x512_0_2 v (ix3 i (0 : Fin 1) o) = v (ix2 i o) :=
  broadcastInDim_apply _ _ _ _ (ix2 i o) (fun a => by match a with | ⟨0, _⟩ => rfl | ⟨1, _⟩ => rfl)

/-- A 64 x 1 x 512 array repeated along the rows, at (i, p, o). -/
theorem spreadRow_apply (r : FVec Ideal S64x1x512 .f32) (i : Fin 64) (p o : Fin 512) :
    spreadRow r (ix3 i p o) = r (ix3 i (0 : Fin 1) o) :=
  broadcastInDim_apply _ _ _ _ (ix3 i (0 : Fin 1) o)
    (fun a => by match a with | ⟨0, _⟩ => rfl | ⟨1, _⟩ => rfl | ⟨2, _⟩ => rfl)

/-- A 64 x 512 array with a unit last axis appended, at (i, p, 0). -/
theorem asCol_apply (s : FVec Ideal S64x512 .f32) (i : Fin 64) (p : Fin 512) :
    asCol s (ix3 i p (0 : Fin 1)) = s (ix2 i p) :=
  broadcastInDim_apply _ _ _ _ (ix2 i p) (fun a => by match a with | ⟨0, _⟩ => rfl | ⟨1, _⟩ => rfl)

/-- A scalar repeated over 64 x 512 x 1 reads the scalar everywhere. -/
theorem splat_apply (c : FVec Ideal S_ .f32) (j : S64x512x1.Idx) : splat c j = c ix0 :=
  broadcastInDim_scalar_apply _ c j

/-- A 64 x 512 x 1 array repeated along the last axis, at (i, p, o). -/
theorem spread_apply (m : FVec Ideal S64x512x1 .f32) (i : Fin 64) (p o : Fin 512) :
    spread m (ix3 i p o) = m (ix3 i p (0 : Fin 1)) :=
  broadcastInDim_apply _ _ _ _ (ix3 i p (0 : Fin 1))
    (fun a => by match a with | ⟨0, _⟩ => rfl | ⟨1, _⟩ => rfl | ⟨2, _⟩ => rfl)

/-! ## The two batched products -/

theorem dotA_lhs_0 (y : S64x512x1024.Idx) (q : (dotA).contr.Idx) : ((dotA).lhsIdx y q 0).val = (y 0).val := rfl
theorem dotA_lhs_1 (y : S64x512x1024.Idx) (q : (dotA).contr.Idx) : ((dotA).lhsIdx y q 1).val = (y 1).val := rfl
theorem dotA_lhs_2 (y : S64x512x1024.Idx) (q : (dotA).contr.Idx) :
    ((dotA).lhsIdx y q 2).val = (q ⟨0, Nat.one_pos⟩).val := (dotA).lhsIdx_val_of_single (cl := 2) rfl y q
theorem dotA_rhs_0 (y : S64x512x1024.Idx) (q : (dotA).contr.Idx) : ((dotA).rhsIdx y q 0).val = (y 0).val := rfl
theorem dotA_rhs_1 (y : S64x512x1024.Idx) (q : (dotA).contr.Idx) :
    ((dotA).rhsIdx y q 1).val = (q ⟨0, Nat.one_pos⟩).val := (dotA).rhsIdx_val_of_single (cr := 1) rfl y q
theorem dotA_rhs_2 (y : S64x512x1024.Idx) (q : (dotA).contr.Idx) : ((dotA).rhsIdx y q 2).val = (y 2).val := rfl

/-- The first product at (i, p, k): the sum over j of l(i, p, j) * r(i, j, k). -/
theorem dotA_apply (l : FVec Ideal S64x512x512 .f32) (r : FVec Ideal S64x512x1024 .f32) (i : Fin 64) (p : Fin 512) (k : Fin 1024) :
    Host.dotGeneral dotA none l r (ix3 i p k) = ∑ j : Fin 512, l (ix3 i p j) * r (ix3 i j k) := by
  simp only [Host.dotGeneral]
  rw [Ideal.dotGeneral_apply, ← Equiv.sum_comp (contrEquiv1 dotA 512 rfl rfl).symm]
  refine Finset.sum_congr rfl fun j _ => ?_
  have hk := contrEquiv1_symm_val dotA 512 rfl rfl j
  congr 1
  · refine congrArg l (funext fun a => Fin.ext ?_)
    match a with
    | ⟨0, _⟩ => exact dotA_lhs_0 _ _
    | ⟨1, _⟩ => exact dotA_lhs_1 _ _
    | ⟨2, _⟩ => exact (dotA_lhs_2 _ _).trans hk
  · refine congrArg r (funext fun a => Fin.ext ?_)
    match a with
    | ⟨0, _⟩ => exact dotA_rhs_0 _ _
    | ⟨1, _⟩ => exact (dotA_rhs_1 _ _).trans hk
    | ⟨2, _⟩ => exact dotA_rhs_2 _ _

theorem dotB_lhs_0 (y : S64x512x512.Idx) (q : (dotB).contr.Idx) : ((dotB).lhsIdx y q 0).val = (y 0).val := rfl
theorem dotB_lhs_1 (y : S64x512x512.Idx) (q : (dotB).contr.Idx) : ((dotB).lhsIdx y q 1).val = (y 1).val := rfl
theorem dotB_lhs_2 (y : S64x512x512.Idx) (q : (dotB).contr.Idx) :
    ((dotB).lhsIdx y q 2).val = (q ⟨0, Nat.one_pos⟩).val := (dotB).lhsIdx_val_of_single (cl := 2) rfl y q
theorem dotB_rhs_0 (y : S64x512x512.Idx) (q : (dotB).contr.Idx) : ((dotB).rhsIdx y q 0).val = (y 0).val := rfl
theorem dotB_rhs_1 (y : S64x512x512.Idx) (q : (dotB).contr.Idx) :
    ((dotB).rhsIdx y q 1).val = (q ⟨0, Nat.one_pos⟩).val := (dotB).rhsIdx_val_of_single (cr := 1) rfl y q
theorem dotB_rhs_2 (y : S64x512x512.Idx) (q : (dotB).contr.Idx) : ((dotB).rhsIdx y q 2).val = (y 2).val := rfl

/-- The second product at (i, p, o): the sum over k of l(i, p, k) * r(i, k, o). -/
theorem dotB_apply (l : FVec Ideal S64x512x1024 .f32) (r : FVec Ideal S64x1024x512 .f32) (i : Fin 64) (p o : Fin 512) :
    Host.dotGeneral dotB none l r (ix3 i p o) = ∑ k : Fin 1024, l (ix3 i p k) * r (ix3 i k o) := by
  simp only [Host.dotGeneral]
  rw [Ideal.dotGeneral_apply, ← Equiv.sum_comp (contrEquiv1 dotB 1024 rfl rfl).symm]
  refine Finset.sum_congr rfl fun k _ => ?_
  have hk := contrEquiv1_symm_val dotB 1024 rfl rfl k
  congr 1
  · refine congrArg l (funext fun a => Fin.ext ?_)
    match a with
    | ⟨0, _⟩ => exact dotB_lhs_0 _ _
    | ⟨1, _⟩ => exact dotB_lhs_1 _ _
    | ⟨2, _⟩ => exact (dotB_lhs_2 _ _).trans hk
  · refine congrArg r (funext fun a => Fin.ext ?_)
    match a with
    | ⟨0, _⟩ => exact dotB_rhs_0 _ _
    | ⟨1, _⟩ => exact (dotB_rhs_1 _ _).trans hk
    | ⟨2, _⟩ => exact dotB_rhs_2 _ _

/-! ## The sum over the last axis -/

/-- The row sum at (i, p): the sum over o of y(i, p, o) (the initial word is zero). -/
theorem rowSum_apply (y : FVec Ideal S64x512x512 .f32) (i : Fin 64) (p : Fin 512) :
    rowSum y (ix2 i p) = ∑ o : Fin 512, y (ix3 i p o) := by
  unfold rowSum
  rw [hostReduceAdd_apply,
    Ideal.hostReduceAdd_single reducesTo_S64x512x512_S64x512_d2 (by decide : S64x512x512.Reduces [2] S64x512)]
  show Ideal.ofBits .f32 0x00000000#32 + _ = _
  rw [Ideal.ofBits_zero_f32, zero_add]
  refine Finset.sum_congr rfl fun o _ => congrArg y (funext fun a => Fin.ext ?_)
  match a with
  | ⟨0, _⟩ => rfl
  | ⟨1, _⟩ => rfl
  | ⟨2, _⟩ => rfl

/-! ## The literal words at the extended reals -/

/-- The word 0x44000000 is 512. -/
theorem width_eq : Cert.DayAdapter.width = ((512 : ℝ) : EReal) := by
  unfold Cert.DayAdapter.width
  simp [Ideal.ofBits, Ideal.ieee]
  rw [← EReal.coe_mul]
  exact congrArg _ (by norm_num)

/-- The variance's divisor, 512 less the integer 0 converted, is the row length. -/
theorem divisor_apply : (divisor (F := Ideal)) ix0 = Cert.DayAdapter.width := by
  unfold divisor Cert.DayAdapter.width
  show Ideal.ofBits .f32 0x44000000#32 - (((0#32 : BitVec 32).toInt : ℝ) : EReal) = _
  simp

/-- The divisor is greater than zero, so the comparison that guards the variance holds. -/
theorem guard_apply :
    (cmpf .ogt (divisor (F := Ideal)) (constant S_ .f32 0x00000000#32)) ix0 = 1#1 := by
  show Ideal.cmp .ogt ((divisor (F := Ideal)) ix0) (Ideal.ofBits .f32 0x00000000#32) = 1#1
  rw [divisor_apply, Ideal.ofBits_zero_f32, width_eq]
  simp [Ideal.cmp]

/-! ## The two layers at an index -/

/-- The hidden layer at (i, p, k) is the specification's, with the parameters of sample i's day. -/
theorem hid_apply (x : FVec Ideal S64x512x512 .f32) (d : IVec S64 32) (W1 : FVec Ideal S24x512x1024 .f32)
    (B1 : FVec Ideal S24x1024 .f32) (i : Fin 64) (hd : 0 ≤ (d (ix1 i)).toInt) (p : Fin 512) (k : Fin 1024) :
    hid x d W1 B1 (ix3 i p k)
      = Cert.DayAdapter.hidden (fun r c => x (ix3 i r c))
          (fun j k => W1 (ix3 (Cert.DayAdapter.dayOf (d (ix1 i))) j k))
          (fun k => B1 (ix2 (Cert.DayAdapter.dayOf (d (ix1 i))) k)) p k := by
  unfold hid relu pre Cert.DayAdapter.hidden
  show max (Host.dotGeneral dotA none x (w1At W1 d) (ix3 i p k)
      + broadcastInDim S64x512x1024 ![0, 1, 2] bcast_S64x1x1024_S64x512x1024_0_1_2 (b1Row B1 d) (ix3 i p k))
      (broadcastInDim S64x512x1024 ![] bcast_S_S64x512x1024 (constant (F := Ideal) S_ .f32 0x00000000#32) (ix3 i p k)) = _
  rw [dotA_apply, spreadB1_apply, broadcastInDim_scalar_apply]
  unfold b1Row b1At
  rw [insRowB1_apply, gatherB1_apply, idxCol_apply d i hd]
  show max _ (Ideal.ofBits .f32 0x00000000#32) = _
  rw [Ideal.ofBits_zero_f32]
  congr 2
  refine Finset.sum_congr rfl fun j _ => ?_
  unfold w1At
  rw [gatherW1_apply, idxCol_apply d i hd]

/-- The second layer at (i, p, o) is the specification's, with the parameters of sample i's day. -/
theorem lin_apply (x : FVec Ideal S64x512x512 .f32) (d : IVec S64 32) (W1 : FVec Ideal S24x512x1024 .f32)
    (B1 : FVec Ideal S24x1024 .f32) (W2 : FVec Ideal S24x1024x512 .f32) (B2 : FVec Ideal S24x512 .f32)
    (i : Fin 64) (hd : 0 ≤ (d (ix1 i)).toInt) (p o : Fin 512) :
    lin x d W1 B1 W2 B2 (ix3 i p o)
      = Cert.DayAdapter.affine (fun r c => x (ix3 i r c))
          (fun j k => W1 (ix3 (Cert.DayAdapter.dayOf (d (ix1 i))) j k))
          (fun k => B1 (ix2 (Cert.DayAdapter.dayOf (d (ix1 i))) k))
          (fun k c => W2 (ix3 (Cert.DayAdapter.dayOf (d (ix1 i))) k c))
          (fun c => B2 (ix2 (Cert.DayAdapter.dayOf (d (ix1 i))) c)) p o := by
  unfold lin Cert.DayAdapter.affine
  show Host.dotGeneral dotB none (hid x d W1 B1) (w2At W2 d) (ix3 i p o) + spreadRow (rowRow B2 d) (ix3 i p o) = _
  rw [dotB_apply, spreadRow_apply]
  unfold rowRow rowAt
  rw [insRow_apply, gatherRow_apply, idxCol_apply d i hd]
  refine congrArg (fun s : EReal => s + B2 (ix2 (Cert.DayAdapter.dayOf (d (ix1 i))) o)) ?_
  refine Finset.sum_congr rfl fun k _ => ?_
  rw [hid_apply x d W1 B1 i hd p k]
  unfold w2At
  rw [gatherW2_apply, idxCol_apply d i hd]

/-- A gathered 24 x 512 parameter, spread over the rows, at (i, p, o): the parameter of sample i's day at o. -/
theorem param_apply (P : FVec Ideal S24x512 .f32) (d : IVec S64 32) (i : Fin 64) (hd : 0 ≤ (d (ix1 i)).toInt) (p o : Fin 512) :
    spreadRow (rowRow P d) (ix3 i p o) = P (ix2 (Cert.DayAdapter.dayOf (d (ix1 i))) o) := by
  rw [spreadRow_apply]
  unfold rowRow rowAt
  rw [insRow_apply, gatherRow_apply, idxCol_apply d i hd]

/-! ## The normalization at an index

Sample i of the array y is the matrix A. -/

section Norm

variable (y : FVec Ideal S64x512x512 .f32) (i : Fin 64) (A : Fin 512 → Fin 512 → EReal)
  (hy : ∀ p o : Fin 512, y (ix3 i p o) = A p o)

include hy

/-- The row mean. -/
theorem mean_apply (p : Fin 512) : mean y (ix3 i p (0 : Fin 1)) = Cert.DayAdapter.rowMean A p := by
  unfold mean Cert.DayAdapter.rowMean
  show Ideal.div (asCol (rowSum y) (ix3 i p (0 : Fin 1))) (splat (constant (F := Ideal) S_ .f32 0x44000000#32) (ix3 i p (0 : Fin 1))) = _
  rw [asCol_apply, rowSum_apply, splat_apply]
  simp only [hy]
  rfl

/-- The centred entry. -/
theorem centred_apply (p o : Fin 512) : centred y (ix3 i p o) = Cert.DayAdapter.centred A p o := by
  unfold centred Cert.DayAdapter.centred
  show y (ix3 i p o) - spread (mean y) (ix3 i p o) = _
  rw [spread_apply, mean_apply y i A hy p, hy]

/-- The row variance: the guard holds, so the quotient is kept. -/
theorem var_apply (p : Fin 512) : var y (ix3 i p (0 : Fin 1)) = Cert.DayAdapter.rowVar A p := by
  unfold var Cert.DayAdapter.rowVar
  show Scalar.select
      (broadcastInDim S64x512x1 ![] bcast_S_S64x512x1 (cmpf .ogt (divisor (F := Ideal)) (constant (F := Ideal) S_ .f32 0x00000000#32)) (ix3 i p (0 : Fin 1)))
      (Ideal.div (asCol (rowSum (mulf (centred y) (centred y))) (ix3 i p (0 : Fin 1))) (splat (divisor (F := Ideal)) (ix3 i p (0 : Fin 1))))
      (splat (id (constant (F := Ideal) S_ .f32 0x7FC00000#32)) (ix3 i p (0 : Fin 1))) = _
  rw [broadcastInDim_scalar_apply, guard_apply, select_one, asCol_apply, rowSum_apply, splat_apply, divisor_apply]
  congr 1
  refine Finset.sum_congr rfl fun o _ => ?_
  show centred y (ix3 i p o) * centred y (ix3 i p o) = _
  rw [centred_apply y i A hy p o]

/-- The row's scale. -/
theorem scale_apply (p : Fin 512) :
    scale y (ix3 i p (0 : Fin 1)) = Ideal.rsqrt (Cert.DayAdapter.rowVar A p + Cert.DayAdapter.eps) := by
  unfold scale
  show Ideal.rsqrt (var y (ix3 i p (0 : Fin 1)) + splat (constant (F := Ideal) S_ .f32 0x3727C5AC#32) (ix3 i p (0 : Fin 1))) = _
  rw [var_apply y i A hy p, splat_apply]
  rfl

/-- The normalized entry. -/
theorem normed_apply (p o : Fin 512) :
    normed y (ix3 i p o)
      = Cert.DayAdapter.centred A p o * Ideal.rsqrt (Cert.DayAdapter.rowVar A p + Cert.DayAdapter.eps) := by
  unfold normed
  show centred y (ix3 i p o) * spread (scale y) (ix3 i p o) = _
  rw [spread_apply, centred_apply y i A hy p o, scale_apply y i A hy p]

end Norm

/-! ## The result -/

/-- The reference's result at (i, p, o) is the specification's output: sample i's output with the parameters of its day. -/
theorem result_apply (x : FVec Ideal S64x512x512 .f32) (d : IVec S64 32) (W1 : FVec Ideal S24x512x1024 .f32)
    (B1 : FVec Ideal S24x1024 .f32) (W2 : FVec Ideal S24x1024x512 .f32) (B2 Gm Bt : FVec Ideal S24x512 .f32)
    (hd : ∀ i : Fin 64, 0 ≤ (d (ix1 i)).toInt) (i : Fin 64) (p o : Fin 512) :
    result (F := Ideal) x d W1 B1 W2 B2 Gm Bt (ix3 i p o) = Cert.DayAdapter.outAt x d W1 B1 W2 B2 Gm Bt i p o := by
  unfold result Cert.DayAdapter.outAt Cert.DayAdapter.sampleOut Cert.DayAdapter.layerNorm
  show normed (lin x d W1 B1 W2 B2) (ix3 i p o) * spreadRow (rowRow Gm d) (ix3 i p o) + spreadRow (rowRow Bt d) (ix3 i p o) = _
  rw [param_apply Gm d i (hd i) p o, param_apply Bt d i (hd i) p o,
    normed_apply (lin x d W1 B1 W2 B2) i _ (fun p o => lin_apply x d W1 B1 W2 B2 i (hd i) p o) p o]

end Cert.ReferenceIdeal.Hand

end
-- ==== Proof.DaysNonneg.lean ====
/-
  The precondition's last conjunct, read back: the printed predicate ends in "every day word is ≥ 0" (a compare of the
  day words with the zero word, reduced by `and` over the 64 samples, and-ed onto the finiteness conjuncts). If the
  predicate is all ones, each day word is nonnegative as a signed integer.
-/
import proofs.«427686_j87058987089974_3_alg».proof.Pre_finite_inputs
import Idealize.ShloMosaic.Lib.ReduceAll
import Idealize.ShloMosaic.Lib.ValueIdx
import Idealize.ShloMosaic.Lib.Affine

noncomputable section

namespace Cert.Pre_finite_inputs.Days

open Idealize.ShloMosaic Idealize.ShloMosaic.ValueIdx Cert.Pre_finite_inputs

variable {F : FTy → Type} [FloatOps F] [Facts]

instance : Subsingleton S_.Idx := ⟨fun a b => funext fun d => d.elim0⟩

/-- Under the precondition every day word is nonnegative. -/
theorem nonneg (a0 : FVec F S64x512x512 .f32) (a1 : IVec S64 32) (a2 : FVec F S24x512x1024 .f32) (a3 : FVec F S24x1024 .f32)
    (a4 : FVec F S24x1024x512 .f32) (a5 a6 a7 : FVec F S24x512 .f32)
    (h : fn (F := F) a0 a1 a2 a3 a4 a5 a6 a7 = fun _ => 1#1) (i : Fin 64) : 0 ≤ (a1 (ix1 i)).toInt := by
  have e := congrFun h ValueIdx.ix0
  dsimp only [fn, fn_part1, fn_part2] at e
  have e2 := (IntOp.andi_eq_one.mp (show IntOp.andi _ _ = 1#1 from e)).2
  have e3 : IntOp.cmpi .sge (a1 (ix1 i)) (0#32) = 1#1 := Host.reduce_andi_all _ _ _ _ _ e2 (ix1 i)
  have e4 : (0#32).sle (a1 (ix1 i)) = true := by
    have e3' : BitVec.ofBool ((0#32).sle (a1 (ix1 i))) = 1#1 := e3
    cases hb : (0#32).sle (a1 (ix1 i)) with
    | true => rfl
    | false => rw [hb] at e3'; exact absurd e3' (by decide)
  have e5 := BitVec.sle_iff_toInt_le.mp e4
  simpa using e5

end Cert.Pre_finite_inputs.Days

end
-- ==== Proof.lean ====
/-
  Per-day adapter: a two-layer perceptron with a ReLU, then a LayerNorm, each sample with the parameters of its day.

  The kernel clamps the day words into 0 .. 23, sorts the samples by clamped day, and computes one sample per grid point
  with that day's parameter blocks, writing the result back to the sample's own place through the sorting permutation.
  The reference gathers each sample's parameters by its day word (a negative word plus 24, then clamped into 0 .. 23)
  and computes all samples at once. Under the precondition every day word is nonnegative, so both select the same day
  ('Cert.DayAdapter.dayOf'), and at the ideal instance both results are, index by index, the specification
  'Cert.DayAdapter.outAt': the matrix products are the same finite sums, the LayerNorm the same quotients and the same
  reciprocal square root on the extended reals. No algebraic law beyond re-indexing sums is used, and the finiteness
  conjuncts of the precondition are not needed.

  The three frames: each program runs to the end, faults nowhere and leaves its arguments as launched — the two kernel
  programs by the launch theorem for a pipeline with prefetched tables, whose side condition (every table-indexed block
  inside its array) holds because a clamped day is at most 23 and a permutation of 0 .. 63 stays below 64; the reference
  by its run.
-/
import proofs.«427686_j87058987089974_3_alg».proof.Defs
import proofs.«427686_j87058987089974_3_alg».proof.Proof.Gen.Kernel
import proofs.«427686_j87058987089974_3_alg».proof.Proof.Gen.KernelIdeal
import proofs.«427686_j87058987089974_3_alg».proof.Proof.Gen.ReferenceIdeal
import proofs.«427686_j87058987089974_3_alg».proof.Proof.Gen.Pre_finite_inputs
import proofs.«427686_j87058987089974_3_alg».proof.Proof.K.FrameRun
import proofs.«427686_j87058987089974_3_alg».proof.Proof.K.DayTables
import proofs.«427686_j87058987089974_3_alg».proof.Proof.KI.KernelValue
import proofs.«427686_j87058987089974_3_alg».proof.Proof.Ref.HostRun
import proofs.«427686_j87058987089974_3_alg».proof.Proof.Ref.HostValue
import proofs.«427686_j87058987089974_3_alg».proof.Proof.DaysNonneg

noncomputable section

namespace Cert.Proof

open Idealize.ShloMosaic Idealize.ShloMosaic.TcCoe Idealize.ShloMosaic.ValueIdx Idealize.SL.Sem

/-- The word-level kernel program runs and keeps its arguments. -/
theorem frame_word : Cert.frame_Kernel (hKernel := Cert.Kernel.Gen.facts) (hPre_finite_inputs := Cert.Pre_finite_inputs.Gen.facts) :=
  fun m ρ _ => Cert.Kernel.Region.frame m ρ (Cert.Kernel.Region.ok_tables m)

/-- The idealized kernel program runs and keeps its arguments. -/
theorem frame_ideal : Cert.frame_KernelIdeal (hKernelIdeal := Cert.KernelIdeal.Gen.facts) (hPre_finite_inputs := Cert.Pre_finite_inputs.Gen.facts) :=
  fun m ρ _ => Cert.KernelIdeal.Region.frame m ρ (Cert.KernelIdeal.Region.ok_tables m)

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The two idealized programs, from memories agreeing on the arguments, end with equal results: each result is the
    specification of the (common) arguments, the kernel's through the permutation's blocks, the reference's index by
    index; the day words are nonnegative by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd : ∀ i : Fin 64, 0 ≤ ((Cert.KernelIdeal.Region.days m) (ix1 i)).toInt := fun i =>
    Cert.Pre_finite_inputs.Days.nonneg _ _ _ _ _ _ _ _ (hpre 0) i
  refine ⟨fun c => Cert.KernelIdeal.Region.finalOut m c, Cert.KernelIdeal.Region.run m ρ hd, ?_⟩
  refine (θ_run Cert.ReferenceIdeal.defs _ _).mono (fun _ h c => ⟨(h c).1.trans ?_, (h c).2⟩)
    (Cert.ReferenceIdeal.Hand.run (F := Ideal) m' ρ')
  obtain rfl : c = 0 := Subsingleton.elim _ _
  rw [(hagree 0).1, (hagree 0).2.1, (hagree 0).2.2.1, (hagree 0).2.2.2.1, (hagree 0).2.2.2.2.1, (hagree 0).2.2.2.2.2.1,
    (hagree 0).2.2.2.2.2.2.1, (hagree 0).2.2.2.2.2.2.2]
  funext j
  obtain ⟨i, p, o, rfl⟩ : ∃ (i : Fin 64) (p o : Fin 512), j = ix3 i p o := ⟨j 0, j 1, j 2, eq_ix3 j⟩
  exact (Cert.ReferenceIdeal.Hand.result_apply _ _ _ _ _ _ _ _ hd i p o).trans
    (Cert.KernelIdeal.Region.finalOut_apply m 0 i p o).symm

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
